-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S12288x256 : Shape := ⟨2, ![12288, 256]⟩
abbrev S128x256 : Shape := ⟨2, ![128, 256]⟩
abbrev S128 : Shape := ⟨1, ![128]⟩
abbrev S256x1 : Shape := ⟨2, ![256, 1]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S12288x12288 : S_.BroadcastsInDim S12288x12288 (![] : Fin 0 → Fin S12288x12288.rank)
  reducesTo_S12288x12288_S_d0_1 : S12288x12288.ReducesTo [0, 1] S_

variable [Facts]

def fn_part1 {F : FTy → Type} [FloatOps F] (main_arg0 : IVec S12288x12288 32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_c_6 : IVec S_ 32 := constantI S_ 32 0#32
  let main_v19 : IVec S12288x12288 32 := broadcastInDim S12288x12288 ![] bcast_S_S12288x12288 main_c_6
  let main_v20 : IVec S12288x12288 1 := cmpi .eq main_arg0 main_v19
  let main_c_7 : IVec S_ 32 := constantI S_ 32 1#32
  let main_v21 : IVec S12288x12288 32 := broadcastInDim S12288x12288 ![] bcast_S_S12288x12288 main_c_7
  let main_v22 : IVec S12288x12288 1 := cmpi .eq main_arg0 main_v21
  let main_v23 : IVec S12288x12288 1 := ori main_v20 main_v22
  let main_c_8 : IVec S_ 1 := constantI S_ 1 1#1
  let main_v24 : IVec S_ 1 := (fun x v => Host.reduce IntOp.andi x v reducesTo_S12288x12288_S_d0_1 h_S_) main_v23 main_c_8
  let main_v25 : IVec S_ 1 := andi main_v18 main_v24
  main_v25

def fn {F : FTy → Type} [FloatOps F] (main_arg0 : IVec S12288x12288 32) (main_arg1 : FVec F S12288x256 .f32) (main_arg2 : FVec F S128x256 .f32) (main_arg3 : FVec F S128 .f32) (main_arg4 : FVec F S256x1 .f32) : IVec S_ 1 :=
  let main_v0 : FVec F S12288x256 .f32 := Host.absf main_arg1
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg0 main_v13 main_v16
-- ==== Kernel.lean ====
abbrev S12288x12288 : Shape := ⟨2, ![12288, 12288]⟩
abbrev S12288x256 : Shape := ⟨2, ![12288, 256]⟩
abbrev S128x256 : Shape := ⟨2, ![128, 256]⟩
abbrev S128 : Shape := ⟨1, ![128]⟩
abbrev S256x1 : Shape := ⟨2, ![256, 1]⟩
abbrev S1x128 : Shape := ⟨2, ![1, 128]⟩
abbrev S12288x128 : Shape := ⟨2, ![12288, 128]⟩
abbrev S1536x256 : Shape := ⟨2, ![1536, 256]⟩
abbrev S1536x128 : Shape := ⟨2, ![1536, 128]⟩
abbrev S128x1 : Shape := ⟨2, ![128, 1]⟩
abbrev S1024x1024 : Shape := ⟨2, ![1024, 1024]⟩
abbrev S1024x128 : Shape := ⟨2, ![1024, 128]⟩
abbrev S1024x1 : Shape := ⟨2, ![1024, 1]⟩
abbrev S1x1024 : Shape := ⟨2, ![1, 1024]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S12288x12288, .i32⟩
  | .hbm, ⟨1, _⟩ => ⟨S12288x256, .f32⟩
  | .hbm, ⟨2, _⟩ => ⟨S128x256, .f32⟩
  | .hbm, ⟨3, _⟩ => ⟨S128, .f32⟩
  | .hbm, ⟨4, _⟩ => ⟨S256x1, .f32⟩
  | .hbm, ⟨5, _⟩ => ⟨S1x128, .f32⟩
  | .hbm, ⟨6, _⟩ => ⟨S12288x128, .f32⟩
  | .hbm, ⟨7, _⟩ => ⟨S128x1, .f32⟩
  | .hbm, ⟨8, _⟩ => ⟨S1x128, .f32⟩
  | .hbm, ⟨9, _⟩ => ⟨S128x1, .f32⟩
  | .hbm, ⟨10, _⟩ => ⟨S1x128, .f32⟩
  | .hbm, ⟨11, _⟩ => ⟨S12288x128, .f32⟩
  | .local _ .vmem, ⟨0, _⟩ => ⟨S1536x256, .f32⟩
  | .local _ .vmem, ⟨1, _⟩ => ⟨S1536x256, .f32⟩
  | .local _ .vmem, ⟨2, _⟩ => ⟨S128x256, .f32⟩
  | .local _ .vmem, ⟨3, _⟩ => ⟨S1x128, .f32⟩
  | .local _ .vmem, ⟨4, _⟩ => ⟨S1536x128, .f32⟩
  | .local _ .vmem, ⟨5, _⟩ => ⟨S1536x128, .f32⟩
  | .local _ .vmem, ⟨6, _⟩ => ⟨S1024x1024, .i32⟩
  | .local _ .vmem, ⟨7, _⟩ => ⟨S1024x1024, .i32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | _, _ => ⟨S12288x12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![12, 12], ![false, false]⟩

def k1_cond2 (i : grid1.Coords) : BitVec 1 :=
  let arg1 : BitVec 32 := BitVec.ofNat 32 (i 1).val
  let c11_i32 : BitVec 32 := 11#32
  let v68 : BitVec 1 := Scalar.cmpi .eq arg1 c11_i32
  let v69 : BitVec 32 := Scalar.extui v68
  let c0_i32_31 : BitVec 32 := 0#32
  let v70 : BitVec 1 := Scalar.cmpi .ne v69 c0_i32_31
  v70

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S128_S1x128 : S128.ShapeCasts S1x128
  inb_S1536x256_S1536x256_0_0 : ∀ a, (![0, 0] : Fin 2 → Nat) a + S1536x256.size a ≤ S1536x256.size a
  h_S1536x256 : 0 < S1536x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1536x128 : S1x128.Broadcasts S1536x128
  inb_S1536x128_S1536x128_0_0 : ∀ a, (![0, 0] : Fin 2 → Nat) a + S1536x128.size a ≤ S1536x128.size a
  h_S1536x128 : 0 < S1536x128.numel
  slices_S256x1_S128x1_0_0 : S256x1.Slices ![0, 0] S128x1
  shapeCasts_S128x1_S1x128 : S128x1.ShapeCasts S1x128
  slices_S256x1_S128x1_128_0 : S256x1.Slices ![128, 0] S128x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  broadcasts_S1024x1_S1024x128 : S1024x1.Broadcasts S1024x128
  dot_S1536x256_S128x256_S1536x128_1_1_0_0_n_n_wf : DotDims.WF S1536x256 S128x256 S1536x128 [1] [1] [0] [0] [] []
  dot_S1024x128_S1x128_S1024x1_1_1_0_0_n_n_wf : DotDims.WF S1024x128 S1x128 S1024x1 [1] [1] [0] [0] [] []
  dot_S1x128_S1024x128_S1x1024_1_1_0_0_n_n_wf : DotDims.WF S1x128 S1024x128 S1x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x256.size a ≤ S12288x256.size a
  hwx0_0 : ∀ i : grid0.Coords, EltTy.bits .f32 = 32 ∨ (Rect.block (s := S12288x256) S1536x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x128.size a ≤ S12288x128.size a
  hwx0_3 : ∀ i : grid0.Coords, EltTy.bits .f32 = 32 ∨ (Rect.block (s := S12288x128) S1536x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .i32 = 32 ∨ (Rect.block (s := S12288x12288) S1024x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S12288x128.size a
  hwx1_1 : ∀ i : grid1.Coords, EltTy.bits .f32 = 32 ∨ (Rect.block (s := S12288x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S12288x128.size a
  hwx1_2 : ∀ i : grid1.Coords, EltTy.bits .f32 = 32 ∨ (Rect.block (s := S12288x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S12288x128.size a
  hwx1_5 : ∀ i : grid1.Coords, EltTy.bits .f32 = 32 ∨ (Rect.block (s := S12288x128) S1024x128.size (cc1_transform_5 i) (hinb1_5 i)).WholeWords (EltTy.packing .f32)

variable [Facts₀]

def dot_S1536x256_S128x256_S1536x128_1_1_0_0_n_n : DotDims S1536x256 S128x256 S1536x128 where
  lhsContracting := [1]
  rhsContracting := [1]
  lhsNonContracting := [0]
  rhsNonContracting := [0]
  lhsBatch := []
  rhsBatch := []
  wf := dot_S1536x256_S128x256_S1536x128_1_1_0_0_n_n_wf
def dot_S1024x128_S1x128_S1024x1_1_1_0_0_n_n : DotDims S1024x128 S1x128 S1024x1 where
  lhsContracting := [1]
  rhsContracting := [1]
  lhsNonContracting := [0]
  rhsNonContracting := [0]
  lhsBatch := []
  rhsBatch := []
  wf := dot_S1024x128_S1x128_S1024x1_1_1_0_0_n_n_wf
def dot_S1x128_S1024x128_S1x1024_1_1_0_0_n_n : DotDims S1x128 S1024x128 S1x1024 where
  lhsContracting := [1]
  rhsContracting := [1]
  lhsNonContracting := [0]
  rhsNonContracting := [0]
  lhsBatch := []
  rhsBatch := []
  wf := dot_S1x128_S1024x128_S1x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1536x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1536x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S12288x12288 : Shape := ⟨2, ![12288, 12288]⟩
abbrev S12288x256 : Shape := ⟨2, ![12288, 256]⟩
abbrev S128x256 : Shape := ⟨2, ![128, 256]⟩
abbrev S128 : Shape := ⟨1, ![128]⟩
abbrev S256x1 : Shape := ⟨2, ![256, 1]⟩
abbrev S256x128 : Shape := ⟨2, ![256, 128]⟩
abbrev S12288x128 : Shape := ⟨2, ![12288, 128]⟩
abbrev S1x128 : Shape := ⟨2, ![1, 128]⟩
abbrev S128x1 : Shape := ⟨2, ![128, 1]⟩
abbrev S12288x1 : Shape := ⟨2, ![12288, 1]⟩
abbrev S1x12288 : Shape := ⟨2, ![1, 12288]⟩
abbrev S_ : Shape := ⟨0, ![]⟩
abbrev S12288 : Shape := ⟨1, ![12288]⟩

abbrev nBuf : Space → Nat
  | .hbm => 64
  | .vmem => 0
  | .smem => 0
  | _ => 0

abbrev bufTy : (tb : Table) → Fin (tcTables nBuf tb) → BufTy
  | .hbm, ⟨0, _⟩ => ⟨S12288x12288, .i32⟩
  | .hbm, ⟨1, _⟩ => ⟨S12288x256, .f32⟩
  | .hbm, ⟨2, _⟩ => ⟨S128x256, .f32⟩
  | .hbm, ⟨3, _⟩ => ⟨S128, .f32⟩
  | .hbm, ⟨4, _⟩ => ⟨S256x1, .f32⟩
  | .hbm, ⟨5, _⟩ => ⟨S256x128, .f32⟩
  | .hbm, ⟨6, _⟩ => ⟨S12288x128, .f32⟩
  | .hbm, ⟨7, _⟩ => ⟨S1x128, .f32⟩
  | .hbm, ⟨8, _⟩ => ⟨S12288x128, .f32⟩
  | .hbm, ⟨9, _⟩ => ⟨S12288x128, .f32⟩
  | .hbm, ⟨10, _⟩ => ⟨S128x1, .f32⟩
  | .hbm, ⟨11, _⟩ => ⟨S12288x1, .f32⟩
  | .hbm, ⟨12, _⟩ => ⟨S128x1, .f32⟩
  | .hbm, ⟨13, _⟩ => ⟨S12288x1, .f32⟩
  | .hbm, ⟨14, _⟩ => ⟨S1x12288, .f32⟩
  | .hbm, ⟨15, _⟩ => ⟨S12288x12288, .f32⟩
  | .hbm, ⟨16, _⟩ => ⟨S12288x12288, .f32⟩
  | .hbm, ⟨17, _⟩ => ⟨S12288x12288, .f32⟩
  | .hbm, ⟨18, _⟩ => ⟨S_, .f32⟩
  | .hbm, ⟨19, _⟩ => ⟨S_, .f32⟩
  | .hbm, ⟨20, _⟩ => ⟨S12288x12288, .f32⟩
  | .hbm, ⟨21, _⟩ => ⟨S12288x12288, .i1⟩
  | .hbm, ⟨22, _⟩ => ⟨S_, .f32⟩
  | .hbm, ⟨23, _⟩ => ⟨S12288x12288, .f32⟩
  | .hbm, ⟨24, _⟩ => ⟨S12288x12288, .f32⟩
  | .hbm, ⟨25, _⟩ => ⟨S12288x12288, .f32⟩
  | .hbm, ⟨26, _⟩ => ⟨S12288x12288, .f32⟩
  | .hbm, ⟨27, _⟩ => ⟨S12288x12288, .i32⟩
  | .hbm, ⟨28, _⟩ => ⟨S12288x12288, .i32⟩
  | .hbm, ⟨29, _⟩ => ⟨S_, .i32⟩
  | .hbm, ⟨30, _⟩ => ⟨S12288x12288, .i32⟩
  | .hbm, ⟨31, _⟩ => ⟨S12288x12288, .i32⟩
  | .hbm, ⟨32, _⟩ => ⟨S12288x12288, .i1⟩
  | .hbm, ⟨33, _⟩ => ⟨S12288x12288, .f32⟩
  | .hbm, ⟨34, _⟩ => ⟨S12288x12288, .f32⟩
  | .hbm, ⟨35, _⟩ => ⟨S_, .f32⟩
  | .hbm, ⟨36, _⟩ => ⟨S12288x12288, .f32⟩
  | .hbm, ⟨37, _⟩ => ⟨S12288x12288, .i1⟩
  | .hbm, ⟨38, _⟩ => ⟨S_, .f32⟩
  | .hbm, ⟨39, _⟩ => ⟨S12288x12288, .f32⟩
  | .hbm, ⟨40, _⟩ => ⟨S12288x12288, .f32⟩
  | .hbm, ⟨41, _⟩ => ⟨S_, .f32⟩
  | .hbm, ⟨42, _⟩ => ⟨S12288, .f32⟩
  | .hbm, ⟨43, _⟩ => ⟨S_, .f32⟩
  | .hbm, ⟨44, _⟩ => ⟨S12288, .f32⟩
  | .hbm, ⟨45, _⟩ => ⟨S12288, .f32⟩
  | .hbm, ⟨46, _⟩ => ⟨S12288x1, .f32⟩
  | .hbm, ⟨47, _⟩ => ⟨S12288x12288, .f32⟩
  | .hbm, ⟨48, _⟩ => ⟨S12288x12288, .f32⟩
  | .hbm, ⟨49, _⟩ => ⟨S12288x12288, .f32⟩
  | .hbm, ⟨50, _⟩ => ⟨S_, .f32⟩
  | .hbm, ⟨51, _⟩ => ⟨S12288, .f32⟩
  | .hbm, ⟨52, _⟩ => ⟨S12288x1, .f32⟩
  | .hbm, ⟨53, _⟩ => ⟨S12288x12288, .f32⟩
  | .hbm, ⟨54, _⟩ => ⟨S12288x12288, .f32⟩
  | .hbm, ⟨55, _⟩ => ⟨S12288x128, .f32⟩
  | .hbm, ⟨56, _⟩ => ⟨S_, .f32⟩
  | .hbm, ⟨57, _⟩ => ⟨S_, .f32⟩
  | .hbm, ⟨58, _⟩ => ⟨S12288x128, .f32⟩
  | .hbm, ⟨59, _⟩ => ⟨S12288x128, .i1⟩
  | .hbm, ⟨60, _⟩ => ⟨S_, .f32⟩
  | .hbm, ⟨61, _⟩ => ⟨S12288x128, .f32⟩
  | .hbm, ⟨62, _⟩ => ⟨S12288x128, .f32⟩
  | .hbm, ⟨63, _⟩ => ⟨S12288x128, .f32⟩
  | _, _ => ⟨S12288x12288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_call1_v0 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  slices_S256x1_S128x1_0_0 : S256x1.Slices ![0, 0] S128x1
  slices_S256x1_S128x1_128_0 : S256x1.Slices ![128, 0] S128x1
  transposes_S12288x1_S1x12288_1_0 : S12288x1.Transposes [1, 0] S1x12288
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S_S12288x128 : S_.BroadcastsInDim S12288x128 (![] : Fin 0 → Fin S12288x128.rank)
  dot_S12288x256_S256x128_S12288x128_1_0_0_1_n_n_wf : DotDims.WF S12288x256 S256x128 S12288x128 [1] [0] [0] [1] [] []
  dot_S12288x128_S128x1_S12288x1_1_0_0_1_n_n_wf : DotDims.WF S12288x128 S128x1 S12288x1 [1] [0] [0] [1] [] []
  dot_S12288x12288_S12288x128_S12288x128_1_0_0_1_n_n_wf : DotDims.WF S12288x12288 S12288x128 S12288x128 [1] [0] [0] [1] [] []

variable [Facts₀]

def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x128_S128x1_S12288x1_1_0_0_1_n_n : DotDims S12288x128 S128x1 S12288x1 where
  lhsContracting := [1]
  rhsContracting := [0]
  lhsNonContracting := [0]
  rhsNonContracting := [1]
  lhsBatch := []
  rhsBatch := []
  wf := dot_S12288x128_S128x1_S12288x1_1_0_0_1_n_n_wf
def dot_S12288x12288_S12288x128_S12288x128_1_0_0_1_n_n : DotDims S12288x12288 S12288x128 S12288x128 where
  lhsContracting := [1]
  rhsContracting := [0]
  lhsNonContracting := [0]
  rhsNonContracting := [1]
  lhsBatch := []
  rhsBatch := []
  wf := dot_S12288x12288_S12288x128_S12288x128_1_0_0_1_n_n_wf

class Facts : Prop extends Facts₀ where

variable [Facts]
-- ==== Proof.KI.Step.lean ====
/-
  The attention kernel's work at one grid point as pure functions of the running state it keeps between points.

  The kernel visits the 12 × 12 tiles of the score matrix row tile by row tile; within a row tile `i` it walks the
  column tiles `j = 0 … 11` and keeps, for each of the tile's 1024 rows, the running maximum `m`, the running sum of
  exponentials `l` and the running weighted sum of the column tile's features `acc`. At `j = 0` the three are reset
  (to −∞, 0 and 0) before the step; at `j = 11` the result block is `acc · (1 / l)` passed through the leaky rectifier.
  Everything here is generic in the float instance; the arithmetic is the payload terms of the kernel's skeleton.
-/
import proofs.«413493_j46600395162312_3_alg».proof.Proof.Gen.KernelIdeal.Skeleton

noncomputable section

namespace Cert.KernelIdeal.Hand

open Idealize.ShloMosaic Cert.KernelIdeal Cert.KernelIdeal.Gen

variable {F : FTy → Type} [FloatOps F]

/-- The state carried between grid points: running maximum, running sum, running weighted sum. -/
abbrev Sc (F : FTy → Type) [FloatOps F] : Type := Vec F S1024x1 .f32 × Vec F S1024x1 .f32 × Vec F S1024x128 .f32

/-- The fill of a masked entry, as the kernel carries it. -/
def negC : F .f32 := Scalar.ofBits .f32 0xE0AD78EC#32

/-- The state a row tile starts from: maximum −∞, sums zero. -/
def initSc : Sc F := (k1_pay9 (F := F), k1_pay10 (F := F), k1_pay11 (F := F))

/-- One column tile taken in: from the adjacency tile, the row tile's and the column tile's projected features and the
    two halves of φ, the new maximum, the rescaled sum plus the tile's exponentials, the rescaled weighted sum plus the
    tile's weighted features. -/
def stepSc (i : grid1.Coords) (adj : Vec F S1024x1024 .i32) (row col : Vec F S1024x128 .f32) (p1 p2 : Vec F S1x128 .f32)
    (s : Sc F) : Sc F :=
  (k1_pay7 (k1_pay14 row col p1 p2) (k1_pay15 i adj) negC s.1,
   k1_pay5 (k1_pay14 row col p1 p2) (k1_pay15 i adj) negC s.1 s.2.1,
   k1_pay6 (k1_pay13 col) (k1_pay14 row col p1 p2) (k1_pay15 i adj) negC s.1 s.2.2)

/-- The result block of a row tile from its final state: the weighted sum times the reciprocal of the sum, rectified. -/
def outOf (s : Sc F) : Vec F S1024x128 .f32 := k1_pay8 s.2.2 s.2.1

end Cert.KernelIdeal.Hand

end
-- ==== Proof.KI.Blocks.lean ====
/-
  The blocks the two kernels read at each grid point, and the attention kernel's carried state point by point.

  With `V` the contents of the core's buffers when a region is entered, window `w`'s block at grid point `t` is the
  part of its array that the window's index map selects there. The projection kernel's grid has 8 points (row tiles
  of 1536 rows); the attention kernel's has 144 = 12 × 12 points, point `t` being row tile `t / 12` and column tile
  `t % 12`. `scAt1` is the running state after the body at each point: a step from the reset state at the first column
  tile of a row tile, a step from what the point before left otherwise.
-/
import proofs.«413493_j46600395162312_3_alg».proof.Proof.KI.Step
import proofs.«413493_j46600395162312_3_alg».proof.Proof.Gen.KernelIdeal.Launch
import proofs.«413493_j46600395162312_3_alg».proof.Proof.Gen.KernelIdeal.Points

noncomputable section

namespace Cert.KernelIdeal.Hand

open Idealize.ShloMosaic Idealize.ShloMosaic.TcCoe Idealize.SL.Sem Cert.KernelIdeal Cert.KernelIdeal.Gen

variable {F : FTy → Type} [FloatOps F]
variable (V : (c : Dev nD) → (b : Ref sig .tc) → Buf (Elt F) ((c : Thread nD τ).loc b))

/-- Window `w` of the projection kernel at point `t`: its block of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the attention kernel at point `t`: its block of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection kernel's three input blocks at a point, at their literal types: 1536 rows of the inputs, the whole
    weight matrix, the bias row. -/
abbrev xBlk (c : Dev nD) (t : Fin cfg0.N) : Vec F S1536x256 .f32 := iblk0 V c 0 t
abbrev wBlk (c : Dev nD) (t : Fin cfg0.N) : Vec F S128x256 .f32 := iblk0 V c 1 t
abbrev bBlk (c : Dev nD) (t : Fin cfg0.N) : Vec F S1x128 .f32 := iblk0 V c 2 t

/-- The attention kernel's five input blocks at a point, at their literal types: the adjacency tile, the row tile's
    and the column tile's projected features, the two halves of φ as rows. -/
abbrev adjBlk (c : Dev nD) (t : Fin cfg1.N) : Vec F S1024x1024 .i32 := iblk1 V c 0 t
abbrev rowBlk (c : Dev nD) (t : Fin cfg1.N) : Vec F S1024x128 .f32 := iblk1 V c 1 t
abbrev colBlk (c : Dev nD) (t : Fin cfg1.N) : Vec F S1024x128 .f32 := iblk1 V c 2 t
abbrev phi1Blk (c : Dev nD) (t : Fin cfg1.N) : Vec F S1x128 .f32 := iblk1 V c 3 t
abbrev phi2Blk (c : Dev nD) (t : Fin cfg1.N) : Vec F S1x128 .f32 := iblk1 V c 4 t

/-- The step the attention kernel's body makes at point `t` from a carried state. -/
def stepAt1 (c : Dev nD) (t : Fin cfg1.N) (s : Sc F) : Sc F :=
  stepSc (grid1.coords t) (adjBlk V c t) (rowBlk V c t) (colBlk V c t) (phi1Blk V c t) (phi2Blk V c t) s

/-- The carried state after the body at position `n`: a step from the reset state where a row tile begins
    (`n` a multiple of 12), a step from what position `n − 1` left otherwise. -/
def scAt1 (c : Dev nD) : (n : ℕ) → n < cfg1.N → Sc F
  | 0, hn => stepAt1 V c ⟨0, hn⟩ initSc
  | n + 1, hn => stepAt1 V c ⟨n + 1, hn⟩ (if (n + 1) % 12 = 0 then initSc else scAt1 c n (Nat.lt_of_succ_lt hn))

theorem scAt1_first (c : Dev nD) (t : Fin cfg1.N) (h : t.val % 12 = 0) :
    scAt1 V c t.val t.isLt = stepAt1 V c t initSc := by
  obtain ⟨n, hn⟩ := t
  cases n with
  | zero => rfl
  | succ n => simp only [scAt1]; rw [if_pos h]

theorem scAt1_next (c : Dev nD) (t : Fin cfg1.N) (h : ¬t.val % 12 = 0) :
    scAt1 V c t.val t.isLt = stepAt1 V c t (scAt1 V c (t.val - 1) (Nat.lt_of_le_of_lt (Nat.sub_le _ _) t.isLt)) := by
  obtain ⟨n, hn⟩ := t
  cases n with
  | zero => exact absurd (Nat.zero_mod _) h
  | succ n => simp only [scAt1]; rw [if_neg h]; rfl

end Cert.KernelIdeal.Hand

end
-- ==== Proof.KI.Region0.lean ====
/-
  The projection kernel's half of the program's frame: the proof data of its pipeline and its body's obligation.

  The kernel visits 8 row tiles of 1536 rows. At each it loads the tile of inputs, the whole weight matrix and the
  bias row, forms the tile of x · Wᵀ + b (both factors rounded to bf16, the products summed in f32), reads the output
  buffer once without using what it read, and stores the tile over the whole output block. So after the body at point
  t the three input buffers hold their blocks as fetched and the output buffer holds that tile. The weight matrix and
  the bias row are fetched at the first point only: their block index never moves, so the buffer still holds the
  block at every later point.
-/
import proofs.«413493_j46600395162312_3_alg».proof.Proof.KI.Blocks
import Idealize.ShloMosaic.Lib.Pipeline.FrameBody
import Idealize.ShloMosaic.Lib.Pipeline.Value
import Idealize.ShloMosaic.Lib.Pipeline.Regions
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the one store take the whole buffer, from offset zero -/

abbrev xTileRect : Rect S1536x256 := Rect.unit (s := S1536x256) ![0, 0] S1536x256.size inb_S1536x256_S1536x256_0_0
abbrev weightRect : Rect S128x256 := Rect.unit (s := S128x256) ![0, 0] S128x256.size inb_S128x256_S128x256_0_0
abbrev biasRect : Rect S1x128 := Rect.unit (s := S1x128) ![0, 0] S1x128.size inb_S1x128_S1x128_0_0
abbrev projTileRect : Rect S1536x128 := Rect.unit (s := S1536x128) ![0, 0] S1536x128.size inb_S1536x128_S1536x128_0_0

/-- The offsets of all four are zero on both axes. -/
theorem offsets_zero2 : (![0, 0] : Fin 2 → ℕ) = fun _ => 0 := funext fun a => by fin_cases a <;> rfl

/-! ## What the body leaves in the output buffer -/

/-- The output buffer after the body, from the three input buffers' contents: the one store's payload over its
    rectangle, the payload taken of what the three loads read. -/
def projStored (x : Vec F S1536x256 .f32) (w : Vec F S128x256 .f32) (b : Vec F S1x128 .f32) : Vec F S1536x128 .f32 :=
  View.canon [⟨projTileRect, k0_pay1 (View.ld x xTileRect) (View.ld w weightRect) (View.ld b biasRect)⟩]

/-- The store's rectangle is the whole block, so it covers it. -/
theorem projStored_cover (p : Vec F S1536x128 .f32) (y : S1536x128.Idx) :
    ∃ pc ∈ ([⟨projTileRect, p⟩] : List (View.Piece (Elt F) S1536x128 .f32)), y ∈ pc.1.set :=
  ⟨_, List.mem_singleton_self _, View.mem_set_unit_zero offsets_zero2 inb_S1536x128_S1536x128_0_0 y⟩

/-- The stored tile is the payload of the three contents themselves: a load of the whole buffer reads it, a store over
    the whole buffer leaves its payload. -/
theorem projStored_eq (x : Vec F S1536x256 .f32) (w : Vec F S128x256 .f32) (b : Vec F S1x128 .f32) :
    projStored x w b = k0_pay1 x w b := by
  unfold projStored
  rw [View.canon_unit_zero offsets_zero2, View.ld_unit_zero offsets_zero2, View.ld_unit_zero offsets_zero2,
    View.ld_unit_zero offsets_zero2]

/-! ## The body's triple -/

set_option maxHeartbeats 1000000 in
/-- The body on whole staging memrefs — the three inputs' at contents x, w, b, the output's at anything — runs to the
    continuation holding the inputs' as they were and the output's at the stored tile. -/
theorem project_body_sound (c : Dev nD) (E : Set ℕ) (i : grid0.Coords)
    (arg1 : Memref sig .tc .vmem S1536x256 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S1536x128 .f32) (harg4 : arg4.IsWhole)
    (x : Vec F S1536x256 .f32) (w : Vec F S128x256 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projStored x w b)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projStored_cover _)

/-! ## The pipeline's proof data -/

/-- The proof data of the projection pipeline on core c: the arrays as the region finds them; after the body at point
    t each input's buffer at its block and the output's at the stored tile of the three blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projStored (xBlk V c t) (wBlk V c t) (bBlk V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

/-- Nothing is owed at any point. -/
theorem owed0 (c : Dev nD) (t : Fin (cfg0.N + 1)) : (dat0 V c).owed t = 0 := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3_stored (c : Dev nD) (t : Fin cfg0.N) :
    (dat0 V c).after 3 t = projStored (xBlk V c t) (wBlk V c t) (bBlk V c t) := by dsimp only [dat0]

/-- The output block after the body at point t: the projected tile of the three input blocks. -/
theorem after0_3 (c : Dev nD) (t : Fin cfg0.N) : (dat0 V c).after 3 t = k0_pay1 (xBlk V c t) (wBlk V c t) (bBlk V c t) := by
  rw [after0_3_stored, projStored_eq]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3_stored]
  iintro ⟨HΦ, Ho, ⟨%d0, H0⟩, ⟨%d1, H1⟩, ⟨%d2, H2⟩, ⟨%d3, H3⟩⟩
  iapply (project_body_sound c Set.univ _ _ _ _ _ _ _ _ _ (xBlk V c t) (wBlk V c t) (bBlk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The attention region's half of the frame: the proof data of the second pipeline and what its body does at a point.

  The attention kernel visits the 12 × 12 tiles of the score matrix, row tile by row tile. At a point it reads five
  staged blocks (the adjacency tile, the row tile's and the column tile's projected features, the two halves of φ),
  and keeps three buffers of its own between points: the running maximum, the running sum of exponentials and the
  running weighted sum. At the first column tile of a row tile it resets the three before the step; at the last
  column tile it divides the weighted sum by the sum, rectifies, and stores the result block, which the pipeline
  writes back there and nowhere else. So a point is in one of three cases by its column tile — first, middle,
  last —, and in each the body is run once against the kernel's skeleton: every store of the kernel overwrites a
  whole buffer, so what a buffer holds afterwards is the last payload stored into it, and a load that follows a
  store reads that payload. The carried buffers after the body at point `t` therefore hold `scAt1 V c t`,
  the result block at a last column tile is `outOf` of it, and the staged inputs are left as they were.
-/
import proofs.«413493_j46600395162312_3_alg».proof.Proof.KI.Blocks
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, and where the result window is idle -/

/-- The condition of the reset (the first `scf.if`, inside the kernel's first part): the column coordinate is 0. -/
abbrev colFirst (i : grid1.Coords) : Prop :=
  (Scalar.cmpi .ne (Scalar.extui (Scalar.cmpi .eq (BitVec.ofNat 32 (i 1).val) 0#32)) 0#32) = 1#1

/-- It holds at the first column tile of each row tile. -/
theorem colFirst_iff : ∀ t : Fin cfg1.N, colFirst (grid1.coords t) ↔ t.val % 12 = 0 :=
  (by decide +kernel : ∀ t : Fin grid1.N, colFirst (grid1.coords t) ↔ t.val % 12 = 0)

/-- The condition of the result's store (the second `scf.if`): the column coordinate is 11. -/
abbrev colLast (i : grid1.Coords) : Prop := k1_cond2 i = 1#1

/-- It holds at the last column tile of each row tile. -/
theorem colLast_iff : ∀ t : Fin cfg1.N, colLast (grid1.coords t) ↔ t.val % 12 = 11 :=
  (by decide +kernel : ∀ t : Fin grid1.N, colLast (grid1.coords t) ↔ t.val % 12 = 11)

/-- The result window is idle off the last column tile, -/
theorem idleAt1_5 : ∀ t : Fin cfg1.N, ¬colLast (grid1.coords t) → cfg1.idle 5 (grid1.coords t) = true := by decide +kernel
/-- not written back there, -/
theorem noFlush1_5 : ∀ t : Fin cfg1.N, ¬colLast (grid1.coords t) → (cfg1.win 5).flush t = false := by decide +kernel
/-- and live at the last column tile. -/
theorem liveAt1_5 : ∀ t : Fin cfg1.N, colLast (grid1.coords t) → cfg1.idle 5 (grid1.coords t) = false := by decide +kernel

/-! ## The memrefs the body is called with -/

/-- Each window's current staging memref at point `t`, spelled as the pipeline passes it, and its wholeness. -/
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

/-- The three buffers the kernel carries between points: running maximum, running sum, running weighted sum. -/
abbrev scMax : Memref sig .tc .vmem S1024x1 .f32 := Memref.whole cc1_scratch0
abbrev scSum : Memref sig .tc .vmem S1024x1 .f32 := Memref.whole cc1_scratch1
abbrev scAcc : Memref sig .tc .vmem S1024x128 .f32 := Memref.whole cc1_scratch2

/-- A scoped buffer of the core that this region does not use (the projection region's staging buffers), whole at
    some contents. -/
abbrev idleBuf (c : Dev nD) (b : Ref sig .tc) : sProp 𝕄 :=
  iprop(∃ f : Buf (Elt F) ((c : Thread nD τ).loc b), ((c : Thread nD τ).loc b) ↦{fullShare} f)

/-- The region's invariant as the launch hands it over: the projection region's six staging buffers and the three
    carried buffers at some contents, beside the generator register. -/
theorem PhiA1_eq (c : Dev nD) :
    (Pipeline.ΦA spec1 c : sProp 𝕄)
      = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
          ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

/-! ## Whole-buffer loads and stores -/

/-- The zero offsets as the kernel prints them. -/
theorem zeros2 : (![0, 0] : Fin 2 → ℕ) = fun _ => 0 := by funext a; fin_cases a <;> rfl

/-- A load of a whole buffer held at the contents that read `X`, through the whole-shape rectangle, reads `X`. -/
theorem load_whole {s : Shape} {e : EltTy} (m : Memref sig .tc .vmem s e) (h : m.IsWhole) (X : s.Idx → Elt F e)
    {off : Fin s.rank → ℕ} (hz : off = fun _ => 0) (inb : ∀ a, off a + s.size a ≤ s.size a) :
    m.view.readAt (Elt F) (Rect.unit off s.size inb).toLoadRect (h.unread X) = X := by
  rw [View.readAt_eq_ld, h.read_unread]; exact View.ld_unit_zero hz inb X

/-- After a store of the whole buffer, whatever was stored before, the buffer reads the stored payload. -/
theorem read_store_whole {s : Shape} {e : EltTy} (m : Memref sig .tc .vmem s e) (f : m.view.ty.Contents (Elt F))
    {off : Fin s.rank → ℕ} (hz : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  rw [View.read_writes_eq_canon _ _ _ (fun y => ⟨_, List.mem_cons_self, View.mem_set_unit_zero hz inb y⟩),
    View.canon_cons_unit_zero hz inb]

/-! ## The body's run, case by case -/

set_option maxHeartbeats 4000000 in
/-- FIRST column tile of a row tile: the reset is taken, the result's store is not. Whatever the three carried
    buffers held, they end at the step from the reset state; the staged inputs and the idle result buffer are left as
    they were. -/
theorem run_first (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : colFirst i) (hc1 : ¬colLast i)
    (adj : Vec F S1024x1024 .i32) (row col : Vec F S1024x128 .f32) (p1 p2 : Vec F S1x128 .f32) (xo : Vec F S1024x128 .f32) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
            ∗ owns (c : Thread nD τ) arg8 fullShare (stepSc i adj row col p1 p2 initSc).1 ∗ owns (c : Thread nD τ) arg9 fullShare (stepSc i adj row col p1 p2 initSc).2.1 ∗ owns (c : Thread nD τ) arg10 fullShare (stepSc i adj row col p1 p2 initSc).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_store_whole arg8 _ zeros2]
    delta run_first.sl.r_1 run_first.sl.r_2 run_first.sl.cst_15 run_first.sl.v39 run_first.sl.H8_1
    rw [View.readCov_cons_toLoadRect, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    rw [read_store_whole arg9 _ zeros2]
    delta run_first.sl.r_1 run_first.sl.r_2 run_first.sl.cst_15 run_first.sl.v39 run_first.sl.v48 run_first.sl.H8_1 run_first.sl.H9_1
    rw [View.readCov_cons_toLoadRect, View.readCov_cons_toLoadRect, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    rw [read_store_whole arg10 _ zeros2]
    delta run_first.sl.r run_first.sl.r_1 run_first.sl.r_2 run_first.sl.cst_15 run_first.sl.v39 run_first.sl.v58 run_first.sl.H8_1 run_first.sl.H10_1
    rw [View.readCov_cons_toLoadRect, View.readCov_cons_toLoadRect, load_whole arg3 harg3 _ zeros2, load_whole arg4 harg4 _ zeros2, load_whole arg5 harg5 _ zeros2, load_whole arg6 harg6 _ zeros2, load_whole arg2 harg2 _ zeros2]
    rfl

set_option maxHeartbeats 4000000 in
/-- A MIDDLE column tile: neither conditional is taken. The carried buffers go from `s` to the step from `s`; the
    staged inputs and the idle result buffer are left as they were. -/
theorem run_middle (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬colFirst i) (hc1 : ¬colLast i)
    (adj : Vec F S1024x1024 .i32) (row col : Vec F S1024x128 .f32) (p1 p2 : Vec F S1x128 .f32) (xo : Vec F S1024x128 .f32) (s : Sc F) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
        ∗ owns (c : Thread nD τ) arg8 fullShare s.1 ∗ owns (c : Thread nD τ) arg9 fullShare s.2.1 ∗ owns (c : Thread nD τ) arg10 fullShare s.2.2
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
            ∗ owns (c : Thread nD τ) arg8 fullShare (stepSc i adj row col p1 p2 s).1 ∗ owns (c : Thread nD τ) arg9 fullShare (stepSc i adj row col p1 p2 s).2.1 ∗ owns (c : Thread nD τ) arg10 fullShare (stepSc i adj row col p1 p2 s).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_store_whole arg8 _ zeros2]
    delta run_middle.sl.r_1 run_middle.sl.r_2 run_middle.sl.cst_15
    rw [load_whole arg8 harg8 _ zeros2, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    rw [read_store_whole arg9 _ zeros2]
    delta run_middle.sl.r_1 run_middle.sl.r_2 run_middle.sl.cst_15
    rw [load_whole arg8 harg8 _ zeros2, load_whole arg9 harg9 _ zeros2, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    rw [read_store_whole arg10 _ zeros2]
    delta run_middle.sl.r run_middle.sl.r_1 run_middle.sl.r_2 run_middle.sl.cst_15
    rw [load_whole arg8 harg8 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl

set_option maxHeartbeats 4000000 in
/-- LAST column tile: the reset is not taken, the result's store is. The carried buffers go from `s` to the step from
    `s`, and the result buffer, whatever it held, ends at the result block of that state. -/
theorem run_last (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬colFirst i) (hc1 : colLast i)
    (adj : Vec F S1024x1024 .i32) (row col : Vec F S1024x128 .f32) (p1 p2 : Vec F S1x128 .f32) (s : Sc F) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare (outOf (stepSc i adj row col p1 p2 s))
            ∗ owns (c : Thread nD τ) arg8 fullShare (stepSc i adj row col p1 p2 s).1 ∗ owns (c : Thread nD τ) arg9 fullShare (stepSc i adj row col p1 p2 s).2.1 ∗ owns (c : Thread nD τ) arg10 fullShare (stepSc i adj row col p1 p2 s).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [read_store_whole arg7 _ zeros2]
    delta run_last.sl.v71 run_last.sl.v72
    delta run_last.sl.H10_1 run_last.sl.H9_1
    rw [View.readCov_cons_toLoadRect, View.readCov_cons_toLoadRect]
    delta run_last.sl.r run_last.sl.r_1 run_last.sl.r_2 run_last.sl.cst_15
    rw [load_whole arg8 harg8 _ zeros2, load_whole arg9 harg9 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl
  isplitl [H8]
  · iexists _; isplitr
    swap; · iexact H8
    ipureintro
    rw [read_store_whole arg8 _ zeros2]
    delta run_last.sl.r_1 run_last.sl.r_2 run_last.sl.cst_15
    rw [load_whole arg8 harg8 _ zeros2, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    delta run_last.sl.H9_1
    rw [read_store_whole arg9 _ zeros2]
    delta run_last.sl.r_1 run_last.sl.r_2 run_last.sl.cst_15
    rw [load_whole arg8 harg8 _ zeros2, load_whole arg9 harg9 _ zeros2, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    delta run_last.sl.H10_1
    rw [read_store_whole arg10 _ zeros2]
    delta run_last.sl.r run_last.sl.r_1 run_last.sl.r_2 run_last.sl.cst_15
    rw [load_whole arg8 harg8 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl

/-! ## The invariant between points -/

/-- The region's invariant before position `n`: before the first point what the launch hands over (every scoped
    buffer at some contents); afterwards the three carried buffers at what the point before left, the projection
    region's staging buffers at some contents, and the generator register at some state. -/
def PhiS1 (c : Dev nD) : (n : ℕ) → n ≤ cfg1.N → sProp 𝕄
  | 0, _ => Pipeline.ΦA spec1 c
  | n + 1, hn => iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c n hn).1 ∗ owns (c : Thread nD τ) scSum fullShare (scAt1 V c n hn).2.1 ∗ owns (c : Thread nD τ) scAcc fullShare (scAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n`: the carried buffers at that point's state. -/
theorem PhiS1_succ (c : Dev nD) (n : ℕ) (hn : n < cfg1.N) :
    PhiS1 V c (n + 1) hn = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c n hn).1 ∗ owns (c : Thread nD τ) scSum fullShare (scAt1 V c n hn).2.1 ∗ owns (c : Thread nD τ) scAcc fullShare (scAt1 V c n hn).2.2) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c (n - 1) (by omega)).1 ∗ owns (c : Thread nD τ) scSum fullShare (scAt1 V c (n - 1) (by omega)).2.1 ∗ owns (c : Thread nD τ) scAcc fullShare (scAt1 V c (n - 1) (by omega)).2.2) ∗ (∃ r, prngReg c r)) := by
  cases n with
  | zero => exact absurd rfl hz
  | succ n => rfl

/-! ## The pipeline's proof data -/

/-- The proof data of the attention pipeline on core `c`: the arrays as the region finds them; after the body at
    point `t` each input's buffer at its block and the result's at the result block of the carried state; the
    invariant `PhiS1`; the projected features, which two windows read, held half and half; nothing owed. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outOf (scAt1 V c t.val t.isLt)
  Φ t := PhiS1 V c t.val (Nat.le_of_lt_succ t.isLt)
  q w := match w with
    | ⟨0, _⟩ => fullShare
    | ⟨1, _⟩ => PosShare.left fullShare
    | ⟨2, _⟩ => PosShare.right fullShare
    | ⟨3, _⟩ => fullShare
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outOf (scAt1 V c t.val t.isLt) := by dsimp only [dat1]

/-- The shares: the projected features split between the row-tile window and the column-tile window. -/
theorem q1_1 (c : Dev nD) : (dat1 V c).q 1 = PosShare.left fullShare := by dsimp only [dat1]
theorem q1_2 (c : Dev nD) : (dat1 V c).q 2 = PosShare.right fullShare := by dsimp only [dat1]
theorem q1_other (c : Dev nD) (w : Fin cfg1.W) (h1 : w ≠ 1) (h2 : w ≠ 2) : (dat1 V c).q w = fullShare := by
  fin_cases w <;> first | rfl | exact absurd rfl h1 | exact absurd rfl h2

/-- Nothing is owed at any point. -/
theorem owed1 (c : Dev nD) (t : Fin (cfg1.N + 1)) : (dat1 V c).owed t = 0 := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At any position the invariant gives what the launch handed over: the carried buffers' named contents forgotten. -/
theorem PhiS1_any (c : Dev nD) (n : ℕ) (h : n ≤ cfg1.N) :
    PhiS1 V c n h ⊢ iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
          ∗ (∃ d, owns (c : Thread nD τ) scMax fullShare d) ∗ (∃ d, owns (c : Thread nD τ) scSum fullShare d) ∗ (∃ d, owns (c : Thread nD τ) scAcc fullShare d)) ∗ (∃ r, prngReg c r)) := by
  cases n with
  | zero => rw [PhiS1_zero V c 0 h rfl, PhiA1_eq]
  | succ n =>
    rw [PhiS1_succ]
    iintro ⟨⟨A0, A1, A2, A3, A4, A5, HS0, HS1, HS2⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [HS0]; · iexists _; iexact HS0
      isplitl [HS1]; · iexists _; iexact HS1
      iexists _; iexact HS2
    iexact Hg

set_option maxHeartbeats 4800000 in
/-- The body at any point: the inputs' buffers hold their blocks; the column tile says which case the point is in; the
    invariant hands the body the carried buffers at what the point before left (at anything where a row tile begins)
    and takes them back at this point's state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 144 := lt_of_lt_of_eq t.isLt (show cfg1.N = 144 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [PhiS1_castSucc V c t]
  by_cases h0 : t.val % 12 = 0
  · have h1 : ¬t.val % 12 = 11 := by omega
    have hc0 : colFirst (grid1.coords t) := (colFirst_iff t).mpr h0
    have hc1 : ¬colLast (grid1.coords t) := fun h => h1 ((colLast_iff t).mp h)
    rw [Dat.leavesExact_idle (dat1 V c) 5 t (idleAt1_5 t hc1) (noFlush1_5 t hc1)]
    rw [scAt1_first V c t h0]
    unfold stepAt1
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    icases HΦ' with ⟨⟨A0, A1, A2, A3, A4, A5, HS0, HS1, HS2⟩, Hg⟩
    iapply (run_first c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) ((dat1 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [A0 A1 A2 A3 A4 A5 HS0 HS1 HS2 Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬colFirst (grid1.coords t) := fun h => h0 ((colFirst_iff t).mp h)
    rw [PhiS1_pos V c _ _ hz, scAt1_next V c t h0]
    unfold stepAt1
    by_cases h1 : t.val % 12 = 11
    · have hc1 : colLast (grid1.coords t) := (colLast_iff t).mpr h1
      rw [show (dat1 V c).leavesExact 5 t = owns (c : Thread nD τ) (ms1_5 t) fullShare ((dat1 V c).after 5 t) from by
        unfold Dat.leavesExact; rw [liveAt1_5 t hc1], after1_5]
      rw [scAt1_next V c t h0]
      unfold stepAt1
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩, ⟨%d5, H5⟩⟩
      iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬colLast (grid1.coords t) := fun h => h1 ((colLast_iff t).mp h)
      rw [Dat.leavesExact_idle (dat1 V c) 5 t (idleAt1_5 t hc1) (noFlush1_5 t hc1)]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩, ⟨%d5, H5⟩⟩
      iapply (run_middle c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) ((dat1 V c).before 5 t d5) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : Pipeline.BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the carried buffers' named
    contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨A0, A1, A2, A3, A4, A5, HS0, HS1, HS2⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 144 := N_1; omega)

end Cert.KernelIdeal.Hand

end
-- ==== Proof.KI.Run.lean ====
/-
  The kernel program's run, from the launch to the return: @main is a stretch of host operations, the projection
  region, a second stretch of host operations, the attention region. The contents of the core's unscoped buffers at
  the four boundaries between them are a fold from the launch memory: a host stretch applies its operations; a region
  leaves every buffer as it found it except its one output array, which ends at what its write-backs fold to
  (`Dat.arrAt … N`). Each region is entered from "every unscoped buffer at the boundary's contents, the generator
  register at some state, nothing owed" and left in the same form at the next boundary's contents. The attention
  region's row window and column window read ONE array, the projected features: the region holds that buffer in two
  halves of the full share, one per window, and joins them again when it ends. Every weakly fair execution terminates
  and every final memory holds every unscoped buffer at the last boundary's contents — so each argument array as
  launched, and the result array at the attention region's folded write-backs. Generic in the float instance.
-/
import proofs.«413493_j46600395162312_3_alg».proof.Proof.KI.Region0
import proofs.«413493_j46600395162312_3_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: the projected features' array at what the write-backs leave. -/
def W2 (c : Dev nD) : Valuation τ sig (Elt F) :=
  Function.update (W1 m ρ c) main_v1 ((dat0 (V1 m ρ) c).arrAt 3 cfg0.N)
abbrev V2 : (c : Dev nD) → (b : Ref sig .tc) → Buf (Elt F) ((c : Thread nD τ).loc b) := fun c b => W2 m ρ c b
/-- After the second host stretch: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave. -/
def W4 (c : Dev nD) : Valuation τ sig (Elt F) :=
  Function.update (W3 m ρ c) main_v6 ((dat1 (V3 m ρ) c).arrAt 5 cfg1.N)
abbrev V4 : (c : Dev nD) → (b : Ref sig .tc) → Buf (Elt F) ((c : Thread nD τ).loc b) := fun c b => W4 m ρ c b

theorem W2_out (c : Dev nD) : W2 m ρ c (Proc.devRef .tc main_v1) = (dat0 (V1 m ρ) c).arrAt 3 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v6) = (dat1 (V3 m ρ) c).arrAt 5 cfg1.N := by
  unfold W4; exact Function.update_self ..
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) ..

/-! ## The attention region's arrays: five buffers behind six windows -/

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_v1) ↦{fullShare} Vc main_v1)
          ∗ (((c : Thread nD τ).loc main_v3) ↦{fullShare} Vc main_v3) ∗ (((c : Thread nD τ).loc main_v5) ↦{fullShare} Vc main_v5)
          ∗ (((c : Thread nD τ).loc main_v6) ↦{fullShare} Vc main_v6)) := by
  unfold Pipeline.arrBufs
  exact bigSep_eq_bigSepL_of_eq [main_arg0, main_v1, main_v3, main_v5, main_v6] (by decide) (by decide) _

theorem share1_in (c : Dev nD) (dat : Dat τ (Elt F) Unit ℕ (UR sig nD τ) ℕ cfg1 c) (w : Fin cfg1.W) (h : (cfg1.win w).isOut = false) :
    dat.share w = dat.q w := by
  unfold Dat.share; rw [h]; rfl

theorem share1_out (c : Dev nD) (dat : Dat τ (Elt F) Unit ℕ (UR sig nD τ) ℕ cfg1 c) : dat.share 5 = fullShare := by
  unfold Dat.share; rfl

theorem arrays1_eq (c : Dev nD) (dat : Dat τ (Elt F) Unit ℕ (UR sig nD τ) ℕ cfg1 c)
    (Fa : (w : Fin cfg1.W) → Buf (Elt F) ((cfg1.win w).arr.view.loc (c.tc : Thread nD τ))) :
    (dat.arrays Fa : sProp 𝕄)
      = iprop((((c : Thread nD τ).loc main_arg0) ↦{dat.q 0} Fa 0) ∗ (((c : Thread nD τ).loc main_v1) ↦{dat.q 1} Fa 1)
          ∗ (((c : Thread nD τ).loc main_v1) ↦{dat.q 2} Fa 2) ∗ (((c : Thread nD τ).loc main_v3) ↦{dat.q 3} Fa 3)
          ∗ (((c : Thread nD τ).loc main_v5) ↦{dat.q 4} Fa 4) ∗ (((c : Thread nD τ).loc main_v6) ↦{fullShare} Fa 5)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ,
    share1_in c dat 0 rfl, share1_in c dat 1 rfl, share1_in c dat 2 rfl, share1_in c dat 3 rfl, share1_in c dat 4 rfl, share1_out c dat]

/-! ## The regions' arrays at their exits, and what no region changes -/

/-- At the projection region's exit each of its arrays holds what the pipeline leaves: the three inputs as entered, the
    projected features at the folded write-backs. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_arg1 (by decide)).symm)
  | ⟨1, _⟩ => exact ((dat0 (V1 m ρ) c).arrAt_in 1 rfl _).trans ((A_eq0 (V1 m ρ) c 1).trans (W2_of_ne m ρ c main_arg2 (by decide)).symm)
  | ⟨2, _⟩ => exact ((dat0 (V1 m ρ) c).arrAt_in 2 rfl _).trans ((A_eq0 (V1 m ρ) c 2).trans (W2_of_ne m ρ c main_v0 (by decide)).symm)
  | ⟨3, _⟩ => exact (W2_out m ρ c).symm
/-- Every other buffer is as it was at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's entry and exit -/

theorem held_eq (c : Dev nD) (W : Valuation τ sig (Elt F)) :
    (StableHlo.held (c : Thread nD τ) (Pipeline.ucRefs τ sig) W : sProp 𝕄) = unscopedBufs c (fun b => W b) :=
  (Pipeline.unscopedBufs_held c W).symm

/-- ENTRY: the unscoped buffers at the entry contents are the region's arrays at those contents — the projected features'
    buffer divided between the row window and the column window — beside the buffers the region does not stage. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [held_eq, Pipeline.unscopedBufs_split₀ cfgs 1 winFacts₀1.arr_unscoped c (V3 m ρ c)]
  show iprop((Pipeline.arrBufs (Ix := Unit) (Name := ℕ) (U := UR sig nD τ) (Lvl := ℕ) spec1 c (V3 m ρ c) : sProp 𝕄)
      ∗ Pipeline.unscopedRest spec1 c (V3 m ρ c)) ⊢ _
  rw [arrBufs1_eq, arrays1_eq,
    q1_1, q1_2, q1_other (V3 m ρ) c 0 (by decide) (by decide), q1_other (V3 m ρ) c 3 (by decide) (by decide),
    q1_other (V3 m ρ) c 4 (by decide) (by decide)]
  rw [show (dat1 (V3 m ρ) c).arrAt 0 0 = V3 m ρ c main_arg0 from A_eq1 (V3 m ρ) c 0,
    show (dat1 (V3 m ρ) c).arrAt 1 0 = V3 m ρ c main_v1 from A_eq1 (V3 m ρ) c 1,
    show (dat1 (V3 m ρ) c).arrAt 2 0 = V3 m ρ c main_v1 from A_eq1 (V3 m ρ) c 2,
    show (dat1 (V3 m ρ) c).arrAt 3 0 = V3 m ρ c main_v3 from A_eq1 (V3 m ρ) c 3,
    show (dat1 (V3 m ρ) c).arrAt 4 0 = V3 m ρ c main_v5 from A_eq1 (V3 m ρ) c 4,
    show (dat1 (V3 m ρ) c).arrAt 5 0 = V3 m ρ c main_v6 from A_eq1 (V3 m ρ) c 5]
  iintro ⟨⟨H0, H1, H3, H5, H6⟩, Hrest⟩
  ihave H1' := (pointsTo_share (PosShare.mem_left_op_right fullShare)).1 $$ H1
  icases H1' with ⟨H1a, H1b⟩
  isplitr [Hrest]
  · isplitl [H0]; · iexact H0
    isplitl [H1a]; · iexact H1a
    isplitl [H1b]; · iexact H1b
    isplitl [H3]; · iexact H3
    isplitl [H5]; · iexact H5
    iexact H6
  iexact Hrest

/-- At the attention region's exit each of its arrays holds what the pipeline leaves: the five inputs as entered, the
    result at the folded write-backs. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_arg0 (by decide)).symm)
  | ⟨1, _⟩ => exact ((dat1 (V3 m ρ) c).arrAt_in 1 rfl _).trans ((A_eq1 (V3 m ρ) c 1).trans (W4_of_ne m ρ c main_v1 (by decide)).symm)
  | ⟨2, _⟩ => exact ((dat1 (V3 m ρ) c).arrAt_in 2 rfl _).trans ((A_eq1 (V3 m ρ) c 2).trans (W4_of_ne m ρ c main_v1 (by decide)).symm)
  | ⟨3, _⟩ => exact ((dat1 (V3 m ρ) c).arrAt_in 3 rfl _).trans ((A_eq1 (V3 m ρ) c 3).trans (W4_of_ne m ρ c main_v3 (by decide)).symm)
  | ⟨4, _⟩ => exact ((dat1 (V3 m ρ) c).arrAt_in 4 rfl _).trans ((A_eq1 (V3 m ρ) c 4).trans (W4_of_ne m ρ c main_v5 (by decide)).symm)
  | ⟨5, _⟩ => exact (W4_out m ρ c).symm

/-- The buffers the attention region does not stage hold at its exit what they held at its entry. -/
theorem rest1_eq (c : Dev nD) :
    (Pipeline.unscopedRest (Ix := Unit) (Name := ℕ) (U := UR sig nD τ) (Lvl := ℕ) spec1 c (V3 m ρ c) : sProp 𝕄)
      = Pipeline.unscopedRest spec1 c (V4 m ρ c) := by
  rw [unscopedRest1_eq, unscopedRest1_eq]
  rw [show V4 m ρ c main_arg1 = V3 m ρ c main_arg1 from W4_of_ne m ρ c main_arg1 (by decide),
    show V4 m ρ c main_arg2 = V3 m ρ c main_arg2 from W4_of_ne m ρ c main_arg2 (by decide),
    show V4 m ρ c main_arg3 = V3 m ρ c main_arg3 from W4_of_ne m ρ c main_arg3 (by decide),
    show V4 m ρ c main_arg4 = V3 m ρ c main_arg4 from W4_of_ne m ρ c main_arg4 (by decide),
    show V4 m ρ c main_v0 = V3 m ρ c main_v0 from W4_of_ne m ρ c main_v0 (by decide),
    show V4 m ρ c main_v2 = V3 m ρ c main_v2 from W4_of_ne m ρ c main_v2 (by decide),
    show V4 m ρ c main_v4 = V3 m ρ c main_v4 from W4_of_ne m ρ c main_v4 (by decide)]

/-- EXIT: the region's arrays at their final contents, the two halves of the projected features' buffer joined again,
    beside the buffers it did not stage, are the unscoped buffers at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [held_eq, Pipeline.unscopedBufs_split₀ cfgs 1 winFacts₀1.arr_unscoped c (V4 m ρ c)]
  show _ ⊢ iprop((Pipeline.arrBufs (Ix := Unit) (Name := ℕ) (U := UR sig nD τ) (Lvl := ℕ) spec1 c (V4 m ρ c) : sProp 𝕄)
      ∗ Pipeline.unscopedRest spec1 c (V4 m ρ c))
  rw [arrBufs1_eq, arrays1_eq,
    q1_1, q1_2, q1_other (V3 m ρ) c 0 (by decide) (by decide), q1_other (V3 m ρ) c 3 (by decide) (by decide),
    q1_other (V3 m ρ) c 4 (by decide) (by decide), rest1_eq]
  rw [show (dat1 (V3 m ρ) c).arrAt 0 cfg1.N = V4 m ρ c main_arg0 from hF1 m ρ c 0,
    show (dat1 (V3 m ρ) c).arrAt 1 cfg1.N = V4 m ρ c main_v1 from hF1 m ρ c 1,
    show (dat1 (V3 m ρ) c).arrAt 2 cfg1.N = V4 m ρ c main_v1 from hF1 m ρ c 2,
    show (dat1 (V3 m ρ) c).arrAt 3 cfg1.N = V4 m ρ c main_v3 from hF1 m ρ c 3,
    show (dat1 (V3 m ρ) c).arrAt 4 cfg1.N = V4 m ρ c main_v5 from hF1 m ρ c 4,
    show (dat1 (V3 m ρ) c).arrAt 5 cfg1.N = V4 m ρ c main_v6 from hF1 m ρ c 5]
  iintro ⟨⟨H0, H1a, H1b, H3, H5, H6⟩, Hrest⟩
  ihave H1 := (pointsTo_share (PosShare.mem_left_op_right fullShare)).2 $$ [H1a H1b]
  · isplitl [H1a]; · iexact H1a
    iexact H1b
  isplitr [Hrest]
  · isplitl [H0]; · iexact H0
    isplitl [H1]; · iexact H1
    isplitl [H3]; · iexact H3
    isplitl [H5]; · iexact H5
    iexact H6
  iexact Hrest

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro HΦ
    ihave H := (hout1 (V3 m ρ) c) $$ HΦ
    unfold Pipeline.ΦA
    icases H with ⟨Hr, Hp⟩
    isplitl [Hp]; · iexact Hp
    isplitr; · iempintro
    iexact Hr
  hexit c := by
    have hx : iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := exit1 m ρ c
    iintro ⟨Ha, HO, HY, Hrest⟩
    imodintro
    isplitl [Ha Hrest HY]
    · isplitl [Ha Hrest]
      · iapply hx; isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Walk.lean ====
/-
  The boundary contents of the kernel program's run read back to the launch memory.

  No host operation and no region writes an argument array, so each argument's buffer holds at the last boundary what
  it held at launch. The projection region is entered with the inputs and the weights as launched and the bias as a
  1 × 128 row (the first host stretch reshapes it); the attention region is entered with the adjacency as launched, the
  projected features as the projection region left them, and the two halves of φ as 1 × 128 rows (the second host
  stretch slices and reshapes them). Generic in the float instance.
-/
import proofs.«413493_j46600395162312_3_alg».proof.Proof.KI.Run
import proofs.«413493_j46600395162312_3_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal
open Cert.KernelIdeal.Gen (hostOps0 hostOps1 hostOps0_W hostOps1_W hostOps0_writes hostOps1_writes
  shapeCasts_S128_S1x128 shapeCasts_S128x1_S1x128 slices_S256x1_S128x1_0_0 slices_S256x1_S128x1_128_0)

variable {F : FTy → Type} [FloatOps F]
variable (m : (ℓ : Loc nD τ sig) → Buf (Elt F) ℓ) (ρ : Dev nD → PrngReg)

/-- The first host stretch writes only the bias row. -/
theorem W1_keep (c : Dev nD) (r : Ref sig .tc) (h : r ∉ hostOps0_W) : W1 m ρ c r = W0 m ρ c r :=
  StableHlo.after_of_writes_sub hostOps0 _ hostOps0_writes h
/-- The second host stretch writes only the two halves of φ and their rows. -/
theorem W3_keep (c : Dev nD) (r : Ref sig .tc) (h : r ∉ hostOps1_W) : W3 m ρ c r = W2 m ρ c r :=
  StableHlo.after_of_writes_sub hostOps1 _ hostOps1_writes h

/-- A buffer that no host stretch writes and that is no region's output holds at the last boundary its launch contents. -/
theorem W4_launch (c : Dev nD) (r : Ref sig .tc) (h6 : r ≠ main_v6) (h1 : r ≠ main_v1) (hh1 : r ∉ hostOps1_W) (hh0 : r ∉ hostOps0_W) :
    W4 m ρ c r = m ((c : Thread nD τ).loc r) :=
  (W4_of_ne m ρ c r h6).trans ((W3_keep m ρ c r hh1).trans ((W2_of_ne m ρ c r h1).trans ((W1_keep m ρ c r hh0).trans rfl)))

theorem W4_arg0 (c : Dev nD) : W4 m ρ c main_arg0 = m ((c : Thread nD τ).loc main_arg0) := W4_launch m ρ c main_arg0 (by decide) (by decide) (by decide) (by decide)
theorem W4_arg1 (c : Dev nD) : W4 m ρ c main_arg1 = m ((c : Thread nD τ).loc main_arg1) := W4_launch m ρ c main_arg1 (by decide) (by decide) (by decide) (by decide)
theorem W4_arg2 (c : Dev nD) : W4 m ρ c main_arg2 = m ((c : Thread nD τ).loc main_arg2) := W4_launch m ρ c main_arg2 (by decide) (by decide) (by decide) (by decide)
theorem W4_arg3 (c : Dev nD) : W4 m ρ c main_arg3 = m ((c : Thread nD τ).loc main_arg3) := W4_launch m ρ c main_arg3 (by decide) (by decide) (by decide) (by decide)
theorem W4_arg4 (c : Dev nD) : W4 m ρ c main_arg4 = m ((c : Thread nD τ).loc main_arg4) := W4_launch m ρ c main_arg4 (by decide) (by decide) (by decide) (by decide)

/-! ## What the projection region is entered with -/

theorem V1_arg1 (c : Dev nD) : V1 m ρ c main_arg1 = m ((c : Thread nD τ).loc main_arg1) := (W1_keep m ρ c main_arg1 (by decide)).trans rfl
theorem V1_arg2 (c : Dev nD) : V1 m ρ c main_arg2 = m ((c : Thread nD τ).loc main_arg2) := (W1_keep m ρ c main_arg2 (by decide)).trans rfl
/-- The bias as a row. -/
theorem V1_v0 (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results
  rfl

/-! ## What the attention region is entered with -/

theorem V3_arg0 (c : Dev nD) : V3 m ρ c main_arg0 = m ((c : Thread nD τ).loc main_arg0) :=
  (W3_keep m ρ c main_arg0 (by decide)).trans ((W2_of_ne m ρ c main_arg0 (by decide)).trans ((W1_keep m ρ c main_arg0 (by decide)).trans rfl))
/-- The projected features, as the projection region left them. -/
theorem V3_v1 (c : Dev nD) : V3 m ρ c main_v1 = (dat0 (V1 m ρ) c).arrAt 3 cfg0.N :=
  (W3_keep m ρ c main_v1 (by decide)).trans (W2_out m ρ c)
theorem W2_arg4 (c : Dev nD) : W2 m ρ c main_arg4 = m ((c : Thread nD τ).loc main_arg4) :=
  (W2_of_ne m ρ c main_arg4 (by decide)).trans ((W1_keep m ρ c main_arg4 (by decide)).trans rfl)
/-- The first half of φ as a row. -/
theorem V3_v3 (c : Dev nD) :
    V3 m ρ c main_v3 = shapeCast S1x128 (extractStridedSlice S128x1 ![0, 0] (m ((c : Thread nD τ).loc main_arg4)) slices_S256x1_S128x1_0_0) shapeCasts_S128x1_S1x128 := by
  rw [← W2_arg4 m ρ c]
  show StableHlo.after hostOps1 (W2 m ρ c) (Proc.devRef .tc main_v3) = _
  after_results
  rfl
/-- The second half of φ as a row. -/
theorem V3_v5 (c : Dev nD) :
    V3 m ρ c main_v5 = shapeCast S1x128 (extractStridedSlice S128x1 ![128, 0] (m ((c : Thread nD τ).loc main_arg4)) slices_S256x1_S128x1_128_0) shapeCasts_S128x1_S1x128 := by
  rw [← W2_arg4 m ρ c]
  show StableHlo.after hostOps1 (W2 m ρ c) (Proc.devRef .tc main_v5) = _
  after_results
  rfl

/-! ## The frame -/

/-- Every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

end Cert.KernelIdeal.Hand

end
-- ==== Proof.Spec.lean ====
/-
  The common value of the two programs, stated once over the argument arrays and index by index on the extended reals.

  A graph-attention layer on N = 12288 nodes with 256 input and 128 output features:
  the projected features  nf r d = (∑ k, x r k · W d k) + b d;
  the additive score      s r c = leaky (u r + v c),  u r = ∑ k, nf r k · φ k,  v c = ∑ k, nf c k · φ (128 + k);
  the mask keeps an entry when the adjacency is positive or the entry is on the diagonal, and sets it to the
  finite literal −1e20 otherwise; each row is normalised by a softmax and the result is the leaky rectifier of the
  attention-weighted sum of the projected features.

  `G` is the row softmax written directly (a row maximum, the exponentials' sum, one quotient per entry).
  `Gk` is the same row processed in 12 column tiles of 1024 with a running maximum, a running sum and a running
  weighted sum that are rescaled whenever the maximum grows. The two agree on finite inputs (Proof/Math.lean).
-/
import Idealize.ShloMosaic.PureOps.Ideal
import Idealize.ShloMosaic.Lib.ValueIdx

noncomputable section

namespace Cert.Spec

open Idealize.ShloMosaic Idealize.ShloMosaic.ValueIdx
open scoped Classical

abbrev SNN : Shape := ⟨2, ![12288, 12288]⟩
abbrev SNI : Shape := ⟨2, ![12288, 256]⟩
abbrev SOI : Shape := ⟨2, ![128, 256]⟩
abbrev SO : Shape := ⟨1, ![128]⟩
abbrev SP : Shape := ⟨2, ![256, 1]⟩
abbrev SNO : Shape := ⟨2, ![12288, 128]⟩

/-- The slope of the leaky rectifier: the binary32 number nearest 0.01, as both programs carry it. -/
def slope : EReal := Ideal.ofBits .f32 0x3C23D70A#32
/-- The fill of a masked entry: the binary32 number nearest −1e20, finite. -/
def negBig : EReal := Ideal.ofBits .f32 0xE0AD78EC#32

/-- The leaky rectifier: the identity on the non-negative, a multiple by `slope` below zero. -/
def leaky (z : EReal) : EReal := if 0 ≤ z then z else slope * z

/-- The projected features: one row of `x` against one row of `W`, plus the bias. -/
def nf (x : SNI.Idx → EReal) (W : SOI.Idx → EReal) (b : SO.Idx → EReal) (r : Fin 12288) (d : Fin 128) : EReal :=
  (∑ k : Fin 256, x (ix2 r k) * W (ix2 d k)) + b (ix1 d)

/-- The first half of `φ` against a node's features. -/
def uu (f : Fin 12288 → Fin 128 → EReal) (phi : SP.Idx → EReal) (r : Fin 12288) : EReal :=
  ∑ k : Fin 128, f r k * phi (ix2 (⟨k.val, by omega⟩ : Fin 256) (0 : Fin 1))

/-- The second half of `φ` against a node's features. -/
def vv (f : Fin 12288 → Fin 128 → EReal) (phi : SP.Idx → EReal) (c : Fin 12288) : EReal :=
  ∑ k : Fin 128, f c k * phi (ix2 (⟨128 + k.val, by omega⟩ : Fin 256) (0 : Fin 1))

/-- An entry takes part in its row's softmax when its adjacency is positive or it lies on the diagonal. -/
def keep (adj : SNN.Idx → BitVec 32) (r c : Fin 12288) : Prop := 0 < (adj (ix2 r c)).toInt ∨ r = c

/-- The masked score of the pair (r, c). -/
def masked (adj : SNN.Idx → BitVec 32) (f : Fin 12288 → Fin 128 → EReal) (phi : SP.Idx → EReal) (r c : Fin 12288) : EReal :=
  if keep adj r c then leaky (uu f phi r + vv f phi c) else negBig

/-! ## The row softmax written directly -/

/-- A row's maximum, from −∞. -/
def rowMax (s : Fin 12288 → EReal) : EReal := (Finset.univ : Finset (Fin 12288)).fold max ⊥ s

/-- The attention-weighted sum of one feature over a row with scores `s`: each entry's exponential over the
    row's sum of exponentials, both taken after subtracting the row's maximum. -/
def attend (s : Fin 12288 → EReal) (v : Fin 12288 → EReal) : EReal :=
  ∑ c : Fin 12288, Ideal.div (Ideal.exp (s c - rowMax s)) (∑ c' : Fin 12288, Ideal.exp (s c' - rowMax s)) * v c

/-- The layer's result, the softmax written directly. -/
def G (adj : SNN.Idx → BitVec 32) (x : SNI.Idx → EReal) (W : SOI.Idx → EReal) (b : SO.Idx → EReal) (phi : SP.Idx → EReal) :
    SNO.Idx → EReal := fun i =>
  leaky (attend (masked adj (nf x W b) phi (i 0)) (fun c => nf x W b c (i 1)))

/-! ## The same row in tiles of 1024 columns, with running quantities -/

/-- Column `q` of tile `j` (the remainder keeps the function total; for `j < 12` it is `1024 j + q`). -/
def colOf (j : ℕ) (q : Fin 1024) : Fin 12288 := ⟨(1024 * j + q.val) % 12288, Nat.mod_lt _ (by norm_num)⟩

/-- The maximum of one tile, from −∞. -/
def tileMax (s : Fin 12288 → EReal) (j : ℕ) : EReal :=
  (Finset.univ : Finset (Fin 1024)).fold max ⊥ (fun q => s (colOf j q))

/-- The running maximum after the first `j` tiles. -/
def mS (s : Fin 12288 → EReal) : ℕ → EReal
  | 0 => ⊥
  | j + 1 => max (mS s j) (tileMax s j)

/-- The factor by which the running sums are rescaled when tile `j` is taken in. -/
def alphaS (s : Fin 12288 → EReal) (j : ℕ) : EReal := Ideal.exp (mS s j - mS s (j + 1))

/-- The running sum of exponentials after the first `j` tiles, relative to the running maximum. -/
def lS (s : Fin 12288 → EReal) : ℕ → EReal
  | 0 => 0
  | j + 1 => alphaS s j * lS s j + ∑ q : Fin 1024, Ideal.exp (s (colOf j q) - mS s (j + 1))

/-- The running weighted sum of one feature after the first `j` tiles. -/
def aS (s : Fin 12288 → EReal) (v : Fin 12288 → EReal) : ℕ → EReal
  | 0 => 0
  | j + 1 => alphaS s j * aS s v j + ∑ q : Fin 1024, Ideal.exp (s (colOf j q) - mS s (j + 1)) * v (colOf j q)

/-- The attention-weighted sum computed tile by tile: the weighted sum after 12 tiles times the reciprocal of the
    sum of exponentials. -/
def attendTiled (s : Fin 12288 → EReal) (v : Fin 12288 → EReal) : EReal :=
  aS s v 12 * Ideal.div 1 (lS s 12)

/-- The layer's result, the softmax computed tile by tile. -/
def Gk (adj : SNN.Idx → BitVec 32) (x : SNI.Idx → EReal) (W : SOI.Idx → EReal) (b : SO.Idx → EReal) (phi : SP.Idx → EReal) :
    SNO.Idx → EReal := fun i =>
  leaky (attendTiled (masked adj (nf x W b) phi (i 0)) (fun c => nf x W b c (i 1)))

end Cert.Spec

end
-- ==== Proof.KI.SpecK.lean ====
/-
  The two kernels' array results, stated over the arrays each region is handed.

  The projection region is handed the inputs, the weight matrix and the bias as a 1 × 128 row; it leaves the projected
  features. The attention region is handed the adjacency words, the projected features and the two halves of φ as
  1 × 128 rows; it leaves, row by row, the leaky rectifier of the attention-weighted features, the row softmax
  computed tile by tile (Spec.lean's `attendTiled`).
-/
import proofs.«413493_j46600395162312_3_alg».proof.Proof.Spec

noncomputable section

namespace Cert.Spec

open Idealize.ShloMosaic Idealize.ShloMosaic.ValueIdx
open scoped Classical

abbrev SB : Shape := ⟨2, ![1, 128]⟩

/-- The projected features from the inputs, the weights and the bias row. -/
def projOf (x : SNI.Idx → EReal) (W : SOI.Idx → EReal) (b2 : SB.Idx → EReal) : SNO.Idx → EReal := fun i =>
  (∑ k : Fin 256, x (ix2 (i 0) k) * W (ix2 (i 1) k)) + b2 (ix2 (0 : Fin 1) (i 1))

/-- The masked score of the pair (r, c) from the feature array and the two halves of φ as rows. -/
def maskedArr (adj : SNN.Idx → BitVec 32) (f : SNO.Idx → EReal) (p1 p2 : SB.Idx → EReal) (r c : Fin 12288) : EReal :=
  if keep adj r c then
    leaky ((∑ k : Fin 128, f (ix2 r k) * p1 (ix2 (0 : Fin 1) k)) + (∑ k : Fin 128, f (ix2 c k) * p2 (ix2 (0 : Fin 1) k)))
  else negBig

/-- The attention region's result from the arrays it is handed. -/
def attnOf (adj : SNN.Idx → BitVec 32) (f : SNO.Idx → EReal) (p1 p2 : SB.Idx → EReal) : SNO.Idx → EReal := fun i =>
  leaky (attendTiled (maskedArr adj f p1 p2 (i 0)) (fun c => f (ix2 c (i 1))))

end Cert.Spec

end
-- ==== Proof.KI.Value0.lean ====
/-
  The projection region's output array, read off the pipeline's proof data at the ideal values.

  At each of the 8 grid points the kernel loads 1536 rows of the inputs, the whole weight matrix and the bias row,
  and stores rows × weights (contracted over the 256 input features) plus the bias. Point t writes rows
  1536 t … 1536 t + 1535 of the result, so the 8 write-backs tile the 12288 rows and the array ends holding
  the projected-features function of the three arrays the region was handed.
-/
import proofs.«413493_j46600395162312_3_alg».proof.Proof.KI.Blocks
import proofs.«413493_j46600395162312_3_alg».proof.Proof.KI.SpecK
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

noncomputable section

namespace Cert.KernelIdeal.Hand

open Idealize.ShloMosaic Idealize.ShloMosaic.TcCoe Idealize.SL.Sem Cert.KernelIdeal Cert.KernelIdeal.Gen
open Idealize.ShloMosaic.ValueIdx
open Idealize.ShloMosaic.Pipeline (Dat)

/-! ## The stored value at an index -/

/-- The projection contracts rows of the inputs against rows of the weights over the 256 input features: the left
    operand is read at the result's row … -/
theorem projDot_lhs_row (i : S1536x128.Idx) (q : dot_S1536x256_S128x256_S1536x128_1_1_0_0_n_n.contr.Idx) :
    (dot_S1536x256_S128x256_S1536x128_1_1_0_0_n_n.lhsIdx i q 0).val = (i 0).val := by
  unfold DotDims.lhsIdx
  rw [dif_neg (show ¬(0 : Fin S1536x256.rank) ∈ dot_S1536x256_S128x256_S1536x128_1_1_0_0_n_n.lhsBatch by decide),
    dif_pos (show (0 : Fin S1536x256.rank) ∈ dot_S1536x256_S128x256_S1536x128_1_1_0_0_n_n.lhsNonContracting by decide)]
  rfl

/-- … and at the contracted feature; -/
theorem projDot_lhs_feat (i : S1536x128.Idx) (q : dot_S1536x256_S128x256_S1536x128_1_1_0_0_n_n.contr.Idx) :
    (dot_S1536x256_S128x256_S1536x128_1_1_0_0_n_n.lhsIdx i q 1).val = (q ⟨0, by decide⟩).val :=
  dot_S1536x256_S128x256_S1536x128_1_1_0_0_n_n.lhsIdx_val_of_single rfl i q

/-- the right operand at the result's column, which is a row of the weights, … -/
theorem projDot_rhs_row (i : S1536x128.Idx) (q : dot_S1536x256_S128x256_S1536x128_1_1_0_0_n_n.contr.Idx) :
    (dot_S1536x256_S128x256_S1536x128_1_1_0_0_n_n.rhsIdx i q 0).val = (i 1).val := by
  unfold DotDims.rhsIdx
  rw [dif_neg (show ¬(0 : Fin S128x256.rank) ∈ dot_S1536x256_S128x256_S1536x128_1_1_0_0_n_n.rhsBatch by decide),
    dif_pos (show (0 : Fin S128x256.rank) ∈ dot_S1536x256_S128x256_S1536x128_1_1_0_0_n_n.rhsNonContracting by decide)]
  rfl

/-- … and at the contracted feature. -/
theorem projDot_rhs_feat (i : S1536x128.Idx) (q : dot_S1536x256_S128x256_S1536x128_1_1_0_0_n_n.contr.Idx) :
    (dot_S1536x256_S128x256_S1536x128_1_1_0_0_n_n.rhsIdx i q 1).val = (q ⟨0, by decide⟩).val :=
  dot_S1536x256_S128x256_S1536x128_1_1_0_0_n_n.rhsIdx_val_of_single rfl i q

/-- What a point stores, entry by entry: the row of the input block against the row of the weights, plus the bias. -/
theorem storedAt (x0 : Vec Ideal S1536x256 .f32) (w0 : Vec Ideal S128x256 .f32) (b0 : Vec Ideal S1x128 .f32)
    (p : Fin 1536) (d : Fin 128) :
    k0_pay1 x0 w0 b0 (ix2 p d) = (∑ k : Fin 256, x0 (ix2 p k) * w0 (ix2 d k)) + b0 (ix2 (0 : Fin 1) d) := by
  unfold k0_pay1
  rw [addf_apply]
  simp only [matmul]
  rw [Ideal.matmul_constant_zero_apply, shapeCast_self,
    broadcastTo_apply b0 broadcasts_S1x128_S1536x128 (ix2 p d) (ix2 (0 : Fin 1) d) (fun a => by
      match a with
      | ⟨0, _⟩ => rfl
      | ⟨1, _⟩ => rfl),
    ← Equiv.sum_comp (contrEquiv1 dot_S1536x256_S128x256_S1536x128_1_1_0_0_n_n 256 rfl rfl).symm]
  refine congrArg (· + _) (Finset.sum_congr rfl fun k _ => ?_)
  have hk := contrEquiv1_symm_val dot_S1536x256_S128x256_S1536x128_1_1_0_0_n_n 256 rfl rfl k
  have el : dot_S1536x256_S128x256_S1536x128_1_1_0_0_n_n.lhsIdx (ix2 p d) ((contrEquiv1 dot_S1536x256_S128x256_S1536x128_1_1_0_0_n_n 256 rfl rfl).symm k) = ix2 p k :=
    funext fun a => Fin.ext (by
      match a with
      | ⟨0, _⟩ => exact projDot_lhs_row _ _
      | ⟨1, _⟩ => exact (projDot_lhs_feat _ _).trans hk)
  have er : dot_S1536x256_S128x256_S1536x128_1_1_0_0_n_n.rhsIdx (ix2 p d) ((contrEquiv1 dot_S1536x256_S128x256_S1536x128_1_1_0_0_n_n 256 rfl rfl).symm k) = ix2 d k :=
    funext fun a => Fin.ext (by
      match a with
      | ⟨0, _⟩ => exact projDot_rhs_row _ _
      | ⟨1, _⟩ => exact (projDot_rhs_feat _ _).trans hk)
  rw [truncf_apply, truncf_apply, el, er]

/-! ## The blocks a point reads, as parts of the arrays -/

/-- The projection's index maps, decided over the 8 points: the inputs and the result move down by one block of rows
    per point; the weights and the bias stay. -/
theorem projIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- The input block of point `t` is rows `1536 t … 1536 t + 1535` of the input array. -/
theorem xBlk_apply (c : Dev nD) (t : Fin cfg0.N) (x : S1536x256.Idx) (k : S12288x256.Idx)
    (hk0 : (k 0).val = 1536 * t.val + (x 0).val) (hk1 : (k 1).val = (x 1).val) :
    xBlk V c t x = (V c main_arg1 : S12288x256.Idx → Elt F .f32) k := by
  obtain ⟨e0, e1, -⟩ := projIndex t
  unfold xBlk iblk0
  rw [View.read_apply]
  show V c main_arg1 _ = V c main_arg1 _
  congr 1
  funext a
  apply Fin.ext
  match a with
  | ⟨0, _⟩ => show win0_0.index t (0 : Fin 2) * 1536 + 1 * (x 0).val = (k 0).val; rw [e0, hk0]; omega
  | ⟨1, _⟩ => show win0_0.index t (1 : Fin 2) * 256 + 1 * (x 1).val = (k 1).val; rw [e1, hk1]; omega

/-- The weight block of every point is the whole weight matrix. -/
theorem wBlk_apply (c : Dev nD) (t : Fin cfg0.N) (x : S128x256.Idx) :
    wBlk V c t x = (V c main_arg2 : S128x256.Idx → Elt F .f32) x := by
  obtain ⟨-, -, e0, e1, -⟩ := projIndex t
  unfold wBlk iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The bias block of every point is the whole bias row. -/
theorem bBlk_apply (c : Dev nD) (t : Fin cfg0.N) (x : S1x128.Idx) :
    bBlk V c t x = (V c main_v0 : S1x128.Idx → Elt F .f32) x := by
  obtain ⟨-, -, -, -, e0, e1, -⟩ := projIndex t
  unfold bBlk iblk0
  rw [View.read_apply]
  show V c main_v0 _ = V c main_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

theorem wBlk_eq (c : Dev nD) (t : Fin cfg0.N) : wBlk V c t = (V c main_arg2 : S128x256.Idx → Elt F .f32) :=
  funext (wBlk_apply V c t)

theorem bBlk_eq (c : Dev nD) (t : Fin cfg0.N) : bBlk V c t = (V c main_v0 : S1x128.Idx → Elt F .f32) :=
  funext (bBlk_apply V c t)

end Blocks

/-! ## What a point writes back, the rows it covers, and the array after the region -/

/-- The stored block of point `t`, entry by entry, is the projected-features function of whole arrays read at row
    `1536 t + p`, when the point's input block is those rows and its weight and bias blocks are the whole arrays. -/
theorem stored_rows (x0 : Vec Ideal S1536x256 .f32) (w0 : Vec Ideal S128x256 .f32) (b0 : Vec Ideal S1x128 .f32)
    (X : S12288x256.Idx → EReal) (n : ℕ)
    (hx : ∀ (x : S1536x256.Idx) (k : S12288x256.Idx), (k 0).val = 1536 * n + (x 0).val → (k 1).val = (x 1).val → x0 x = X k)
    (p : Fin 1536) (d : Fin 128) (i : S12288x128.Idx) (hi0 : (i 0).val = 1536 * n + p.val) (hi1 : (i 1).val = d.val) :
    k0_pay1 x0 w0 b0 (ix2 p d) = Cert.Spec.projOf X w0 b0 i := by
  rw [storedAt]
  unfold Cert.Spec.projOf
  have hd : i 1 = d := Fin.ext hi1
  rw [hd]
  refine congrArg (· + _) (Finset.sum_congr rfl fun k _ => ?_)
  rw [hx (ix2 p k) (ix2 (i 0) k) hi0 rfl]

variable (V : (c : Dev nD) → (b : Ref sig .tc) → Buf (Elt Ideal) ((c : Thread nD τ).loc b))

/-- The projected features of the three arrays the region is handed. -/
abbrev projArr (c : Dev nD) : S12288x128.Idx → EReal :=
  Cert.Spec.projOf (V c main_arg1 : S12288x256.Idx → EReal) (V c main_arg2 : S128x256.Idx → EReal) (V c main_v0 : S1x128.Idx → EReal)

/-- What point `t` writes back is block `t` of the projected features. -/
theorem proj_flushed_eq (c : Dev nD)
    (dat : Pipeline.Dat τ (Elt Ideal) Unit ℕ (UR sig nD τ) ℕ cfg0 c)
    (hafter : ∀ t, dat.after 3 t = k0_pay1 (xBlk V c t) (wBlk V c t) (bBlk V c t)) (t : Fin cfg0.N) :
    dat.flushed 3 t = ((cfg0.win 3).blk t).view.read (Elt Ideal) (projArr V c) := by
  show (cfg0.win 3).cut (grid0.coords t) (dat.after 3 t) = _
  rw [hafter t, wBlk_eq, bBlk_eq]
  obtain ⟨-, -, -, -, -, -, e0, e1⟩ := projIndex t
  funext j
  rw [View.read_apply]
  refine (congrArg (k0_pay1 _ _ _) (eq_ix2 (n0 := 1536) (n1 := 128) j)).trans
    (stored_rows _ _ _ (V c main_arg1 : S12288x256.Idx → EReal) t.val (fun x k h0 h1 => xBlk_apply V c t x k h0 h1) (j 0) (j 1) _ ?_ ?_)
  · show win0_3.index t (0 : Fin 2) * 1536 + 1 * (j 0).val = 1536 * t.val + (j 0).val; rw [e0]; omega
  · show win0_3.index t (1 : Fin 2) * 128 + 1 * (j 1).val = (j 1).val; rw [e1]; omega

/-- An index of the result array is in point `t`'s block iff its row is among the point's 1536 rows. -/
theorem mem_projBlk (t : Fin cfg0.N) (i : S12288x128.Idx) :
    i ∈ ((cfg0.win 3).blk t).view.set ↔ ∀ a : Fin 2, win0_3.index t a * S1536x128.size a ≤ (i a).val ∧ (i a).val < win0_3.index t a * S1536x128.size a + S1536x128.size a := by
  show i ∈ ((View.whole main_v1).slice (win0_3.rect t)).set ↔ _
  rw [View.set_slice_whole, Rect.mem_set_unit]
  exact Iff.rfl

/-- Every row lies in the block of the point `row / 1536`. -/
theorem proj_cover (i : S12288x128.Idx) :
    ∃ t : Fin cfg0.N, (cfg0.win 3).flush t = true ∧ i ∈ ((cfg0.win 3).blk t).view.set := by
  have h0 : (i 0).val < 12288 := idx2_lt0 i
  have h1 : (i 1).val < 128 := idx2_lt1 i
  obtain ⟨t, ht⟩ : ∃ t : Fin cfg0.N, t.val = (i 0).val / 1536 :=
    ⟨⟨(i 0).val / 1536, by rw [show cfg0.N = 8 from N_0]; omega⟩, rfl⟩
  obtain ⟨-, -, -, -, -, -, e0, e1⟩ := projIndex t
  refine ⟨t, flush0_3 t, ?_⟩
  rw [mem_projBlk]
  intro a
  match a with
  | ⟨0, _⟩ => show win0_3.index t (0 : Fin 2) * 1536 ≤ (i 0).val ∧ (i 0).val < win0_3.index t (0 : Fin 2) * 1536 + 1536; rw [e0, ht]; omega
  | ⟨1, _⟩ => show win0_3.index t (1 : Fin 2) * 128 ≤ (i 1).val ∧ (i 1).val < win0_3.index t (1 : Fin 2) * 128 + 128; rw [e1]; omega

/-- THE PROJECTION REGION'S RESULT: after the 8 write-backs the array holds the projected features of the inputs, the
    weights and the bias row as the region found them. -/
theorem proj_arrAt (c : Dev nD)
    (dat : Pipeline.Dat τ (Elt Ideal) Unit ℕ (UR sig nD τ) ℕ cfg0 c)
    (hA : ∀ w, dat.A w = V c (Pipeline.arrRef spec0 w))
    (hafter : ∀ t, dat.after 3 t = k0_pay1 (xBlk V c t) (wBlk V c t) (bBlk V c t)) :
    (dat.arrAt 3 cfg0.N : S12288x128.Idx → EReal) = Cert.Spec.projOf (V c main_arg1) (V c main_arg2) (V c main_v0) :=
  dat.arrAt_eq_of_cover 3 (projArr V c) (fun t _ => proj_flushed_eq V c dat hafter t) proj_cover

end Cert.KernelIdeal.Hand

end
-- ==== Proof.KI.Value1a.lean ====
/-
  The attention kernel's step read at an index, at the ideal values.

  Each payload of the step is read at one entry of its block: the additive score of a pair is the leaky rectifier of
  the row's product with the first half of φ plus the column's product with the second half; the mask bit of a pair is
  set when the adjacency word is positive or the pair lies on the diagonal of the whole matrix; the masked tile is the
  score where the bit is set and the fill elsewhere; the new maximum of a row is the old one against the tile's
  maximum; the rescaling factor and the tile's exponentials are taken against the new maximum; the new sum and the new
  weighted sum are the rescaled old ones plus the tile's contributions; the result block is the weighted sum times
  the reciprocal of the sum, rectified. The reset state is −∞, 0 and 0.
-/
import proofs.«413493_j46600395162312_3_alg».proof.Proof.KI.Blocks
import proofs.«413493_j46600395162312_3_alg».proof.Proof.KI.SpecK
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.Hand

open Idealize.ShloMosaic Idealize.ShloMosaic.ValueIdx Cert.KernelIdeal Cert.KernelIdeal.Gen

/-- The fill of a masked entry is the specification's. -/
theorem negC_eq : (negC : Ideal .f32) = Spec.negBig := rfl

/-- The rectifier as the kernel spells it — a select on "not below zero" between the value and its multiple by the
    slope word — is the specification's. -/
theorem leaky_word (z : EReal) :
    Scalar.select (FloatOps.cmpf (F := Ideal) (φ := .f32) .oge z (Ideal.ofBits .f32 0x00000000#32)) z
        (Ideal.ofBits .f32 0x3C23D70A#32 * z) = Spec.leaky z := by
  rw [Ideal.cmpf_def, Ideal.ofBits_zero_f32]
  unfold Spec.leaky Spec.slope Scalar.select Ideal.cmp
  by_cases h : (0 : EReal) ≤ z
  · simp [h]
  · simp [h]

/-- A column spread along the lanes reads, at (p, c), the column's entry of row p. -/
theorem spreadCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row product's operand indices, axis by axis: the row operand is read at (row, position), the φ row at (0, position). -/
theorem rowDot_lhs0 (j : S1024x1.Idx) (k : dot_S1024x128_S1x128_S1024x1_1_1_0_0_n_n.contr.Idx) :
    (dot_S1024x128_S1x128_S1024x1_1_1_0_0_n_n.lhsIdx j k 0).val = (j 0).val := by
  simp [DotDims.lhsIdx, dot_S1024x128_S1x128_S1024x1_1_1_0_0_n_n]
  rfl
theorem rowDot_lhs1 (j : S1024x1.Idx) (k : Fin 128) :
    (dot_S1024x128_S1x128_S1024x1_1_1_0_0_n_n.lhsIdx j
      ((contrEquiv1 dot_S1024x128_S1x128_S1024x1_1_1_0_0_n_n 128 rfl rfl).symm k) 1).val = k.val :=
  (dot_S1024x128_S1x128_S1024x1_1_1_0_0_n_n.lhsIdx_val_of_single rfl j _).trans
    (contrEquiv1_symm_val dot_S1024x128_S1x128_S1024x1_1_1_0_0_n_n 128 rfl rfl k)
theorem rowDot_rhs0 (j : S1024x1.Idx) (k : dot_S1024x128_S1x128_S1024x1_1_1_0_0_n_n.contr.Idx) :
    (dot_S1024x128_S1x128_S1024x1_1_1_0_0_n_n.rhsIdx j k 0).val = 0 := by
  have h : (dot_S1024x128_S1x128_S1024x1_1_1_0_0_n_n.rhsIdx j k 0).val < 1 :=
    (dot_S1024x128_S1x128_S1024x1_1_1_0_0_n_n.rhsIdx j k 0).isLt
  omega
theorem rowDot_rhs1 (j : S1024x1.Idx) (k : Fin 128) :
    (dot_S1024x128_S1x128_S1024x1_1_1_0_0_n_n.rhsIdx j
      ((contrEquiv1 dot_S1024x128_S1x128_S1024x1_1_1_0_0_n_n 128 rfl rfl).symm k) 1).val = k.val :=
  (dot_S1024x128_S1x128_S1024x1_1_1_0_0_n_n.rhsIdx_val_of_single rfl j _).trans
    (contrEquiv1_symm_val dot_S1024x128_S1x128_S1024x1_1_1_0_0_n_n 128 rfl rfl k)

/-- A row tile's features against the first half of φ: the product into the zero column is the sum over the 128 features. -/
theorem rowDot_apply (row0 : Vec Ideal S1024x128 .f32) (q1 : Vec Ideal S1x128 .f32) (p : Fin 1024) :
    matmul (φ₁ := .f32) (φ₂ := .f32) dot_S1024x128_S1x128_S1024x1_1_1_0_0_n_n none row0 q1 (constant (F := Ideal) S1024x1 .f32 0x00000000#32)
        (ix2 p (0 : Fin 1))
      = ∑ k : Fin 128, row0 (ix2 p k) * q1 (ix2 (0 : Fin 1) k) := by
  refine (Ideal.matmul_constant_zero_apply dot_S1024x128_S1x128_S1024x1_1_1_0_0_n_n none row0 q1 _).trans ?_
  rw [← Equiv.sum_comp (contrEquiv1 dot_S1024x128_S1x128_S1024x1_1_1_0_0_n_n 128 rfl rfl).symm]
  refine Finset.sum_congr rfl fun k _ => ?_
  have hl : dot_S1024x128_S1x128_S1024x1_1_1_0_0_n_n.lhsIdx (ix2 p (0 : Fin 1))
      ((contrEquiv1 dot_S1024x128_S1x128_S1024x1_1_1_0_0_n_n 128 rfl rfl).symm k) = ix2 p k :=
    Shape.idx_ext₂ (rowDot_lhs0 _ _) (rowDot_lhs1 _ k)
  have hr : dot_S1024x128_S1x128_S1024x1_1_1_0_0_n_n.rhsIdx (ix2 p (0 : Fin 1))
      ((contrEquiv1 dot_S1024x128_S1x128_S1024x1_1_1_0_0_n_n 128 rfl rfl).symm k) = ix2 (0 : Fin 1) k :=
    Shape.idx_ext₂ (rowDot_rhs0 _ _) (rowDot_rhs1 _ k)
  rw [hl, hr]

/-- The column product's operand indices, axis by axis: the φ row is read at (0, position), the column operand at
    (column, position). -/
theorem colDot_lhs0 (j : S1x1024.Idx) (k : dot_S1x128_S1024x128_S1x1024_1_1_0_0_n_n.contr.Idx) :
    (dot_S1x128_S1024x128_S1x1024_1_1_0_0_n_n.lhsIdx j k 0).val = 0 := by
  have h : (dot_S1x128_S1024x128_S1x1024_1_1_0_0_n_n.lhsIdx j k 0).val < 1 :=
    (dot_S1x128_S1024x128_S1x1024_1_1_0_0_n_n.lhsIdx j k 0).isLt
  omega
theorem colDot_lhs1 (j : S1x1024.Idx) (k : Fin 128) :
    (dot_S1x128_S1024x128_S1x1024_1_1_0_0_n_n.lhsIdx j
      ((contrEquiv1 dot_S1x128_S1024x128_S1x1024_1_1_0_0_n_n 128 rfl rfl).symm k) 1).val = k.val :=
  (dot_S1x128_S1024x128_S1x1024_1_1_0_0_n_n.lhsIdx_val_of_single rfl j _).trans
    (contrEquiv1_symm_val dot_S1x128_S1024x128_S1x1024_1_1_0_0_n_n 128 rfl rfl k)
theorem colDot_rhs0 (j : S1x1024.Idx) (k : dot_S1x128_S1024x128_S1x1024_1_1_0_0_n_n.contr.Idx) :
    (dot_S1x128_S1024x128_S1x1024_1_1_0_0_n_n.rhsIdx j k 0).val = (j 1).val := by
  simp [DotDims.rhsIdx, dot_S1x128_S1024x128_S1x1024_1_1_0_0_n_n]
  rfl
theorem colDot_rhs1 (j : S1x1024.Idx) (k : Fin 128) :
    (dot_S1x128_S1024x128_S1x1024_1_1_0_0_n_n.rhsIdx j
      ((contrEquiv1 dot_S1x128_S1024x128_S1x1024_1_1_0_0_n_n 128 rfl rfl).symm k) 1).val = k.val :=
  (dot_S1x128_S1024x128_S1x1024_1_1_0_0_n_n.rhsIdx_val_of_single rfl j _).trans
    (contrEquiv1_symm_val dot_S1x128_S1024x128_S1x1024_1_1_0_0_n_n 128 rfl rfl k)

/-- The second half of φ against a column tile's features: the product into the zero row is the sum over the 128 features. -/
theorem colDot_apply (col0 : Vec Ideal S1024x128 .f32) (q2 : Vec Ideal S1x128 .f32) (q : Fin 1024) :
    matmul (φ₁ := .f32) (φ₂ := .f32) dot_S1x128_S1024x128_S1x1024_1_1_0_0_n_n none q2 col0 (constant (F := Ideal) S1x1024 .f32 0x00000000#32)
        (ix2 (0 : Fin 1) q)
      = ∑ k : Fin 128, col0 (ix2 q k) * q2 (ix2 (0 : Fin 1) k) := by
  refine (Ideal.matmul_constant_zero_apply dot_S1x128_S1024x128_S1x1024_1_1_0_0_n_n none q2 col0 _).trans ?_
  rw [← Equiv.sum_comp (contrEquiv1 dot_S1x128_S1024x128_S1x1024_1_1_0_0_n_n 128 rfl rfl).symm]
  refine Finset.sum_congr rfl fun k _ => ?_
  have hl : dot_S1x128_S1024x128_S1x1024_1_1_0_0_n_n.lhsIdx (ix2 (0 : Fin 1) q)
      ((contrEquiv1 dot_S1x128_S1024x128_S1x1024_1_1_0_0_n_n 128 rfl rfl).symm k) = ix2 (0 : Fin 1) k :=
    Shape.idx_ext₂ (colDot_lhs0 _ _) (colDot_lhs1 _ k)
  have hr : dot_S1x128_S1024x128_S1x1024_1_1_0_0_n_n.rhsIdx (ix2 (0 : Fin 1) q)
      ((contrEquiv1 dot_S1x128_S1024x128_S1x1024_1_1_0_0_n_n 128 rfl rfl).symm k) = ix2 q k :=
    Shape.idx_ext₂ (colDot_rhs0 _ _) (colDot_rhs1 _ k)
  rw [hl, hr]
  exact mul_comm _ _

/-- The additive score of the pair (p, q) of a tile. -/
theorem score_apply (row0 col0 : Vec Ideal S1024x128 .f32) (q1 q2 : Vec Ideal S1x128 .f32) (p q : Fin 1024) :
    k1_pay14 row0 col0 q1 q2 (ix2 p q)
      = Spec.leaky ((∑ k : Fin 128, row0 (ix2 p k) * q1 (ix2 (0 : Fin 1) k))
          + (∑ k : Fin 128, col0 (ix2 q k) * q2 (ix2 (0 : Fin 1) k))) := by
  have hrow : matmul (φ₁ := .f32) (φ₂ := .f32) dot_S1024x128_S1x128_S1024x1_1_1_0_0_n_n none
        (shapeCast S1024x128 row0 shapeCasts_S1024x128_S1024x128) (shapeCast S1x128 q1 shapeCasts_S1x128_S1x128)
        (constant (F := Ideal) S1024x1 .f32 0x00000000#32) (ix2 p (0 : Fin 1))
      = ∑ k : Fin 128, row0 (ix2 p k) * q1 (ix2 (0 : Fin 1) k) := by
    rw [shapeCast_self, shapeCast_self]
    exact rowDot_apply row0 q1 p
  have hcol : matmul (φ₁ := .f32) (φ₂ := .f32) dot_S1x128_S1024x128_S1x1024_1_1_0_0_n_n none
        (shapeCast S1x128 q2 shapeCasts_S1x128_S1x128) (k1_pay12 col0)
        (constant (F := Ideal) S1x1024 .f32 0x00000000#32) (ix2 (0 : Fin 1) q)
      = ∑ k : Fin 128, col0 (ix2 q k) * q2 (ix2 (0 : Fin 1) k) := by
    unfold k1_pay12
    rw [shapeCast_self, shapeCast_self]
    exact colDot_apply col0 q2 q
  have hv : addf
        (broadcastTo S1024x1024 (matmul (φ₁ := .f32) (φ₂ := .f32) dot_S1024x128_S1x128_S1024x1_1_1_0_0_n_n none
          (shapeCast S1024x128 row0 shapeCasts_S1024x128_S1024x128) (shapeCast S1x128 q1 shapeCasts_S1x128_S1x128)
          (constant (F := Ideal) S1024x1 .f32 0x00000000#32)) broadcasts_S1024x1_S1024x1024)
        (broadcastTo S1024x1024 (matmul (φ₁ := .f32) (φ₂ := .f32) dot_S1x128_S1024x128_S1x1024_1_1_0_0_n_n none
          (shapeCast S1x128 q2 shapeCasts_S1x128_S1x128) (k1_pay12 col0)
          (constant (F := Ideal) S1x1024 .f32 0x00000000#32)) broadcasts_S1x1024_S1024x1024) (ix2 p q)
      = (∑ k : Fin 128, row0 (ix2 p k) * q1 (ix2 (0 : Fin 1) k))
          + (∑ k : Fin 128, col0 (ix2 q k) * q2 (ix2 (0 : Fin 1) k)) :=
    congrArg₂ (· + ·) ((spreadCol_apply _ _ p q).trans hrow) ((broadcastTo_1b_ab_apply _ _ p q).trans hcol)
  refine Eq.trans ?_ ((congrArg (fun z : EReal => Scalar.select (FloatOps.cmpf (F := Ideal) (φ := .f32) .oge z
      (Ideal.ofBits .f32 0x00000000#32)) z (Ideal.ofBits .f32 0x3C23D70A#32 * z)) hv).trans (leaky_word _))
  rfl

/-- Small naturals are their words: 1024 a + b as a word is the word of a times 1024 plus the word of b. -/
theorem tileWord_eq (a b : ℕ) : BitVec.ofNat 32 a * 1024#32 + BitVec.ofNat 32 b = BitVec.ofNat 32 (1024 * a + b) := by
  rw [BitVec.ofNat_add, BitVec.ofNat_mul, BitVec.mul_comm]

/-- Words of numbers below 2³² are equal exactly when the numbers are. -/
theorem word_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The "or" of two bits is set exactly when one of them is. -/
theorem bitOr_one_iff (a b : BitVec 1) : IntOp.ori a b = 1#1 ↔ (a = 1#1 ∨ b = 1#1) := by
  rcases BitVec.eq_zero_or_eq_one a with rfl | rfl <;> rcases BitVec.eq_zero_or_eq_one b with rfl | rfl <;> decide

/-- A word is above the zero word, read signed, exactly when its signed value is positive. -/
theorem sgtZero_iff (x : BitVec 32) : IntOp.cmpi .sgt x 0#32 = 1#1 ↔ 0 < x.toInt := by
  show BitVec.ofBool ((0#32).slt x) = 1#1 ↔ _
  rw [StableHlo.Predicate.ofBool_eq_one_iff, BitVec.slt_iff_toInt_lt, BitVec.toInt_zero]

/-- The row word of a pair, spread over the tile: 1024 · i₀ + p. -/
theorem rowWord_apply (i : grid1.Coords) (p q : Fin 1024) :
    broadcastTo S1024x1024 (addi (broadcast S1024x1 (Scalar.muli (BitVec.ofNat 32 (i 0).val) 1024#32))
        (iota .tc S1024x1 32 [0] iota_S1024x1_d0_w32)) broadcasts_S1024x1_S1024x1024 (ix2 p q)
      = BitVec.ofNat 32 (1024 * (i 0).val + p.val) := by
  rw [spreadCol_apply]
  show BitVec.ofNat 32 (i 0).val * 1024#32 + iota .tc S1024x1 32 [0] iota_S1024x1_d0_w32 (ix2 p (0 : Fin 1)) = _
  rw [iota_single_apply]
  exact tileWord_eq _ _

/-- The column word of a pair, spread over the tile: 1024 · i₁ + q. -/
theorem colWord_apply (i : grid1.Coords) (p q : Fin 1024) :
    broadcastTo S1024x1024 (addi (broadcast S1x1024 (Scalar.muli (BitVec.ofNat 32 (i 1).val) 1024#32))
        (iota .tc S1x1024 32 [1] iota_S1x1024_d1_w32)) broadcasts_S1x1024_S1024x1024 (ix2 p q)
      = BitVec.ofNat 32 (1024 * (i 1).val + q.val) := by
  rw [broadcastTo_1b_ab_apply]
  show BitVec.ofNat 32 (i 1).val * 1024#32 + iota .tc S1x1024 32 [1] iota_S1x1024_d1_w32 (ix2 (0 : Fin 1) q) = _
  rw [iota_single_apply]
  exact tileWord_eq _ _

/-- The mask bit of the pair (p, q) of tile (i₀, i₁): the adjacency word is positive, or the pair is on the diagonal. -/
theorem keepBit_iff (i : grid1.Coords) (adj0 : Vec Ideal S1024x1024 .i32) (p q : Fin 1024) :
    k1_pay15 (F := Ideal) i adj0 (ix2 p q) = 1#1
      ↔ (0 < (adj0 (ix2 p q)).toInt ∨ 1024 * (i 0).val + p.val = 1024 * (i 1).val + q.val) := by
  have h0 : (i 0).val < 12 := (i 0).isLt
  have h1 : (i 1).val < 12 := (i 1).isLt
  have hp := p.isLt
  have hq := q.isLt
  show IntOp.ori (IntOp.cmpi .sgt (adj0 (ix2 p q)) 0#32)
      (IntOp.cmpi .eq
        (broadcastTo S1024x1024 (addi (broadcast S1024x1 (Scalar.muli (BitVec.ofNat 32 (i 0).val) 1024#32))
          (iota .tc S1024x1 32 [0] iota_S1024x1_d0_w32)) broadcasts_S1024x1_S1024x1024 (ix2 p q))
        (broadcastTo S1024x1024 (addi (broadcast S1x1024 (Scalar.muli (BitVec.ofNat 32 (i 1).val) 1024#32))
          (iota .tc S1x1024 32 [1] iota_S1x1024_d1_w32)) broadcasts_S1x1024_S1024x1024 (ix2 p q))) = 1#1 ↔ _
  rw [rowWord_apply, colWord_apply, bitOr_one_iff, sgtZero_iff, StableHlo.Predicate.cmpi_eq_iff,
    word_eq_iff (by omega) (by omega)]

/-- The masked tile: the score where the bit is set, the fill elsewhere. -/
theorem maskedTile_apply (sc : FVec Ideal S1024x1024 .f32) (kb : IVec S1024x1024 1) (c : Ideal .f32) (x : S1024x1024.Idx) :
    k1_pay1 sc kb c x = if kb x = 1#1 then sc x else c := by
  rfl

/-- A vector of length `a` cast to a column `[a, 1]` reads, at `(i, u)`, the vector at `i`. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the lanes to `[a, b]` reads, at `(p, c)`, the column at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the tile over row `p` of the lane reduction, with lane `q` put back, is `(p, q)`. -/
theorem laneLift_eq (p q : Fin 1024) : reduces_S1024x1024_S1024.lift (ix1 p) q = ix2 p q := by
  funext ax
  refine Fin.ext ?_
  match ax with
  | ⟨0, _⟩ => rfl
  | ⟨1, _⟩ => rfl

/-- The word the row maximum starts from is −∞. -/
theorem negInfWord_eq : FloatOps.ofBits (F := Ideal) .f32 0xFF800000#32 = (⊥ : EReal) := by
  show Ideal.ofBits .f32 0xFF800000#32 = ⊥
  simp [Ideal.ofBits, Ideal.ieee]

/-- The new maximum of row p: the old one against the masked tile's row maximum. -/
theorem newMax_apply (sc : FVec Ideal S1024x1024 .f32) (kb : IVec S1024x1024 1) (c : Ideal .f32)
    (m0 : Vec Ideal S1024x1 .f32) (p : Fin 1024) :
    k1_pay2 sc kb c m0 (ix2 p (0 : Fin 1))
      = max (m0 (ix2 p (0 : Fin 1))) ((Finset.univ : Finset (Fin 1024)).fold max ⊥ (fun q => k1_pay1 sc kb c (ix2 p q))) := by
  unfold k1_pay2
  refine congrArg (max (m0 (ix2 p (0 : Fin 1)))) ?_
  refine (colCast_apply _ shapeCasts_S1024_S1024x1 p 0).trans ?_
  refine (Ideal.multiReduction_maximumf_single (k1_pay1 sc kb c) 0xFF800000#32 reduces_S1024x1024_S1024 (.inl rfl) rfl (ix1 p)).trans ?_
  rw [negInfWord_eq]
  refine congrArg (fun f => (Finset.univ : Finset (Fin 1024)).fold max ⊥ f) ?_
  funext q
  exact congrArg (k1_pay1 sc kb c) (laneLift_eq p q)

/-- The maximum stored is the new maximum. -/
theorem storedMax_eq (sc : FVec Ideal S1024x1024 .f32) (kb : IVec S1024x1024 1) (c : Ideal .f32)
    (m0 : Vec Ideal S1024x1 .f32) : k1_pay7 sc kb c m0 = k1_pay2 sc kb c m0 := by
  unfold k1_pay7
  exact shapeCast_self _ shapeCasts_S1024x1_S1024x1

/-- The rescaling factor of row p. -/
theorem rescale_apply (sc : FVec Ideal S1024x1024 .f32) (kb : IVec S1024x1024 1) (c : Ideal .f32)
    (m0 : Vec Ideal S1024x1 .f32) (p : Fin 1024) :
    k1_pay3 sc kb c m0 (ix2 p (0 : Fin 1)) = Ideal.exp (m0 (ix2 p (0 : Fin 1)) - k1_pay2 sc kb c m0 (ix2 p (0 : Fin 1))) := by
  unfold k1_pay3
  rfl

/-- The tile's exponentials against the new maximum. -/
theorem tileExp_apply (sc : FVec Ideal S1024x1024 .f32) (kb : IVec S1024x1024 1) (c : Ideal .f32)
    (m0 : Vec Ideal S1024x1 .f32) (p q : Fin 1024) :
    k1_pay4 sc kb c m0 (ix2 p q) = Ideal.exp (k1_pay1 sc kb c (ix2 p q) - k1_pay2 sc kb c m0 (ix2 p (0 : Fin 1))) := by
  unfold k1_pay4
  show Ideal.exp (k1_pay1 sc kb c (ix2 p q)
      - broadcastTo S1024x1024 (k1_pay2 sc kb c m0) broadcasts_S1024x1_S1024x1024 (ix2 p q)) = _
  exact congrArg (fun z => Ideal.exp (k1_pay1 sc kb c (ix2 p q) - z))
    (colBroadcast_apply (k1_pay2 sc kb c m0) broadcasts_S1024x1_S1024x1024 p q)

/-- The new sum of row p. -/
theorem newSum_apply (sc : FVec Ideal S1024x1024 .f32) (kb : IVec S1024x1024 1) (c : Ideal .f32)
    (m0 l0 : Vec Ideal S1024x1 .f32) (p : Fin 1024) :
    k1_pay5 sc kb c m0 l0 (ix2 p (0 : Fin 1))
      = k1_pay3 sc kb c m0 (ix2 p (0 : Fin 1)) * l0 (ix2 p (0 : Fin 1)) + ∑ q : Fin 1024, k1_pay4 sc kb c m0 (ix2 p q) := by
  unfold k1_pay5
  refine (congrFun (shapeCast_self _ shapeCasts_S1024x1_S1024x1) (ix2 p (0 : Fin 1))).trans ?_
  refine congrArg (fun z => k1_pay3 sc kb c m0 (ix2 p (0 : Fin 1)) * l0 (ix2 p (0 : Fin 1)) + z) ?_
  refine (colCast_apply _ shapeCasts_S1024_S1024x1 p 0).trans ?_
  refine (Ideal.multiReduction_add_single (k1_pay4 sc kb c m0) _ reduces_S1024x1024_S1024 (.inl rfl) rfl (ix1 p)).trans ?_
  refine Finset.sum_congr rfl fun q _ => ?_
  exact congrArg (k1_pay4 sc kb c m0) (laneLift_eq p q)

/-- The column tile's features as the weighted sum takes them: unchanged at the ideal values. -/
theorem colFeat_eq (col0 : Vec Ideal S1024x128 .f32) : k1_pay13 col0 = col0 := by
  unfold k1_pay13 k1_pay12
  funext x
  exact congrFun (shapeCast_self col0 shapeCasts_S1024x128_S1024x128) x

/-- The weighted sum's product contracts the lanes of the tile of exponentials against the rows of the column tile's
    features: at the result's (p, d) and contraction position k the left operand is read at (p, k), the right one at
    (k, d). The four coordinates, one by one. -/
theorem accDot_lhs0 (j : S1024x128.Idx) (k : dot_S1024x1024_S1024x128_S1024x128_1_0_0_1_n_n.contr.Idx) :
    ((dot_S1024x1024_S1024x128_S1024x128_1_0_0_1_n_n.lhsIdx j k) 0).val = (j 0).val := by
  simp [DotDims.lhsIdx, dot_S1024x1024_S1024x128_S1024x128_1_0_0_1_n_n]
  rfl
theorem accDot_lhs1 (j : S1024x128.Idx) (k : dot_S1024x1024_S1024x128_S1024x128_1_0_0_1_n_n.contr.Idx) :
    ((dot_S1024x1024_S1024x128_S1024x128_1_0_0_1_n_n.lhsIdx j k) 1).val = (k ⟨0, Nat.one_pos⟩).val :=
  DotDims.lhsIdx_val_of_single dot_S1024x1024_S1024x128_S1024x128_1_0_0_1_n_n (cl := 1) rfl j k
theorem accDot_rhs0 (j : S1024x128.Idx) (k : dot_S1024x1024_S1024x128_S1024x128_1_0_0_1_n_n.contr.Idx) :
    ((dot_S1024x1024_S1024x128_S1024x128_1_0_0_1_n_n.rhsIdx j k) 0).val = (k ⟨0, Nat.one_pos⟩).val :=
  DotDims.rhsIdx_val_of_single dot_S1024x1024_S1024x128_S1024x128_1_0_0_1_n_n (cr := 0) rfl j k
theorem accDot_rhs1 (j : S1024x128.Idx) (k : dot_S1024x1024_S1024x128_S1024x128_1_0_0_1_n_n.contr.Idx) :
    ((dot_S1024x1024_S1024x128_S1024x128_1_0_0_1_n_n.rhsIdx j k) 1).val = (j 1).val := by
  simp [DotDims.rhsIdx, dot_S1024x1024_S1024x128_S1024x128_1_0_0_1_n_n]
  rfl

/-- The new weighted sum at (p, d). -/
theorem newAcc_apply (colb : FVec Ideal S1024x128 .bf16) (sc : FVec Ideal S1024x1024 .f32) (kb : IVec S1024x1024 1)
    (c : Ideal .f32) (m0 : Vec Ideal S1024x1 .f32) (a0 : Vec Ideal S1024x128 .f32) (p : Fin 1024) (d : Fin 128) :
    k1_pay6 colb sc kb c m0 a0 (ix2 p d)
      = k1_pay3 sc kb c m0 (ix2 p (0 : Fin 1)) * a0 (ix2 p d) + ∑ q : Fin 1024, k1_pay4 sc kb c m0 (ix2 p q) * colb (ix2 q d) := by
  unfold k1_pay6
  refine (congrFun (shapeCast_self _ shapeCasts_S1024x128_S1024x128) (ix2 p d)).trans ?_
  show broadcastTo S1024x128 (k1_pay3 sc kb c m0) broadcasts_S1024x1_S1024x128 (ix2 p d) * a0 (ix2 p d)
      + FloatOps.matmul dot_S1024x1024_S1024x128_S1024x128_1_0_0_1_n_n none
          (truncf .bf16 (k1_pay4 sc kb c m0) bitsLt_bf16_f32) colb (constant S1024x128 .f32 0x00000000#32) (ix2 p d) = _
  refine congrArg₂ (fun y z => y * a0 (ix2 p d) + z)
    (colBroadcast_apply (k1_pay3 sc kb c m0) broadcasts_S1024x1_S1024x128 p d) ?_
  refine (Ideal.matmul_constant_zero_apply dot_S1024x1024_S1024x128_S1024x128_1_0_0_1_n_n none _ colb (ix2 p d)).trans ?_
  refine (Equiv.sum_comp (contrEquiv1 dot_S1024x1024_S1024x128_S1024x128_1_0_0_1_n_n 1024 rfl rfl).symm _).symm.trans ?_
  refine Finset.sum_congr rfl fun q _ => ?_
  have hq := contrEquiv1_symm_val dot_S1024x1024_S1024x128_S1024x128_1_0_0_1_n_n 1024 rfl rfl q
  have hl : dot_S1024x1024_S1024x128_S1024x128_1_0_0_1_n_n.lhsIdx (ix2 p d) ((contrEquiv1 dot_S1024x1024_S1024x128_S1024x128_1_0_0_1_n_n 1024 rfl rfl).symm q) = ix2 p q := by
    funext ax
    refine Fin.ext ?_
    match ax with
    | ⟨0, _⟩ => exact accDot_lhs0 _ _
    | ⟨1, _⟩ => exact (accDot_lhs1 _ _).trans hq
  have hr : dot_S1024x1024_S1024x128_S1024x128_1_0_0_1_n_n.rhsIdx (ix2 p d) ((contrEquiv1 dot_S1024x1024_S1024x128_S1024x128_1_0_0_1_n_n 1024 rfl rfl).symm q) = ix2 q d := by
    funext ax
    refine Fin.ext ?_
    match ax with
    | ⟨0, _⟩ => exact (accDot_rhs0 _ _).trans hq
    | ⟨1, _⟩ => exact accDot_rhs1 _ _
  rw [hl, hr]
  rfl

/-- The word of one is the number one. -/
theorem f32_word_one : Ideal.ofBits .f32 0x3F800000#32 = 1 := by
  simp [Ideal.ofBits, Ideal.ieee, -EReal.coe_mul]
  norm_num

/-- The result block at (p, d). -/
theorem result_apply (a : Vec Ideal S1024x128 .f32) (l : Vec Ideal S1024x1 .f32) (p : Fin 1024) (d : Fin 128) :
    k1_pay8 a l (ix2 p d) = Spec.leaky (a (ix2 p d) * Ideal.div 1 (l (ix2 p (0 : Fin 1)))) := by
  have hv : mulf a (broadcastTo S1024x128 (divf (broadcast S1024x1 (Scalar.ofBits (F := Ideal) .f32 0x3F800000#32)) l)
        broadcasts_S1024x1_S1024x128) (ix2 p d) = a (ix2 p d) * Ideal.div 1 (l (ix2 p (0 : Fin 1))) := by
    show a (ix2 p d) * broadcastTo S1024x128 (divf (broadcast S1024x1 (Scalar.ofBits (F := Ideal) .f32 0x3F800000#32)) l)
        broadcasts_S1024x1_S1024x128 (ix2 p d) = _
    rw [spreadCol_apply]
    show _ * Ideal.div (Ideal.ofBits .f32 0x3F800000#32) (l (ix2 p (0 : Fin 1))) = _
    rw [f32_word_one]
  refine Eq.trans ?_ ((congrArg (fun z : EReal => Scalar.select (FloatOps.cmpf (F := Ideal) (φ := .f32) .oge z
      (Ideal.ofBits .f32 0x00000000#32)) z (Ideal.ofBits .f32 0x3C23D70A#32 * z)) hv).trans (leaky_word _))
  rfl

/-- The reset state: −∞, 0, 0. -/
theorem resetMax_apply (x : S1024x1.Idx) : k1_pay9 (F := Ideal) x = ⊥ := by
  unfold k1_pay9
  rw [shapeCast_self]
  show Ideal.ofBits .f32 0xFF800000#32 = ⊥
  simp [Ideal.ofBits, Ideal.ieee]
theorem resetSum_apply (x : S1024x1.Idx) : k1_pay10 (F := Ideal) x = 0 := by
  unfold k1_pay10
  rw [shapeCast_self]
  exact Ideal.ofBits_zero_f32
theorem resetAcc_apply (x : S1024x128.Idx) : k1_pay11 (F := Ideal) x = 0 := by
  unfold k1_pay11
  rw [shapeCast_self]
  exact Ideal.ofBits_zero_f32

end Cert.KernelIdeal.Hand

end
-- ==== Proof.KI.Value1b.lean ====
/-
  The attention region's result array, read off the pipeline's data at the ideal values.

  Point t of the 12 × 12 grid is row tile t / 12 and column tile t % 12. The blocks the kernel reads there are parts
  of the arrays the region is handed: the adjacency tile, the row tile's and the column tile's projected features and
  the two halves of φ. Read at row p of the row tile, the masked tile is the masked score of node 1024 (t / 12) + p
  against the nodes of column tile t % 12, so one step of the kernel is one unfolding of the tiled softmax's recursion:
  after the body at column tile j the running maximum, sum and weighted sums of that row are the specification's after
  j + 1 tiles. At the last column tile the result block is the rectified quotient, the specification's value at the
  rows of the row tile; the twelve blocks written back there cover the array.
-/
import proofs.«413493_j46600395162312_3_alg».proof.Proof.KI.Value1a
import Idealize.ShloMosaic.Lib.Pipeline.FrameBody

noncomputable section

namespace Cert.KernelIdeal.Hand

open Idealize.ShloMosaic Idealize.ShloMosaic.ValueIdx Cert.KernelIdeal Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The grid's points number 144. -/
theorem lt_144 (t : Fin cfg1.N) : t.val < 144 := by
  have h := t.isLt
  have e : cfg1.N = 144 := N_1
  omega

/-- Point t of the 12 × 12 grid is row tile t / 12, column tile t % 12. -/
theorem coords1_val : ∀ t : Fin grid1.N, ((grid1.coords t) 0).val = t.val / 12 ∧ ((grid1.coords t) 1).val = t.val % 12 := by
  decide +kernel

/-- The windows' block indices over the grid. -/
theorem index1_facts : ∀ t : Fin cfg1.N,
    win1_0.index t (0 : Fin 2) = t.val / 12 ∧ win1_0.index t (1 : Fin 2) = t.val % 12
    ∧ win1_1.index t (0 : Fin 2) = t.val / 12 ∧ win1_1.index t (1 : Fin 2) = 0
    ∧ win1_2.index t (0 : Fin 2) = t.val % 12 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 12 ∧ win1_5.index t (1 : Fin 2) = 0 :=
  (by decide +kernel : ∀ t : Fin grid1.N, _)

/-- The adjacency tile at point t, entry (p, q): the adjacency of row 1024 (t / 12) + p and column 1024 (t % 12) + q. -/
theorem adjBlk_apply (c : Dev nD) (t : Fin cfg1.N) (p q : Fin 1024) :
    adjBlk V c t (ix2 p q) = V c main_arg0 (ix2 (Spec.colOf (t.val / 12) p) (Spec.colOf (t.val % 12) q)) := by
  obtain ⟨e0, e1, -⟩ := index1_facts t
  have ht := lt_144 t
  unfold adjBlk iblk1
  rw [View.read_apply]
  show V c main_arg0 _ = V c main_arg0 _
  congr 1
  funext a
  apply Fin.ext
  match a with
  | ⟨0, _⟩ => show win1_0.index t 0 * 1024 + 1 * p.val = (1024 * (t.val / 12) + p.val) % 12288; rw [e0]; omega
  | ⟨1, _⟩ => show win1_0.index t 1 * 1024 + 1 * q.val = (1024 * (t.val % 12) + q.val) % 12288; rw [e1]; omega

/-- The row tile's features at point t, entry (p, k): the features of node 1024 (t / 12) + p. -/
theorem rowBlk_apply (c : Dev nD) (t : Fin cfg1.N) (p : Fin 1024) (k : Fin 128) :
    rowBlk V c t (ix2 p k) = V c main_v1 (ix2 (Spec.colOf (t.val / 12) p) k) := by
  obtain ⟨-, -, e0, e1, -⟩ := index1_facts t
  have ht := lt_144 t
  unfold rowBlk iblk1
  rw [View.read_apply]
  show V c main_v1 _ = V c main_v1 _
  congr 1
  funext a
  apply Fin.ext
  match a with
  | ⟨0, _⟩ => show win1_1.index t 0 * 1024 + 1 * p.val = (1024 * (t.val / 12) + p.val) % 12288; rw [e0]; omega
  | ⟨1, _⟩ => show win1_1.index t 1 * 128 + 1 * k.val = k.val; rw [e1]; omega

/-- The column tile's features at point t, entry (q, k): the features of node 1024 (t % 12) + q. -/
theorem colBlk_apply (c : Dev nD) (t : Fin cfg1.N) (q : Fin 1024) (k : Fin 128) :
    colBlk V c t (ix2 q k) = V c main_v1 (ix2 (Spec.colOf (t.val % 12) q) k) := by
  obtain ⟨-, -, -, -, e0, e1, -⟩ := index1_facts t
  have ht := lt_144 t
  unfold colBlk iblk1
  rw [View.read_apply]
  show V c main_v1 _ = V c main_v1 _
  congr 1
  funext a
  apply Fin.ext
  match a with
  | ⟨0, _⟩ => show win1_2.index t 0 * 1024 + 1 * q.val = (1024 * (t.val % 12) + q.val) % 12288; rw [e0]; omega
  | ⟨1, _⟩ => show win1_2.index t 1 * 128 + 1 * k.val = k.val; rw [e1]; omega

/-- The first half of φ at every point is the whole row handed to the region. -/
theorem phi1Blk_apply (c : Dev nD) (t : Fin cfg1.N) (k : Fin 128) :
    phi1Blk V c t (ix2 (0 : Fin 1) k) = V c main_v3 (ix2 (0 : Fin 1) k) := by
  obtain ⟨-, -, -, -, -, -, e0, e1, -⟩ := index1_facts t
  unfold phi1Blk iblk1
  rw [View.read_apply]
  show V c main_v3 _ = V c main_v3 _
  congr 1
  funext a
  apply Fin.ext
  match a with
  | ⟨0, _⟩ => show win1_3.index t 0 * 1 + 1 * 0 = 0; rw [e0]
  | ⟨1, _⟩ => show win1_3.index t 1 * 128 + 1 * k.val = k.val; rw [e1]; omega

/-- The second half of φ likewise. -/
theorem phi2Blk_apply (c : Dev nD) (t : Fin cfg1.N) (k : Fin 128) :
    phi2Blk V c t (ix2 (0 : Fin 1) k) = V c main_v5 (ix2 (0 : Fin 1) k) := by
  obtain ⟨-, -, -, -, -, -, -, -, e0, e1, -⟩ := index1_facts t
  unfold phi2Blk iblk1
  rw [View.read_apply]
  show V c main_v5 _ = V c main_v5 _
  congr 1
  funext a
  apply Fin.ext
  match a with
  | ⟨0, _⟩ => show win1_4.index t 0 * 1 + 1 * 0 = 0; rw [e0]
  | ⟨1, _⟩ => show win1_4.index t 1 * 128 + 1 * k.val = k.val; rw [e1]; omega

/-- The masked scores of one row of the whole matrix, from the arrays the region is handed. -/
abbrev rowScores (c : Dev nD) (r : Fin 12288) : Fin 12288 → EReal :=
  Spec.maskedArr (V c main_arg0) (V c main_v1) (V c main_v3) (V c main_v5) r

/-- Column q of tile j has the number 1024 j + q when j is below 12. -/
theorem colOf_val (j : ℕ) (hj : j < 12) (q : Fin 1024) : (Spec.colOf j q).val = 1024 * j + q.val := by
  show (1024 * j + q.val) % 12288 = _
  have := q.isLt
  omega

open scoped Classical in
/-- THE MASKED TILE at point t, entry (p, q), is the masked score of row 1024 (t / 12) + p at column 1024 (t % 12) + q. -/
theorem maskedTile_at (c : Dev nD) (t : Fin cfg1.N) (p q : Fin 1024) :
    k1_pay1 (k1_pay14 (rowBlk V c t) (colBlk V c t) (phi1Blk V c t) (phi2Blk V c t)) (k1_pay15 (grid1.coords t) (adjBlk V c t)) negC (ix2 p q)
      = rowScores V c (Spec.colOf (t.val / 12) p) (Spec.colOf (t.val % 12) q) := by
  have ht := lt_144 t
  obtain ⟨c0, c1⟩ := coords1_val t
  rw [maskedTile_apply, score_apply, negC_eq]
  unfold rowScores Spec.maskedArr
  refine if_congr ?_ ?_ rfl
  · rw [keepBit_iff, adjBlk_apply, c0, c1]
    unfold Spec.keep
    refine or_congr Iff.rfl ?_
    rw [Fin.ext_iff, colOf_val _ (by omega), colOf_val _ (by omega)]
  · congr 2
    · exact Finset.sum_congr rfl fun k _ => by rw [rowBlk_apply, phi1Blk_apply]
    · exact Finset.sum_congr rfl fun k _ => by rw [colBlk_apply, phi2Blk_apply]

/-- ONE STEP IS ONE UNFOLDING of the tiled softmax's recursion, read at row p: if the masked tile's row p holds the
    scores s of column tile j, the column tile's features are f's there, and the state's row p holds the running
    quantities after j tiles, then the step's row p holds them after j + 1 tiles. -/
theorem step_state (s : Fin 12288 → EReal) (f : Fin 128 → Fin 12288 → EReal) (j : ℕ)
    (sc : FVec Ideal S1024x1024 .f32) (kb : IVec S1024x1024 1) (col0 : Vec Ideal S1024x128 .f32) (st : Sc Ideal) (p : Fin 1024)
    (hs : ∀ q, k1_pay1 sc kb negC (ix2 p q) = s (Spec.colOf j q))
    (hv : ∀ q d, col0 (ix2 q d) = f d (Spec.colOf j q))
    (hm : st.1 (ix2 p (0 : Fin 1)) = Spec.mS s j) (hl : st.2.1 (ix2 p (0 : Fin 1)) = Spec.lS s j)
    (ha : ∀ d, st.2.2 (ix2 p d) = Spec.aS s (f d) j) :
    k1_pay7 sc kb negC st.1 (ix2 p (0 : Fin 1)) = Spec.mS s (j + 1)
    ∧ k1_pay5 sc kb negC st.1 st.2.1 (ix2 p (0 : Fin 1)) = Spec.lS s (j + 1)
    ∧ ∀ d, k1_pay6 (k1_pay13 col0) sc kb negC st.1 st.2.2 (ix2 p d) = Spec.aS s (f d) (j + 1) := by
  have hmax : k1_pay2 sc kb negC st.1 (ix2 p (0 : Fin 1)) = Spec.mS s (j + 1) := by
    rw [newMax_apply, hm, funext hs]
    rfl
  have hal : k1_pay3 sc kb negC st.1 (ix2 p (0 : Fin 1)) = Spec.alphaS s j := by
    rw [rescale_apply, hmax, hm]
    rfl
  have hex : ∀ q, k1_pay4 sc kb negC st.1 (ix2 p q) = Ideal.exp (s (Spec.colOf j q) - Spec.mS s (j + 1)) := fun q => by
    rw [tileExp_apply, hmax, hs]
  refine ⟨by rw [storedMax_eq]; exact hmax, ?_, fun d => ?_⟩
  · rw [newSum_apply, hal, hl, Finset.sum_congr rfl fun q _ => hex q]
    rfl
  · rw [newAcc_apply, hal, ha, colFeat_eq, Finset.sum_congr rfl fun q _ => by rw [hex q, hv q d]]
    rfl

/-- THE INVARIANT: after the body at column tile j of a row tile, row p of the carried state holds the running
    maximum, sum and weighted sums of node 1024 (t / 12) + p's masked scores after j + 1 tiles. -/
theorem state_at (c : Dev nD) : ∀ (j : ℕ) (t : Fin cfg1.N), t.val % 12 = j → ∀ p : Fin 1024,
    (scAt1 V c t.val t.isLt).1 (ix2 p (0 : Fin 1)) = Spec.mS (rowScores V c (Spec.colOf (t.val / 12) p)) (j + 1)
    ∧ (scAt1 V c t.val t.isLt).2.1 (ix2 p (0 : Fin 1)) = Spec.lS (rowScores V c (Spec.colOf (t.val / 12) p)) (j + 1)
    ∧ ∀ d : Fin 128, (scAt1 V c t.val t.isLt).2.2 (ix2 p d)
        = Spec.aS (rowScores V c (Spec.colOf (t.val / 12) p)) (fun c' => V c main_v1 (ix2 c' d)) (j + 1)
  | 0, t, ht, p => by
    rw [scAt1_first V c t ht]
    unfold stepAt1 stepSc
    exact step_state _ (fun d c' => V c main_v1 (ix2 c' d)) 0 _ _ _ initSc p
      (fun q => by rw [maskedTile_at, ht]) (fun q d => by rw [colBlk_apply, ht])
      (resetMax_apply (ix2 p (0 : Fin 1))) (resetSum_apply (ix2 p (0 : Fin 1))) (fun d => resetAcc_apply (ix2 p d))
  | j + 1, t, ht, p => by
    have hne : ¬ t.val % 12 = 0 := by omega
    have hlt : t.val - 1 < cfg1.N := Nat.lt_of_le_of_lt (Nat.sub_le _ _) t.isLt
    have hdiv : (t.val - 1) / 12 = t.val / 12 := by omega
    obtain ⟨ih1, ih2, ih3⟩ := state_at c j ⟨t.val - 1, hlt⟩ (by show (t.val - 1) % 12 = j; omega) p
    dsimp only at ih1 ih2 ih3
    rw [hdiv] at ih1 ih2 ih3
    rw [scAt1_next V c t hne]
    unfold stepAt1 stepSc
    exact step_state _ (fun d c' => V c main_v1 (ix2 c' d)) (j + 1) _ _ _ _ p
      (fun q => by rw [maskedTile_at, ht]) (fun q d => by rw [colBlk_apply, ht]) ih1 ih2 ih3

/-- What the attention region leaves in its result array. -/
abbrev attnG (c : Dev nD) : S12288x128.Idx → EReal :=
  Spec.attnOf (V c main_arg0) (V c main_v1) (V c main_v3) (V c main_v5)

/-- Entry (p, d) of the result window's block at point t sits at row 1024 (t / 12) + p, column d of the array. -/
theorem outBlk_emb (t : Fin cfg1.N) (p : Fin 1024) (d : Fin 128) :
    ((cfg1.win 5).blk t).view.emb (ix2 p d) = ix2 (Spec.colOf (t.val / 12) p) d := by
  obtain ⟨-, -, -, -, -, -, -, -, -, -, e0, e1⟩ := index1_facts t
  have ht := lt_144 t
  funext a
  apply Fin.ext
  match a with
  | ⟨0, _⟩ => show win1_5.index t 0 * 1024 + 1 * p.val = (1024 * (t.val / 12) + p.val) % 12288; rw [e0]; omega
  | ⟨1, _⟩ => show win1_5.index t 1 * 128 + 1 * d.val = d.val; rw [e1]; omega

/-- WHAT A ROW TILE'S LAST POINT WRITES BACK is its block of the specification's result. -/
theorem flushed_eq (c : Dev nD) (dat : Pipeline.Dat τ (Elt Ideal) Unit ℕ (UR sig nD τ) ℕ cfg1 c)
    (hafter : ∀ t, dat.after 5 t = outOf (scAt1 V c t.val t.isLt)) (t : Fin cfg1.N) (hf : (cfg1.win 5).flush t = true) :
    dat.flushed 5 t = ((cfg1.win 5).blk t).view.read (Elt Ideal) (attnG V c) := by
  have h11 : t.val % 12 = 11 := (flush1_5 t).mp hf
  funext x
  obtain ⟨p, d, rfl⟩ : ∃ (p : Fin 1024) (d : Fin 128), x = ix2 p d := ⟨x 0, x 1, eq_ix2 x⟩
  show dat.after 5 t (ix2 p d) = _
  rw [hafter, View.read_apply, outBlk_emb]
  obtain ⟨-, h2, h3⟩ := state_at V c 11 t h11 p
  unfold outOf
  rw [result_apply, h2, h3 d]
  rfl

/-- An index of the result array lies in point t's block iff its coordinates lie in the block's ranges. -/
theorem mem_outBlk (t : Fin cfg1.N) (i : S12288x128.Idx) :
    i ∈ ((cfg1.win 5).blk t).view.set ↔ ∀ a : Fin 2, win1_5.index t a * S1024x128.size a ≤ (i a).val
      ∧ (i a).val < win1_5.index t a * S1024x128.size a + S1024x128.size a := by
  show i ∈ ((View.whole main_v6).slice (win1_5.rect t)).set ↔ _
  rw [View.set_slice_whole, Rect.mem_set_unit]
  exact Iff.rfl

/-- The twelve blocks written back cover the result array: row r lies in the block of row tile r / 1024. -/
theorem cover_out (i : S12288x128.Idx) :
    ∃ t : Fin cfg1.N, (cfg1.win 5).flush t = true ∧ i ∈ ((cfg1.win 5).blk t).view.set := by
  have hi0 : (i 0).val < 12288 := (i 0).isLt
  have hi1 : (i 1).val < 128 := (i 1).isLt
  have hlt : 12 * ((i 0).val / 1024) + 11 < cfg1.N := by
    rw [show cfg1.N = 144 from N_1]; omega
  refine ⟨⟨12 * ((i 0).val / 1024) + 11, hlt⟩, (flush1_5 _).mpr (by show (12 * ((i 0).val / 1024) + 11) % 12 = 11; omega), ?_⟩
  rw [mem_outBlk]
  obtain ⟨-, -, -, -, -, -, -, -, -, -, e0, e1⟩ := index1_facts ⟨12 * ((i 0).val / 1024) + 11, hlt⟩
  have e0' : win1_5.index ⟨12 * ((i 0).val / 1024) + 11, hlt⟩ (0 : Fin 2) = (i 0).val / 1024 := by
    rw [e0]; show (12 * ((i 0).val / 1024) + 11) / 12 = _; omega
  intro a
  match a with
  | ⟨0, _⟩ =>
    show win1_5.index _ (0 : Fin 2) * 1024 ≤ (i 0).val ∧ (i 0).val < win1_5.index _ (0 : Fin 2) * 1024 + 1024
    rw [e0']; omega
  | ⟨1, _⟩ =>
    show win1_5.index _ (1 : Fin 2) * 128 ≤ (i 1).val ∧ (i 1).val < win1_5.index _ (1 : Fin 2) * 128 + 128
    rw [e1]; omega

/-- THE ATTENTION REGION'S RESULT ARRAY after the run is the specification's. -/
theorem attn_arrAt (V : (c : Dev nD) → (b : Ref sig .tc) → Buf (Elt Ideal) ((c : Thread nD τ).loc b)) (c : Dev nD)
    (dat : Pipeline.Dat τ (Elt Ideal) Unit ℕ (UR sig nD τ) ℕ cfg1 c)
    (hA : ∀ w, dat.A w = V c (Pipeline.arrRef spec1 w))
    (hafter : ∀ t, dat.after 5 t = outOf (scAt1 V c t.val t.isLt)) :
    (dat.arrAt 5 cfg1.N : S12288x128.Idx → EReal) = Cert.Spec.attnOf (V c main_arg0) (V c main_v1) (V c main_v3) (V c main_v5) :=
  dat.arrAt_eq_of_cover 5 (attnG V c) (fun t hf => flushed_eq V c dat hafter t hf) cover_out

end Cert.KernelIdeal.Hand

end
-- ==== Proof.KI.Glue.lean ====
/-
  The arrays the two regions are handed, read at an index, and the attention region's result over the projection's.

  Before the projection region the bias vector is reshaped into a 1 × 128 row; before the attention region the two
  halves of the column φ are sliced out and reshaped into 1 × 128 rows. Read at an index each row is the vector's entry:
  the bias at d, φ at k, φ at 128 + k. With those three readings the attention region's result over the projection
  region's result is the tiled form of the layer's value: the projected features are the specification's, and so are
  the masked scores built from them.
-/
import proofs.«413493_j46600395162312_3_alg».proof.Proof.KI.SpecK
import proofs.«413493_j46600395162312_3_alg».proof.Proof.Gen.KernelIdeal
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-- The bias as a 1 × 128 row reads the bias vector's entry. -/
theorem biasRow_apply (a3 : FVec Ideal S128 .f32) (d : Fin 128) :
    shapeCast S1x128 a3 shapeCasts_S128_S1x128 (ix2 (0 : Fin 1) d) = a3 (ix1 d) :=
  shapeCast_apply a3 _ (ix2 (0 : Fin 1) d) (ix1 d) (by
    rw [Shape.rowMajor_val_one, Shape.rowMajor_val_two]
    show d.val = 0 * 128 + d.val
    omega)

/-- The first half of φ as a 1 × 128 row reads φ's entry k. -/
theorem phiRow0_apply (a4 : FVec Ideal S256x1 .f32) (k : Fin 128) :
    shapeCast S1x128 (extractStridedSlice S128x1 ![0, 0] a4 slices_S256x1_S128x1_0_0) shapeCasts_S128x1_S1x128 (ix2 (0 : Fin 1) k)
      = a4 (ix2 (⟨k.val, by omega⟩ : Fin 256) (0 : Fin 1)) := by
  refine (shapeCast_apply _ _ (ix2 (0 : Fin 1) k) (ix2 k (0 : Fin 1)) (by
    rw [Shape.rowMajor_val_two, Shape.rowMajor_val_two]
    show k.val * 1 + 0 = 0 * 128 + k.val
    omega)).trans ?_
  exact extractStridedSlice_apply _ a4 _ (ix2 k (0 : Fin 1)) _ fun a => by
    match a with
    | ⟨0, _⟩ => show k.val = 0 + k.val; omega
    | ⟨1, _⟩ => rfl

/-- The second half of φ as a 1 × 128 row reads φ's entry 128 + k. -/
theorem phiRow1_apply (a4 : FVec Ideal S256x1 .f32) (k : Fin 128) :
    shapeCast S1x128 (extractStridedSlice S128x1 ![128, 0] a4 slices_S256x1_S128x1_128_0) shapeCasts_S128x1_S1x128 (ix2 (0 : Fin 1) k)
      = a4 (ix2 (⟨128 + k.val, by omega⟩ : Fin 256) (0 : Fin 1)) := by
  refine (shapeCast_apply _ _ (ix2 (0 : Fin 1) k) (ix2 k (0 : Fin 1)) (by
    rw [Shape.rowMajor_val_two, Shape.rowMajor_val_two]
    show k.val * 1 + 0 = 0 * 128 + k.val
    omega)).trans ?_
  exact extractStridedSlice_apply _ a4 _ (ix2 k (0 : Fin 1)) _ fun a => by
    match a with
    | ⟨0, _⟩ => rfl
    | ⟨1, _⟩ => rfl

/-- THE ATTENTION REGION'S RESULT OVER THE PROJECTION'S is the layer's value in its tiled form, when the bias row and
    the two φ rows read the bias vector and the two halves of the column φ. -/
theorem attnOf_projOf (adj : Spec.SNN.Idx → BitVec 32) (x : Spec.SNI.Idx → EReal) (W : Spec.SOI.Idx → EReal)
    (b : Spec.SO.Idx → EReal) (phi : Spec.SP.Idx → EReal) (b2 p1 p2 : Spec.SB.Idx → EReal)
    (hb : ∀ d : Fin 128, b2 (ix2 (0 : Fin 1) d) = b (ix1 d))
    (hp1 : ∀ k : Fin 128, p1 (ix2 (0 : Fin 1) k) = phi (ix2 (⟨k.val, by omega⟩ : Fin 256) (0 : Fin 1)))
    (hp2 : ∀ k : Fin 128, p2 (ix2 (0 : Fin 1) k) = phi (ix2 (⟨128 + k.val, by omega⟩ : Fin 256) (0 : Fin 1))) :
    Spec.attnOf adj (Spec.projOf x W b2) p1 p2 = Spec.Gk adj x W b phi := by
  have hf : ∀ (r : Fin 12288) (d : Fin 128), Spec.projOf x W b2 (ix2 r d) = Spec.nf x W b r d := fun r d => by
    show (∑ k : Fin 256, x (ix2 r k) * W (ix2 d k)) + b2 (ix2 (0 : Fin 1) d) = _
    rw [hb]
    rfl
  have hm : ∀ r : Fin 12288, Spec.maskedArr adj (Spec.projOf x W b2) p1 p2 r = Spec.masked adj (Spec.nf x W b) phi r :=
    fun r => by
      funext c
      unfold Spec.maskedArr Spec.masked Spec.uu Spec.vv
      simp only [hf, hp1, hp2]
  funext i
  exact congrArg Spec.leaky (congrArg₂ Spec.attendTiled (hm (i 0)) (funext fun c => hf c (i 1)))

end Cert.KernelIdeal.Hand

end
-- ==== Proof.KI.Bridge.lean ====
/-
  The idealized kernel program's result as a function of its arguments.

  At the last boundary the result array holds what the attention region's write-backs fold to; read at the ideal
  values that is the tiled attention of the arrays the region was entered with (the adjacency as launched, the
  projected features the projection region left, the two halves of φ as rows), and the projected features are the
  projection of the inputs, the weights and the bias row. Put together: the result is `Gk` of the five argument arrays,
  the layer's value with each row's softmax computed tile by tile.
-/
import proofs.«413493_j46600395162312_3_alg».proof.Proof.KI.Walk
import proofs.«413493_j46600395162312_3_alg».proof.Proof.KI.Value0
import proofs.«413493_j46600395162312_3_alg».proof.Proof.KI.Value1b
import proofs.«413493_j46600395162312_3_alg».proof.Proof.KI.Glue

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The projected features the projection region leaves, from the launch contents. -/
theorem feat_eq (c : Dev nD) :
    ((dat0 (V1 m ρ) c).arrAt 3 cfg0.N : S12288x128.Idx → EReal)
      = Spec.projOf (m ((c : Thread nD τ).loc main_arg1)) (m ((c : Thread nD τ).loc main_arg2))
          (shapeCast S1x128 (m ((c : Thread nD τ).loc main_arg3)) shapeCasts_S128_S1x128) := by
  rw [proj_arrAt (V1 m ρ) c (dat0 (V1 m ρ) c) (A_eq0 (V1 m ρ) c) (after0_3 (V1 m ρ) c), V1_arg1, V1_arg2, V1_v0]

/-- The result array the attention region leaves, from the launch contents. -/
theorem result_eq (c : Dev nD) :
    ((dat1 (V3 m ρ) c).arrAt 5 cfg1.N : S12288x128.Idx → EReal)
      = Spec.Gk (m ((c : Thread nD τ).loc main_arg0)) (m ((c : Thread nD τ).loc main_arg1)) (m ((c : Thread nD τ).loc main_arg2))
          (m ((c : Thread nD τ).loc main_arg3)) (m ((c : Thread nD τ).loc main_arg4)) := by
  rw [attn_arrAt (V3 m ρ) c (dat1 (V3 m ρ) c) (A_eq1 (V3 m ρ) c) (after1_5 (V3 m ρ) c), V3_arg0, V3_v1, V3_v3, V3_v5, feat_eq]
  exact attnOf_projOf _ _ _ _ _ _ _ _ (biasRow_apply _) (phiRow0_apply _) (phiRow1_apply _)

/-- Every weakly fair execution of the idealized kernel program terminates, nothing faulting, with the result array at
    `Gk` of the arguments and each argument array as launched. -/
theorem value : θ_run defs (onTc (τ := τ) (main (F := Ideal))) ⟨m, fun _ => 0, ρ⟩ (fun r => ∀ c : Dev nD,
      r.2.mem ((c.tc : Thread nD τ).loc main_v6)
        = Spec.Gk (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans ((W4_out m ρ c).trans (result_eq m ρ c)),
     (h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

end Cert.KernelIdeal.Hand

end
-- ==== Proof.K.Step.lean ====
/-
  The attention kernel's work at one grid point as pure functions of the running state it keeps between points.

  The kernel visits the 12 × 12 tiles of the score matrix row tile by row tile; within a row tile `i` it walks the
  column tiles `j = 0 … 11` and keeps, for each of the tile's 1024 rows, the running maximum `m`, the running sum of
  exponentials `l` and the running weighted sum of the column tile's features `acc`. At `j = 0` the three are reset
  (to −∞, 0 and 0) before the step; at `j = 11` the result block is `acc · (1 / l)` passed through the leaky rectifier.
  Everything here is generic in the float instance; the arithmetic is the payload terms of the kernel's skeleton.
-/
import proofs.«413493_j46600395162312_3_alg».proof.Proof.Gen.Kernel.Skeleton

noncomputable section

namespace Cert.Kernel.Hand

open Idealize.ShloMosaic Cert.Kernel Cert.Kernel.Gen

variable {F : FTy → Type} [FloatOps F]

/-- The state carried between grid points: running maximum, running sum, running weighted sum. -/
abbrev Sc (F : FTy → Type) [FloatOps F] : Type := Vec F S1024x1 .f32 × Vec F S1024x1 .f32 × Vec F S1024x128 .f32

/-- The fill of a masked entry, as the kernel carries it. -/
def negC : F .f32 := Scalar.ofBits .f32 0xE0AD78EC#32

/-- The state a row tile starts from: maximum −∞, sums zero. -/
def initSc : Sc F := (k1_pay9 (F := F), k1_pay10 (F := F), k1_pay11 (F := F))

/-- One column tile taken in: from the adjacency tile, the row tile's and the column tile's projected features and the
    two halves of φ, the new maximum, the rescaled sum plus the tile's exponentials, the rescaled weighted sum plus the
    tile's weighted features. -/
def stepSc (i : grid1.Coords) (adj : Vec F S1024x1024 .i32) (row col : Vec F S1024x128 .f32) (p1 p2 : Vec F S1x128 .f32)
    (s : Sc F) : Sc F :=
  (k1_pay7 (k1_pay14 row col p1 p2) (k1_pay15 i adj) negC s.1,
   k1_pay5 (k1_pay14 row col p1 p2) (k1_pay15 i adj) negC s.1 s.2.1,
   k1_pay6 (k1_pay13 col) (k1_pay14 row col p1 p2) (k1_pay15 i adj) negC s.1 s.2.2)

/-- The result block of a row tile from its final state: the weighted sum times the reciprocal of the sum, rectified. -/
def outOf (s : Sc F) : Vec F S1024x128 .f32 := k1_pay8 s.2.2 s.2.1

end Cert.Kernel.Hand

end
-- ==== Proof.K.Blocks.lean ====
/-
  The blocks the two kernels read at each grid point, and the attention kernel's carried state point by point.

  With `V` the contents of the core's buffers when a region is entered, window `w`'s block at grid point `t` is the
  part of its array that the window's index map selects there. The projection kernel's grid has 8 points (row tiles
  of 1536 rows); the attention kernel's has 144 = 12 × 12 points, point `t` being row tile `t / 12` and column tile
  `t % 12`. `scAt1` is the running state after the body at each point: a step from the reset state at the first column
  tile of a row tile, a step from what the point before left otherwise.
-/
import proofs.«413493_j46600395162312_3_alg».proof.Proof.K.Step
import proofs.«413493_j46600395162312_3_alg».proof.Proof.Gen.Kernel.Launch
import proofs.«413493_j46600395162312_3_alg».proof.Proof.Gen.Kernel.Points

noncomputable section

namespace Cert.Kernel.Hand

open Idealize.ShloMosaic Idealize.ShloMosaic.TcCoe Idealize.SL.Sem Cert.Kernel Cert.Kernel.Gen

variable {F : FTy → Type} [FloatOps F]
variable (V : (c : Dev nD) → (b : Ref sig .tc) → Buf (Elt F) ((c : Thread nD τ).loc b))

/-- Window `w` of the projection kernel at point `t`: its block of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the attention kernel at point `t`: its block of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection kernel's three input blocks at a point, at their literal types: 1536 rows of the inputs, the whole
    weight matrix, the bias row. -/
abbrev xBlk (c : Dev nD) (t : Fin cfg0.N) : Vec F S1536x256 .f32 := iblk0 V c 0 t
abbrev wBlk (c : Dev nD) (t : Fin cfg0.N) : Vec F S128x256 .f32 := iblk0 V c 1 t
abbrev bBlk (c : Dev nD) (t : Fin cfg0.N) : Vec F S1x128 .f32 := iblk0 V c 2 t

/-- The attention kernel's five input blocks at a point, at their literal types: the adjacency tile, the row tile's
    and the column tile's projected features, the two halves of φ as rows. -/
abbrev adjBlk (c : Dev nD) (t : Fin cfg1.N) : Vec F S1024x1024 .i32 := iblk1 V c 0 t
abbrev rowBlk (c : Dev nD) (t : Fin cfg1.N) : Vec F S1024x128 .f32 := iblk1 V c 1 t
abbrev colBlk (c : Dev nD) (t : Fin cfg1.N) : Vec F S1024x128 .f32 := iblk1 V c 2 t
abbrev phi1Blk (c : Dev nD) (t : Fin cfg1.N) : Vec F S1x128 .f32 := iblk1 V c 3 t
abbrev phi2Blk (c : Dev nD) (t : Fin cfg1.N) : Vec F S1x128 .f32 := iblk1 V c 4 t

/-- The step the attention kernel's body makes at point `t` from a carried state. -/
def stepAt1 (c : Dev nD) (t : Fin cfg1.N) (s : Sc F) : Sc F :=
  stepSc (grid1.coords t) (adjBlk V c t) (rowBlk V c t) (colBlk V c t) (phi1Blk V c t) (phi2Blk V c t) s

/-- The carried state after the body at position `n`: a step from the reset state where a row tile begins
    (`n` a multiple of 12), a step from what position `n − 1` left otherwise. -/
def scAt1 (c : Dev nD) : (n : ℕ) → n < cfg1.N → Sc F
  | 0, hn => stepAt1 V c ⟨0, hn⟩ initSc
  | n + 1, hn => stepAt1 V c ⟨n + 1, hn⟩ (if (n + 1) % 12 = 0 then initSc else scAt1 c n (Nat.lt_of_succ_lt hn))

theorem scAt1_first (c : Dev nD) (t : Fin cfg1.N) (h : t.val % 12 = 0) :
    scAt1 V c t.val t.isLt = stepAt1 V c t initSc := by
  obtain ⟨n, hn⟩ := t
  cases n with
  | zero => rfl
  | succ n => simp only [scAt1]; rw [if_pos h]

theorem scAt1_next (c : Dev nD) (t : Fin cfg1.N) (h : ¬t.val % 12 = 0) :
    scAt1 V c t.val t.isLt = stepAt1 V c t (scAt1 V c (t.val - 1) (Nat.lt_of_le_of_lt (Nat.sub_le _ _) t.isLt)) := by
  obtain ⟨n, hn⟩ := t
  cases n with
  | zero => exact absurd (Nat.zero_mod _) h
  | succ n => simp only [scAt1]; rw [if_neg h]; rfl

end Cert.Kernel.Hand

end
-- ==== Proof.K.Region0.lean ====
/-
  The projection kernel's half of the program's frame: the proof data of its pipeline and its body's obligation.

  The kernel visits 8 row tiles of 1536 rows. At each it loads the tile of inputs, the whole weight matrix and the
  bias row, forms the tile of x · Wᵀ + b (both factors rounded to bf16, the products summed in f32), reads the output
  buffer once without using what it read, and stores the tile over the whole output block. So after the body at point
  t the three input buffers hold their blocks as fetched and the output buffer holds that tile. The weight matrix and
  the bias row are fetched at the first point only: their block index never moves, so the buffer still holds the
  block at every later point.
-/
import proofs.«413493_j46600395162312_3_alg».proof.Proof.K.Blocks
import Idealize.ShloMosaic.Lib.Pipeline.FrameBody
import Idealize.ShloMosaic.Lib.Pipeline.Value
import Idealize.ShloMosaic.Lib.Pipeline.Regions
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the one store take the whole buffer, from offset zero -/

abbrev xTileRect : Rect S1536x256 := Rect.unit (s := S1536x256) ![0, 0] S1536x256.size inb_S1536x256_S1536x256_0_0
abbrev weightRect : Rect S128x256 := Rect.unit (s := S128x256) ![0, 0] S128x256.size inb_S128x256_S128x256_0_0
abbrev biasRect : Rect S1x128 := Rect.unit (s := S1x128) ![0, 0] S1x128.size inb_S1x128_S1x128_0_0
abbrev projTileRect : Rect S1536x128 := Rect.unit (s := S1536x128) ![0, 0] S1536x128.size inb_S1536x128_S1536x128_0_0

/-- The offsets of all four are zero on both axes. -/
theorem offsets_zero2 : (![0, 0] : Fin 2 → ℕ) = fun _ => 0 := funext fun a => by fin_cases a <;> rfl

/-! ## What the body leaves in the output buffer -/

/-- The output buffer after the body, from the three input buffers' contents: the one store's payload over its
    rectangle, the payload taken of what the three loads read. -/
def projStored (x : Vec F S1536x256 .f32) (w : Vec F S128x256 .f32) (b : Vec F S1x128 .f32) : Vec F S1536x128 .f32 :=
  View.canon [⟨projTileRect, k0_pay1 (View.ld x xTileRect) (View.ld w weightRect) (View.ld b biasRect)⟩]

/-- The store's rectangle is the whole block, so it covers it. -/
theorem projStored_cover (p : Vec F S1536x128 .f32) (y : S1536x128.Idx) :
    ∃ pc ∈ ([⟨projTileRect, p⟩] : List (View.Piece (Elt F) S1536x128 .f32)), y ∈ pc.1.set :=
  ⟨_, List.mem_singleton_self _, View.mem_set_unit_zero offsets_zero2 inb_S1536x128_S1536x128_0_0 y⟩

/-- The stored tile is the payload of the three contents themselves: a load of the whole buffer reads it, a store over
    the whole buffer leaves its payload. -/
theorem projStored_eq (x : Vec F S1536x256 .f32) (w : Vec F S128x256 .f32) (b : Vec F S1x128 .f32) :
    projStored x w b = k0_pay1 x w b := by
  unfold projStored
  rw [View.canon_unit_zero offsets_zero2, View.ld_unit_zero offsets_zero2, View.ld_unit_zero offsets_zero2,
    View.ld_unit_zero offsets_zero2]

/-! ## The body's triple -/

set_option maxHeartbeats 1000000 in
/-- The body on whole staging memrefs — the three inputs' at contents x, w, b, the output's at anything — runs to the
    continuation holding the inputs' as they were and the output's at the stored tile. -/
theorem project_body_sound (c : Dev nD) (E : Set ℕ) (i : grid0.Coords)
    (arg1 : Memref sig .tc .vmem S1536x256 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S1536x128 .f32) (harg4 : arg4.IsWhole)
    (x : Vec F S1536x256 .f32) (w : Vec F S128x256 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projStored x w b)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projStored_cover _)

/-! ## The pipeline's proof data -/

/-- The proof data of the projection pipeline on core c: the arrays as the region finds them; after the body at point
    t each input's buffer at its block and the output's at the stored tile of the three blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projStored (xBlk V c t) (wBlk V c t) (bBlk V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

/-- Nothing is owed at any point. -/
theorem owed0 (c : Dev nD) (t : Fin (cfg0.N + 1)) : (dat0 V c).owed t = 0 := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3_stored (c : Dev nD) (t : Fin cfg0.N) :
    (dat0 V c).after 3 t = projStored (xBlk V c t) (wBlk V c t) (bBlk V c t) := by dsimp only [dat0]

/-- The output block after the body at point t: the projected tile of the three input blocks. -/
theorem after0_3 (c : Dev nD) (t : Fin cfg0.N) : (dat0 V c).after 3 t = k0_pay1 (xBlk V c t) (wBlk V c t) (bBlk V c t) := by
  rw [after0_3_stored, projStored_eq]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3_stored]
  iintro ⟨HΦ, Ho, ⟨%d0, H0⟩, ⟨%d1, H1⟩, ⟨%d2, H2⟩, ⟨%d3, H3⟩⟩
  iapply (project_body_sound c Set.univ _ _ _ _ _ _ _ _ _ (xBlk V c t) (wBlk V c t) (bBlk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The attention region's half of the frame: the proof data of the second pipeline and what its body does at a point.

  The attention kernel visits the 12 × 12 tiles of the score matrix, row tile by row tile. At a point it reads five
  staged blocks (the adjacency tile, the row tile's and the column tile's projected features, the two halves of φ),
  and keeps three buffers of its own between points: the running maximum, the running sum of exponentials and the
  running weighted sum. At the first column tile of a row tile it resets the three before the step; at the last
  column tile it divides the weighted sum by the sum, rectifies, and stores the result block, which the pipeline
  writes back there and nowhere else. So a point is in one of three cases by its column tile — first, middle,
  last —, and in each the body is run once against the kernel's skeleton: every store of the kernel overwrites a
  whole buffer, so what a buffer holds afterwards is the last payload stored into it, and a load that follows a
  store reads that payload. The carried buffers after the body at point `t` therefore hold `scAt1 V c t`,
  the result block at a last column tile is `outOf` of it, and the staged inputs are left as they were.
-/
import proofs.«413493_j46600395162312_3_alg».proof.Proof.K.Blocks
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, and where the result window is idle -/

/-- The condition of the reset (the first `scf.if`, inside the kernel's first part): the column coordinate is 0. -/
abbrev colFirst (i : grid1.Coords) : Prop :=
  (Scalar.cmpi .ne (Scalar.extui (Scalar.cmpi .eq (BitVec.ofNat 32 (i 1).val) 0#32)) 0#32) = 1#1

/-- It holds at the first column tile of each row tile. -/
theorem colFirst_iff : ∀ t : Fin cfg1.N, colFirst (grid1.coords t) ↔ t.val % 12 = 0 :=
  (by decide +kernel : ∀ t : Fin grid1.N, colFirst (grid1.coords t) ↔ t.val % 12 = 0)

/-- The condition of the result's store (the second `scf.if`): the column coordinate is 11. -/
abbrev colLast (i : grid1.Coords) : Prop := k1_cond2 i = 1#1

/-- It holds at the last column tile of each row tile. -/
theorem colLast_iff : ∀ t : Fin cfg1.N, colLast (grid1.coords t) ↔ t.val % 12 = 11 :=
  (by decide +kernel : ∀ t : Fin grid1.N, colLast (grid1.coords t) ↔ t.val % 12 = 11)

/-- The result window is idle off the last column tile, -/
theorem idleAt1_5 : ∀ t : Fin cfg1.N, ¬colLast (grid1.coords t) → cfg1.idle 5 (grid1.coords t) = true := by decide +kernel
/-- not written back there, -/
theorem noFlush1_5 : ∀ t : Fin cfg1.N, ¬colLast (grid1.coords t) → (cfg1.win 5).flush t = false := by decide +kernel
/-- and live at the last column tile. -/
theorem liveAt1_5 : ∀ t : Fin cfg1.N, colLast (grid1.coords t) → cfg1.idle 5 (grid1.coords t) = false := by decide +kernel

/-! ## The memrefs the body is called with -/

/-- Each window's current staging memref at point `t`, spelled as the pipeline passes it, and its wholeness. -/
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

/-- The three buffers the kernel carries between points: running maximum, running sum, running weighted sum. -/
abbrev scMax : Memref sig .tc .vmem S1024x1 .f32 := Memref.whole cc1_scratch0
abbrev scSum : Memref sig .tc .vmem S1024x1 .f32 := Memref.whole cc1_scratch1
abbrev scAcc : Memref sig .tc .vmem S1024x128 .f32 := Memref.whole cc1_scratch2

/-- A scoped buffer of the core that this region does not use (the projection region's staging buffers), whole at
    some contents. -/
abbrev idleBuf (c : Dev nD) (b : Ref sig .tc) : sProp 𝕄 :=
  iprop(∃ f : Buf (Elt F) ((c : Thread nD τ).loc b), ((c : Thread nD τ).loc b) ↦{fullShare} f)

/-- The region's invariant as the launch hands it over: the projection region's six staging buffers and the three
    carried buffers at some contents, beside the generator register. -/
theorem PhiA1_eq (c : Dev nD) :
    (Pipeline.ΦA spec1 c : sProp 𝕄)
      = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
          ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

/-! ## Whole-buffer loads and stores -/

/-- The zero offsets as the kernel prints them. -/
theorem zeros2 : (![0, 0] : Fin 2 → ℕ) = fun _ => 0 := by funext a; fin_cases a <;> rfl

/-- A load of a whole buffer held at the contents that read `X`, through the whole-shape rectangle, reads `X`. -/
theorem load_whole {s : Shape} {e : EltTy} (m : Memref sig .tc .vmem s e) (h : m.IsWhole) (X : s.Idx → Elt F e)
    {off : Fin s.rank → ℕ} (hz : off = fun _ => 0) (inb : ∀ a, off a + s.size a ≤ s.size a) :
    m.view.readAt (Elt F) (Rect.unit off s.size inb).toLoadRect (h.unread X) = X := by
  rw [View.readAt_eq_ld, h.read_unread]; exact View.ld_unit_zero hz inb X

/-- After a store of the whole buffer, whatever was stored before, the buffer reads the stored payload. -/
theorem read_store_whole {s : Shape} {e : EltTy} (m : Memref sig .tc .vmem s e) (f : m.view.ty.Contents (Elt F))
    {off : Fin s.rank → ℕ} (hz : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  rw [View.read_writes_eq_canon _ _ _ (fun y => ⟨_, List.mem_cons_self, View.mem_set_unit_zero hz inb y⟩),
    View.canon_cons_unit_zero hz inb]

/-! ## The body's run, case by case -/

set_option maxHeartbeats 4000000 in
/-- FIRST column tile of a row tile: the reset is taken, the result's store is not. Whatever the three carried
    buffers held, they end at the step from the reset state; the staged inputs and the idle result buffer are left as
    they were. -/
theorem run_first (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : colFirst i) (hc1 : ¬colLast i)
    (adj : Vec F S1024x1024 .i32) (row col : Vec F S1024x128 .f32) (p1 p2 : Vec F S1x128 .f32) (xo : Vec F S1024x128 .f32) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
            ∗ owns (c : Thread nD τ) arg8 fullShare (stepSc i adj row col p1 p2 initSc).1 ∗ owns (c : Thread nD τ) arg9 fullShare (stepSc i adj row col p1 p2 initSc).2.1 ∗ owns (c : Thread nD τ) arg10 fullShare (stepSc i adj row col p1 p2 initSc).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_store_whole arg8 _ zeros2]
    delta run_first.sl.r_1 run_first.sl.r_2 run_first.sl.cst_15 run_first.sl.v39 run_first.sl.H8_1
    rw [View.readCov_cons_toLoadRect, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    rw [read_store_whole arg9 _ zeros2]
    delta run_first.sl.r_1 run_first.sl.r_2 run_first.sl.cst_15 run_first.sl.v39 run_first.sl.v48 run_first.sl.H8_1 run_first.sl.H9_1
    rw [View.readCov_cons_toLoadRect, View.readCov_cons_toLoadRect, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    rw [read_store_whole arg10 _ zeros2]
    delta run_first.sl.r run_first.sl.r_1 run_first.sl.r_2 run_first.sl.cst_15 run_first.sl.v39 run_first.sl.v58 run_first.sl.H8_1 run_first.sl.H10_1
    rw [View.readCov_cons_toLoadRect, View.readCov_cons_toLoadRect, load_whole arg3 harg3 _ zeros2, load_whole arg4 harg4 _ zeros2, load_whole arg5 harg5 _ zeros2, load_whole arg6 harg6 _ zeros2, load_whole arg2 harg2 _ zeros2]
    rfl

set_option maxHeartbeats 4000000 in
/-- A MIDDLE column tile: neither conditional is taken. The carried buffers go from `s` to the step from `s`; the
    staged inputs and the idle result buffer are left as they were. -/
theorem run_middle (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬colFirst i) (hc1 : ¬colLast i)
    (adj : Vec F S1024x1024 .i32) (row col : Vec F S1024x128 .f32) (p1 p2 : Vec F S1x128 .f32) (xo : Vec F S1024x128 .f32) (s : Sc F) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
        ∗ owns (c : Thread nD τ) arg8 fullShare s.1 ∗ owns (c : Thread nD τ) arg9 fullShare s.2.1 ∗ owns (c : Thread nD τ) arg10 fullShare s.2.2
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare xo
            ∗ owns (c : Thread nD τ) arg8 fullShare (stepSc i adj row col p1 p2 s).1 ∗ owns (c : Thread nD τ) arg9 fullShare (stepSc i adj row col p1 p2 s).2.1 ∗ owns (c : Thread nD τ) arg10 fullShare (stepSc i adj row col p1 p2 s).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_store_whole arg8 _ zeros2]
    delta run_middle.sl.r_1 run_middle.sl.r_2 run_middle.sl.cst_15
    rw [load_whole arg8 harg8 _ zeros2, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    rw [read_store_whole arg9 _ zeros2]
    delta run_middle.sl.r_1 run_middle.sl.r_2 run_middle.sl.cst_15
    rw [load_whole arg8 harg8 _ zeros2, load_whole arg9 harg9 _ zeros2, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    rw [read_store_whole arg10 _ zeros2]
    delta run_middle.sl.r run_middle.sl.r_1 run_middle.sl.r_2 run_middle.sl.cst_15
    rw [load_whole arg8 harg8 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl

set_option maxHeartbeats 4000000 in
/-- LAST column tile: the reset is not taken, the result's store is. The carried buffers go from `s` to the step from
    `s`, and the result buffer, whatever it held, ends at the result block of that state. -/
theorem run_last (c : Dev nD) (i : grid1.Coords) (arg2 : Memref sig .tc .vmem S1024x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : ¬colFirst i) (hc1 : colLast i)
    (adj : Vec F S1024x1024 .i32) (row col : Vec F S1024x128 .f32) (p1 p2 : Vec F S1x128 .f32) (s : Sc F) (E : Set ℕ) (K : PUnit → sProp 𝕄) :
    iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg2 fullShare adj ∗ owns (c : Thread nD τ) arg3 fullShare row ∗ owns (c : Thread nD τ) arg4 fullShare col ∗ owns (c : Thread nD τ) arg5 fullShare p1 ∗ owns (c : Thread nD τ) arg6 fullShare p2 ∗ owns (c : Thread nD τ) arg7 fullShare (outOf (stepSc i adj row col p1 p2 s))
            ∗ owns (c : Thread nD τ) arg8 fullShare (stepSc i adj row col p1 p2 s).1 ∗ owns (c : Thread nD τ) arg9 fullShare (stepSc i adj row col p1 p2 s).2.1 ∗ owns (c : Thread nD τ) arg10 fullShare (stepSc i adj row col p1 p2 s).2.2) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hc0 | exact hc1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [read_store_whole arg7 _ zeros2]
    delta run_last.sl.v71 run_last.sl.v72
    delta run_last.sl.H10_1 run_last.sl.H9_1
    rw [View.readCov_cons_toLoadRect, View.readCov_cons_toLoadRect]
    delta run_last.sl.r run_last.sl.r_1 run_last.sl.r_2 run_last.sl.cst_15
    rw [load_whole arg8 harg8 _ zeros2, load_whole arg9 harg9 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl
  isplitl [H8]
  · iexists _; isplitr
    swap; · iexact H8
    ipureintro
    rw [read_store_whole arg8 _ zeros2]
    delta run_last.sl.r_1 run_last.sl.r_2 run_last.sl.cst_15
    rw [load_whole arg8 harg8 _ zeros2, load_whole arg3 harg3 _ zeros2, load_whole arg4 harg4 _ zeros2, load_whole arg5 harg5 _ zeros2, load_whole arg6 harg6 _ zeros2, load_whole arg2 harg2 _ zeros2]
    rfl
  isplitl [H9]
  · iexists _; isplitr
    swap; · iexact H9
    ipureintro
    delta run_last.sl.H9_1
    rw [read_store_whole arg9 _ zeros2]
    delta run_last.sl.r_1 run_last.sl.r_2 run_last.sl.cst_15
    rw [load_whole arg8 harg8 _ zeros2, load_whole arg9 harg9 _ zeros2, load_whole arg3 harg3 _ zeros2, load_whole arg4 harg4 _ zeros2, load_whole arg5 harg5 _ zeros2, load_whole arg6 harg6 _ zeros2, load_whole arg2 harg2 _ zeros2]
    rfl
  · iexists _; isplitr
    swap; · iexact H10
    ipureintro
    delta run_last.sl.H10_1
    rw [read_store_whole arg10 _ zeros2]
    delta run_last.sl.r run_last.sl.r_1 run_last.sl.r_2 run_last.sl.cst_15
    rw [load_whole arg8 harg8 _ zeros2, load_whole arg10 harg10 _ zeros2, load_whole arg3 harg3 _ zeros2, load_whole arg4 harg4 _ zeros2, load_whole arg5 harg5 _ zeros2, load_whole arg6 harg6 _ zeros2, load_whole arg2 harg2 _ zeros2]
    rfl

/-! ## The invariant between points -/

/-- The region's invariant before position `n`: before the first point what the launch hands over (every scoped
    buffer at some contents); afterwards the three carried buffers at what the point before left, the projection
    region's staging buffers at some contents, and the generator register at some state. -/
def PhiS1 (c : Dev nD) : (n : ℕ) → n ≤ cfg1.N → sProp 𝕄
  | 0, _ => Pipeline.ΦA spec1 c
  | n + 1, hn => iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c n hn).1 ∗ owns (c : Thread nD τ) scSum fullShare (scAt1 V c n hn).2.1 ∗ owns (c : Thread nD τ) scAcc fullShare (scAt1 V c n hn).2.2) ∗ (∃ r, prngReg c r))

theorem PhiS1_zero (c : Dev nD) (n : ℕ) (h : n ≤ cfg1.N) (hz : n = 0) : PhiS1 V c n h = Pipeline.ΦA spec1 c := by
  subst hz; rfl

/-- After point `n`: the carried buffers at that point's state. -/
theorem PhiS1_succ (c : Dev nD) (n : ℕ) (hn : n < cfg1.N) :
    PhiS1 V c (n + 1) hn = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c n hn).1 ∗ owns (c : Thread nD τ) scSum fullShare (scAt1 V c n hn).2.1 ∗ owns (c : Thread nD τ) scAcc fullShare (scAt1 V c n hn).2.2) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
      ∗ owns (c : Thread nD τ) scMax fullShare (scAt1 V c (n - 1) (by omega)).1 ∗ owns (c : Thread nD τ) scSum fullShare (scAt1 V c (n - 1) (by omega)).2.1 ∗ owns (c : Thread nD τ) scAcc fullShare (scAt1 V c (n - 1) (by omega)).2.2) ∗ (∃ r, prngReg c r)) := by
  cases n with
  | zero => exact absurd rfl hz
  | succ n => rfl

/-! ## The pipeline's proof data -/

/-- The proof data of the attention pipeline on core `c`: the arrays as the region finds them; after the body at
    point `t` each input's buffer at its block and the result's at the result block of the carried state; the
    invariant `PhiS1`; the projected features, which two windows read, held half and half; nothing owed. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outOf (scAt1 V c t.val t.isLt)
  Φ t := PhiS1 V c t.val (Nat.le_of_lt_succ t.isLt)
  q w := match w with
    | ⟨0, _⟩ => fullShare
    | ⟨1, _⟩ => PosShare.left fullShare
    | ⟨2, _⟩ => PosShare.right fullShare
    | ⟨3, _⟩ => fullShare
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outOf (scAt1 V c t.val t.isLt) := by dsimp only [dat1]

/-- The shares: the projected features split between the row-tile window and the column-tile window. -/
theorem q1_1 (c : Dev nD) : (dat1 V c).q 1 = PosShare.left fullShare := by dsimp only [dat1]
theorem q1_2 (c : Dev nD) : (dat1 V c).q 2 = PosShare.right fullShare := by dsimp only [dat1]
theorem q1_other (c : Dev nD) (w : Fin cfg1.W) (h1 : w ≠ 1) (h2 : w ≠ 2) : (dat1 V c).q w = fullShare := by
  fin_cases w <;> first | rfl | exact absurd rfl h1 | exact absurd rfl h2

/-- Nothing is owed at any point. -/
theorem owed1 (c : Dev nD) (t : Fin (cfg1.N + 1)) : (dat1 V c).owed t = 0 := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At any position the invariant gives what the launch handed over: the carried buffers' named contents forgotten. -/
theorem PhiS1_any (c : Dev nD) (n : ℕ) (h : n ≤ cfg1.N) :
    PhiS1 V c n h ⊢ iprop(iprop(idleBuf (F := F) c cc0_stg0_0 ∗ idleBuf (F := F) c cc0_stg0_1 ∗ idleBuf (F := F) c cc0_stg1_0 ∗ idleBuf (F := F) c cc0_stg2_0 ∗ idleBuf (F := F) c cc0_stg3_0 ∗ idleBuf (F := F) c cc0_stg3_1
          ∗ (∃ d, owns (c : Thread nD τ) scMax fullShare d) ∗ (∃ d, owns (c : Thread nD τ) scSum fullShare d) ∗ (∃ d, owns (c : Thread nD τ) scAcc fullShare d)) ∗ (∃ r, prngReg c r)) := by
  cases n with
  | zero => rw [PhiS1_zero V c 0 h rfl, PhiA1_eq]
  | succ n =>
    rw [PhiS1_succ]
    iintro ⟨⟨A0, A1, A2, A3, A4, A5, HS0, HS1, HS2⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [HS0]; · iexists _; iexact HS0
      isplitl [HS1]; · iexists _; iexact HS1
      iexists _; iexact HS2
    iexact Hg

set_option maxHeartbeats 4800000 in
/-- The body at any point: the inputs' buffers hold their blocks; the column tile says which case the point is in; the
    invariant hands the body the carried buffers at what the point before left (at anything where a row tile begins)
    and takes them back at this point's state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 144 := lt_of_lt_of_eq t.isLt (show cfg1.N = 144 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [PhiS1_castSucc V c t]
  by_cases h0 : t.val % 12 = 0
  · have h1 : ¬t.val % 12 = 11 := by omega
    have hc0 : colFirst (grid1.coords t) := (colFirst_iff t).mpr h0
    have hc1 : ¬colLast (grid1.coords t) := fun h => h1 ((colLast_iff t).mp h)
    rw [Dat.leavesExact_idle (dat1 V c) 5 t (idleAt1_5 t hc1) (noFlush1_5 t hc1)]
    rw [scAt1_first V c t h0]
    unfold stepAt1
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    icases HΦ' with ⟨⟨A0, A1, A2, A3, A4, A5, HS0, HS1, HS2⟩, Hg⟩
    iapply (run_first c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) ((dat1 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [A0 A1 A2 A3 A4 A5 HS0 HS1 HS2 Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬colFirst (grid1.coords t) := fun h => h0 ((colFirst_iff t).mp h)
    rw [PhiS1_pos V c _ _ hz, scAt1_next V c t h0]
    unfold stepAt1
    by_cases h1 : t.val % 12 = 11
    · have hc1 : colLast (grid1.coords t) := (colLast_iff t).mpr h1
      rw [show (dat1 V c).leavesExact 5 t = owns (c : Thread nD τ) (ms1_5 t) fullShare ((dat1 V c).after 5 t) from by
        unfold Dat.leavesExact; rw [liveAt1_5 t hc1], after1_5]
      rw [scAt1_next V c t h0]
      unfold stepAt1
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩, ⟨%d5, H5⟩⟩
      iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬colLast (grid1.coords t) := fun h => h1 ((colLast_iff t).mp h)
      rw [Dat.leavesExact_idle (dat1 V c) 5 t (idleAt1_5 t hc1) (noFlush1_5 t hc1)]
      iintro ⟨⟨⟨A0, A1, A2, A3, A4, A5, HS0, HS1, HS2⟩, Hg⟩, Ho, ⟨%d0, H0⟩, ⟨%d1, H1⟩, ⟨%d2, H2⟩, ⟨%d3, H3⟩, ⟨%d4, H4⟩, ⟨%d5, H5⟩⟩
      iapply (run_middle c (grid1.coords t) (ms1_0 t) (hs1_0 t) (ms1_1 t) (hs1_1 t) (ms1_2 t) (hs1_2 t) (ms1_3 t) (hs1_3 t) (ms1_4 t) (hs1_4 t) (ms1_5 t) (hs1_5 t) scMax (Memref.isWhole_whole _) scSum (Memref.isWhole_whole _) scAcc (Memref.isWhole_whole _) hc0 hc1 (adjBlk V c t) (rowBlk V c t) (colBlk V c t) (phi1Blk V c t) (phi2Blk V c t) ((dat1 V c).before 5 t d5) (scAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [A0 A1 A2 A3 A4 A5 HS0 HS1 HS2 Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : Pipeline.BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the carried buffers' named
    contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨A0, A1, A2, A3, A4, A5, HS0, HS1, HS2⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 144 := N_1; omega)

end Cert.Kernel.Hand

end
-- ==== Proof.K.Run.lean ====
/-
  The kernel program's run, from the launch to the return: @main is a stretch of host operations, the projection
  region, a second stretch of host operations, the attention region. The contents of the core's unscoped buffers at
  the four boundaries between them are a fold from the launch memory: a host stretch applies its operations; a region
  leaves every buffer as it found it except its one output array, which ends at what its write-backs fold to
  (`Dat.arrAt … N`). Each region is entered from "every unscoped buffer at the boundary's contents, the generator
  register at some state, nothing owed" and left in the same form at the next boundary's contents. The attention
  region's row window and column window read ONE array, the projected features: the region holds that buffer in two
  halves of the full share, one per window, and joins them again when it ends. Every weakly fair execution terminates
  and every final memory holds every unscoped buffer at the last boundary's contents — so each argument array as
  launched, and the result array at the attention region's folded write-backs. Generic in the float instance.
-/
import proofs.«413493_j46600395162312_3_alg».proof.Proof.K.Region0
import proofs.«413493_j46600395162312_3_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: the projected features' array at what the write-backs leave. -/
def W2 (c : Dev nD) : Valuation τ sig (Elt F) :=
  Function.update (W1 m ρ c) main_v1 ((dat0 (V1 m ρ) c).arrAt 3 cfg0.N)
abbrev V2 : (c : Dev nD) → (b : Ref sig .tc) → Buf (Elt F) ((c : Thread nD τ).loc b) := fun c b => W2 m ρ c b
/-- After the second host stretch: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave. -/
def W4 (c : Dev nD) : Valuation τ sig (Elt F) :=
  Function.update (W3 m ρ c) main_v6 ((dat1 (V3 m ρ) c).arrAt 5 cfg1.N)
abbrev V4 : (c : Dev nD) → (b : Ref sig .tc) → Buf (Elt F) ((c : Thread nD τ).loc b) := fun c b => W4 m ρ c b

theorem W2_out (c : Dev nD) : W2 m ρ c (Proc.devRef .tc main_v1) = (dat0 (V1 m ρ) c).arrAt 3 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v6) = (dat1 (V3 m ρ) c).arrAt 5 cfg1.N := by
  unfold W4; exact Function.update_self ..
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) ..

/-! ## The attention region's arrays: five buffers behind six windows -/

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg0) ↦{fullShare} Vc main_arg0) ∗ (((c : Thread nD τ).loc main_v1) ↦{fullShare} Vc main_v1)
          ∗ (((c : Thread nD τ).loc main_v3) ↦{fullShare} Vc main_v3) ∗ (((c : Thread nD τ).loc main_v5) ↦{fullShare} Vc main_v5)
          ∗ (((c : Thread nD τ).loc main_v6) ↦{fullShare} Vc main_v6)) := by
  unfold Pipeline.arrBufs
  exact bigSep_eq_bigSepL_of_eq [main_arg0, main_v1, main_v3, main_v5, main_v6] (by decide) (by decide) _

theorem share1_in (c : Dev nD) (dat : Dat τ (Elt F) Unit ℕ (UR sig nD τ) ℕ cfg1 c) (w : Fin cfg1.W) (h : (cfg1.win w).isOut = false) :
    dat.share w = dat.q w := by
  unfold Dat.share; rw [h]; rfl

theorem share1_out (c : Dev nD) (dat : Dat τ (Elt F) Unit ℕ (UR sig nD τ) ℕ cfg1 c) : dat.share 5 = fullShare := by
  unfold Dat.share; rfl

theorem arrays1_eq (c : Dev nD) (dat : Dat τ (Elt F) Unit ℕ (UR sig nD τ) ℕ cfg1 c)
    (Fa : (w : Fin cfg1.W) → Buf (Elt F) ((cfg1.win w).arr.view.loc (c.tc : Thread nD τ))) :
    (dat.arrays Fa : sProp 𝕄)
      = iprop((((c : Thread nD τ).loc main_arg0) ↦{dat.q 0} Fa 0) ∗ (((c : Thread nD τ).loc main_v1) ↦{dat.q 1} Fa 1)
          ∗ (((c : Thread nD τ).loc main_v1) ↦{dat.q 2} Fa 2) ∗ (((c : Thread nD τ).loc main_v3) ↦{dat.q 3} Fa 3)
          ∗ (((c : Thread nD τ).loc main_v5) ↦{dat.q 4} Fa 4) ∗ (((c : Thread nD τ).loc main_v6) ↦{fullShare} Fa 5)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ,
    share1_in c dat 0 rfl, share1_in c dat 1 rfl, share1_in c dat 2 rfl, share1_in c dat 3 rfl, share1_in c dat 4 rfl, share1_out c dat]

/-! ## The regions' arrays at their exits, and what no region changes -/

/-- At the projection region's exit each of its arrays holds what the pipeline leaves: the three inputs as entered, the
    projected features at the folded write-backs. -/
theorem hF0 (c : Dev nD) (w : Fin cfg0.W) : (dat0 (V1 m ρ) c).arrAt w cfg0.N = V2 m ρ c (Pipeline.arrRef spec0 w) := by
  match w with
  | ⟨0, _⟩ => exact ((dat0 (V1 m ρ) c).arrAt_in 0 rfl _).trans ((A_eq0 (V1 m ρ) c 0).trans (W2_of_ne m ρ c main_arg1 (by decide)).symm)
  | ⟨1, _⟩ => exact ((dat0 (V1 m ρ) c).arrAt_in 1 rfl _).trans ((A_eq0 (V1 m ρ) c 1).trans (W2_of_ne m ρ c main_arg2 (by decide)).symm)
  | ⟨2, _⟩ => exact ((dat0 (V1 m ρ) c).arrAt_in 2 rfl _).trans ((A_eq0 (V1 m ρ) c 2).trans (W2_of_ne m ρ c main_v0 (by decide)).symm)
  | ⟨3, _⟩ => exact (W2_out m ρ c).symm
/-- Every other buffer is as it was at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's entry and exit -/

theorem held_eq (c : Dev nD) (W : Valuation τ sig (Elt F)) :
    (StableHlo.held (c : Thread nD τ) (Pipeline.ucRefs τ sig) W : sProp 𝕄) = unscopedBufs c (fun b => W b) :=
  (Pipeline.unscopedBufs_held c W).symm

/-- ENTRY: the unscoped buffers at the entry contents are the region's arrays at those contents — the projected features'
    buffer divided between the row window and the column window — beside the buffers the region does not stage. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [held_eq, Pipeline.unscopedBufs_split₀ cfgs 1 winFacts₀1.arr_unscoped c (V3 m ρ c)]
  show iprop((Pipeline.arrBufs (Ix := Unit) (Name := ℕ) (U := UR sig nD τ) (Lvl := ℕ) spec1 c (V3 m ρ c) : sProp 𝕄)
      ∗ Pipeline.unscopedRest spec1 c (V3 m ρ c)) ⊢ _
  rw [arrBufs1_eq, arrays1_eq,
    q1_1, q1_2, q1_other (V3 m ρ) c 0 (by decide) (by decide), q1_other (V3 m ρ) c 3 (by decide) (by decide),
    q1_other (V3 m ρ) c 4 (by decide) (by decide)]
  rw [show (dat1 (V3 m ρ) c).arrAt 0 0 = V3 m ρ c main_arg0 from A_eq1 (V3 m ρ) c 0,
    show (dat1 (V3 m ρ) c).arrAt 1 0 = V3 m ρ c main_v1 from A_eq1 (V3 m ρ) c 1,
    show (dat1 (V3 m ρ) c).arrAt 2 0 = V3 m ρ c main_v1 from A_eq1 (V3 m ρ) c 2,
    show (dat1 (V3 m ρ) c).arrAt 3 0 = V3 m ρ c main_v3 from A_eq1 (V3 m ρ) c 3,
    show (dat1 (V3 m ρ) c).arrAt 4 0 = V3 m ρ c main_v5 from A_eq1 (V3 m ρ) c 4,
    show (dat1 (V3 m ρ) c).arrAt 5 0 = V3 m ρ c main_v6 from A_eq1 (V3 m ρ) c 5]
  iintro ⟨⟨H0, H1, H3, H5, H6⟩, Hrest⟩
  ihave H1' := (pointsTo_share (PosShare.mem_left_op_right fullShare)).1 $$ H1
  icases H1' with ⟨H1a, H1b⟩
  isplitr [Hrest]
  · isplitl [H0]; · iexact H0
    isplitl [H1a]; · iexact H1a
    isplitl [H1b]; · iexact H1b
    isplitl [H3]; · iexact H3
    isplitl [H5]; · iexact H5
    iexact H6
  iexact Hrest

/-- At the attention region's exit each of its arrays holds what the pipeline leaves: the five inputs as entered, the
    result at the folded write-backs. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_arg0 (by decide)).symm)
  | ⟨1, _⟩ => exact ((dat1 (V3 m ρ) c).arrAt_in 1 rfl _).trans ((A_eq1 (V3 m ρ) c 1).trans (W4_of_ne m ρ c main_v1 (by decide)).symm)
  | ⟨2, _⟩ => exact ((dat1 (V3 m ρ) c).arrAt_in 2 rfl _).trans ((A_eq1 (V3 m ρ) c 2).trans (W4_of_ne m ρ c main_v1 (by decide)).symm)
  | ⟨3, _⟩ => exact ((dat1 (V3 m ρ) c).arrAt_in 3 rfl _).trans ((A_eq1 (V3 m ρ) c 3).trans (W4_of_ne m ρ c main_v3 (by decide)).symm)
  | ⟨4, _⟩ => exact ((dat1 (V3 m ρ) c).arrAt_in 4 rfl _).trans ((A_eq1 (V3 m ρ) c 4).trans (W4_of_ne m ρ c main_v5 (by decide)).symm)
  | ⟨5, _⟩ => exact (W4_out m ρ c).symm

/-- The buffers the attention region does not stage hold at its exit what they held at its entry. -/
theorem rest1_eq (c : Dev nD) :
    (Pipeline.unscopedRest (Ix := Unit) (Name := ℕ) (U := UR sig nD τ) (Lvl := ℕ) spec1 c (V3 m ρ c) : sProp 𝕄)
      = Pipeline.unscopedRest spec1 c (V4 m ρ c) := by
  rw [unscopedRest1_eq, unscopedRest1_eq]
  rw [show V4 m ρ c main_arg1 = V3 m ρ c main_arg1 from W4_of_ne m ρ c main_arg1 (by decide),
    show V4 m ρ c main_arg2 = V3 m ρ c main_arg2 from W4_of_ne m ρ c main_arg2 (by decide),
    show V4 m ρ c main_arg3 = V3 m ρ c main_arg3 from W4_of_ne m ρ c main_arg3 (by decide),
    show V4 m ρ c main_arg4 = V3 m ρ c main_arg4 from W4_of_ne m ρ c main_arg4 (by decide),
    show V4 m ρ c main_v0 = V3 m ρ c main_v0 from W4_of_ne m ρ c main_v0 (by decide),
    show V4 m ρ c main_v2 = V3 m ρ c main_v2 from W4_of_ne m ρ c main_v2 (by decide),
    show V4 m ρ c main_v4 = V3 m ρ c main_v4 from W4_of_ne m ρ c main_v4 (by decide)]

/-- EXIT: the region's arrays at their final contents, the two halves of the projected features' buffer joined again,
    beside the buffers it did not stage, are the unscoped buffers at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [held_eq, Pipeline.unscopedBufs_split₀ cfgs 1 winFacts₀1.arr_unscoped c (V4 m ρ c)]
  show _ ⊢ iprop((Pipeline.arrBufs (Ix := Unit) (Name := ℕ) (U := UR sig nD τ) (Lvl := ℕ) spec1 c (V4 m ρ c) : sProp 𝕄)
      ∗ Pipeline.unscopedRest spec1 c (V4 m ρ c))
  rw [arrBufs1_eq, arrays1_eq,
    q1_1, q1_2, q1_other (V3 m ρ) c 0 (by decide) (by decide), q1_other (V3 m ρ) c 3 (by decide) (by decide),
    q1_other (V3 m ρ) c 4 (by decide) (by decide), rest1_eq]
  rw [show (dat1 (V3 m ρ) c).arrAt 0 cfg1.N = V4 m ρ c main_arg0 from hF1 m ρ c 0,
    show (dat1 (V3 m ρ) c).arrAt 1 cfg1.N = V4 m ρ c main_v1 from hF1 m ρ c 1,
    show (dat1 (V3 m ρ) c).arrAt 2 cfg1.N = V4 m ρ c main_v1 from hF1 m ρ c 2,
    show (dat1 (V3 m ρ) c).arrAt 3 cfg1.N = V4 m ρ c main_v3 from hF1 m ρ c 3,
    show (dat1 (V3 m ρ) c).arrAt 4 cfg1.N = V4 m ρ c main_v5 from hF1 m ρ c 4,
    show (dat1 (V3 m ρ) c).arrAt 5 cfg1.N = V4 m ρ c main_v6 from hF1 m ρ c 5]
  iintro ⟨⟨H0, H1a, H1b, H3, H5, H6⟩, Hrest⟩
  ihave H1 := (pointsTo_share (PosShare.mem_left_op_right fullShare)).2 $$ [H1a H1b]
  · isplitl [H1a]; · iexact H1a
    iexact H1b
  isplitr [Hrest]
  · isplitl [H0]; · iexact H0
    isplitl [H1]; · iexact H1
    isplitl [H3]; · iexact H3
    isplitl [H5]; · iexact H5
    iexact H6
  iexact Hrest

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro HΦ
    ihave H := (hout1 (V3 m ρ) c) $$ HΦ
    unfold Pipeline.ΦA
    icases H with ⟨Hr, Hp⟩
    isplitl [Hp]; · iexact Hp
    isplitr; · iempintro
    iexact Hr
  hexit c := by
    have hx : iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := exit1 m ρ c
    iintro ⟨Ha, HO, HY, Hrest⟩
    imodintro
    isplitl [Ha Hrest HY]
    · isplitl [Ha Hrest]
      · iapply hx; isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Walk.lean ====
/-
  The boundary contents of the kernel program's run read back to the launch memory.

  No host operation and no region writes an argument array, so each argument's buffer holds at the last boundary what
  it held at launch. The projection region is entered with the inputs and the weights as launched and the bias as a
  1 × 128 row (the first host stretch reshapes it); the attention region is entered with the adjacency as launched, the
  projected features as the projection region left them, and the two halves of φ as 1 × 128 rows (the second host
  stretch slices and reshapes them). Generic in the float instance.
-/
import proofs.«413493_j46600395162312_3_alg».proof.Proof.K.Run
import proofs.«413493_j46600395162312_3_alg».proof.Proof.Gen.Kernel.Regions
import Idealize.ShloMosaic.Lib.StableHlo.Run

set_option maxRecDepth 16384

noncomputable section

namespace Cert.Kernel.Hand

open Idealize.ShloMosaic Idealize.ShloMosaic.TcCoe Idealize.SL.Sem Idealize.ShloMosaic.StableHlo
open Cert.Kernel
open Cert.Kernel.Gen (hostOps0 hostOps1 hostOps0_W hostOps1_W hostOps0_writes hostOps1_writes
  shapeCasts_S128_S1x128 shapeCasts_S128x1_S1x128 slices_S256x1_S128x1_0_0 slices_S256x1_S128x1_128_0)

variable {F : FTy → Type} [FloatOps F]
variable (m : (ℓ : Loc nD τ sig) → Buf (Elt F) ℓ) (ρ : Dev nD → PrngReg)

/-- The first host stretch writes only the bias row. -/
theorem W1_keep (c : Dev nD) (r : Ref sig .tc) (h : r ∉ hostOps0_W) : W1 m ρ c r = W0 m ρ c r :=
  StableHlo.after_of_writes_sub hostOps0 _ hostOps0_writes h
/-- The second host stretch writes only the two halves of φ and their rows. -/
theorem W3_keep (c : Dev nD) (r : Ref sig .tc) (h : r ∉ hostOps1_W) : W3 m ρ c r = W2 m ρ c r :=
  StableHlo.after_of_writes_sub hostOps1 _ hostOps1_writes h

/-- A buffer that no host stretch writes and that is no region's output holds at the last boundary its launch contents. -/
theorem W4_launch (c : Dev nD) (r : Ref sig .tc) (h6 : r ≠ main_v6) (h1 : r ≠ main_v1) (hh1 : r ∉ hostOps1_W) (hh0 : r ∉ hostOps0_W) :
    W4 m ρ c r = m ((c : Thread nD τ).loc r) :=
  (W4_of_ne m ρ c r h6).trans ((W3_keep m ρ c r hh1).trans ((W2_of_ne m ρ c r h1).trans ((W1_keep m ρ c r hh0).trans rfl)))

theorem W4_arg0 (c : Dev nD) : W4 m ρ c main_arg0 = m ((c : Thread nD τ).loc main_arg0) := W4_launch m ρ c main_arg0 (by decide) (by decide) (by decide) (by decide)
theorem W4_arg1 (c : Dev nD) : W4 m ρ c main_arg1 = m ((c : Thread nD τ).loc main_arg1) := W4_launch m ρ c main_arg1 (by decide) (by decide) (by decide) (by decide)
theorem W4_arg2 (c : Dev nD) : W4 m ρ c main_arg2 = m ((c : Thread nD τ).loc main_arg2) := W4_launch m ρ c main_arg2 (by decide) (by decide) (by decide) (by decide)
theorem W4_arg3 (c : Dev nD) : W4 m ρ c main_arg3 = m ((c : Thread nD τ).loc main_arg3) := W4_launch m ρ c main_arg3 (by decide) (by decide) (by decide) (by decide)
theorem W4_arg4 (c : Dev nD) : W4 m ρ c main_arg4 = m ((c : Thread nD τ).loc main_arg4) := W4_launch m ρ c main_arg4 (by decide) (by decide) (by decide) (by decide)

/-! ## What the projection region is entered with -/

theorem V1_arg1 (c : Dev nD) : V1 m ρ c main_arg1 = m ((c : Thread nD τ).loc main_arg1) := (W1_keep m ρ c main_arg1 (by decide)).trans rfl
theorem V1_arg2 (c : Dev nD) : V1 m ρ c main_arg2 = m ((c : Thread nD τ).loc main_arg2) := (W1_keep m ρ c main_arg2 (by decide)).trans rfl
/-- The bias as a row. -/
theorem V1_v0 (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results
  rfl

/-! ## What the attention region is entered with -/

theorem V3_arg0 (c : Dev nD) : V3 m ρ c main_arg0 = m ((c : Thread nD τ).loc main_arg0) :=
  (W3_keep m ρ c main_arg0 (by decide)).trans ((W2_of_ne m ρ c main_arg0 (by decide)).trans ((W1_keep m ρ c main_arg0 (by decide)).trans rfl))
/-- The projected features, as the projection region left them. -/
theorem V3_v1 (c : Dev nD) : V3 m ρ c main_v1 = (dat0 (V1 m ρ) c).arrAt 3 cfg0.N :=
  (W3_keep m ρ c main_v1 (by decide)).trans (W2_out m ρ c)
theorem W2_arg4 (c : Dev nD) : W2 m ρ c main_arg4 = m ((c : Thread nD τ).loc main_arg4) :=
  (W2_of_ne m ρ c main_arg4 (by decide)).trans ((W1_keep m ρ c main_arg4 (by decide)).trans rfl)
/-- The first half of φ as a row. -/
theorem V3_v3 (c : Dev nD) :
    V3 m ρ c main_v3 = shapeCast S1x128 (extractStridedSlice S128x1 ![0, 0] (m ((c : Thread nD τ).loc main_arg4)) slices_S256x1_S128x1_0_0) shapeCasts_S128x1_S1x128 := by
  rw [← W2_arg4 m ρ c]
  show StableHlo.after hostOps1 (W2 m ρ c) (Proc.devRef .tc main_v3) = _
  after_results
  rfl
/-- The second half of φ as a row. -/
theorem V3_v5 (c : Dev nD) :
    V3 m ρ c main_v5 = shapeCast S1x128 (extractStridedSlice S128x1 ![128, 0] (m ((c : Thread nD τ).loc main_arg4)) slices_S256x1_S128x1_128_0) shapeCasts_S128x1_S1x128 := by
  rw [← W2_arg4 m ρ c]
  show StableHlo.after hostOps1 (W2 m ρ c) (Proc.devRef .tc main_v5) = _
  after_results
  rfl

/-! ## The frame -/

/-- Every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

end Cert.Kernel.Hand

end
-- ==== Proof.RefTerm.lean ====
/-
  The reference program is one graph-attention layer over a dense adjacency matrix of
  12288 nodes: node features x·Wᵀ + b (128 wide); a score for every ordered pair of nodes, the sum of
  a "source" projection of the row's node and a "destination" projection of the column's node, passed
  through a leaky rectifier of slope 0.01; every pair that is neither an edge nor on the diagonal
  replaced by −1e20; a softmax along each row (row maximum subtracted, exponential, division by the
  row sum); the attention-weighted mixture of the node features; the leaky rectifier again.

  This module writes that program's result as a pure term of the five argument arrays, stage by stage, each stage
  composed of exactly the operations @main applies, for any float instance.
-/
import proofs.«413493_j46600395162312_3_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments, stage by stage -/
/-- Node features (%4): the inputs times the transposed weight matrix, plus the bias along every row. -/
def feat (a1 : FVec F S12288x256 .f32) (a2 : FVec F S128x256 .f32) (a3 : FVec F S128 .f32) : FVec F S12288x128 .f32 :=
  addf (Host.dotGeneral dot_S12288x256_S256x128_S12288x128_1_0_0_1_n_n none a1 (transpose S256x128 [1, 0] a2 transposes_S128x256_S256x128_1_0))
    (broadcastInDim S12288x128 ![0, 1] bcast_S1x128_S12288x128_0_1 (broadcastInDim S1x128 ![1] bcast_S128_S1x128_1 a3))

/-- The source half of the pair score (%6): the features against the first 128 attention weights. -/
def srcScore (f : FVec F S12288x128 .f32) (a4 : FVec F S256x1 .f32) : FVec F S12288x1 .f32 :=
  Host.dotGeneral dot_S12288x128_S128x1_S12288x1_1_0_0_1_n_n none f (extractStridedSlice S128x1 ![0, 0] a4 slices_S256x1_S128x1_0_0)

/-- The destination half of the pair score (%8): the features against the last 128 attention weights. -/
def dstScore (f : FVec F S12288x128 .f32) (a4 : FVec F S256x1 .f32) : FVec F S12288x1 .f32 :=
  Host.dotGeneral dot_S12288x128_S128x1_S12288x1_1_0_0_1_n_n none f (extractStridedSlice S128x1 ![128, 0] a4 slices_S256x1_S128x1_128_0)

/-- The raw score of every ordered pair (%12): the row node's source half plus the column node's destination half. -/
def pairScore (h0 h1 : FVec F S12288x1 .f32) : FVec F S12288x12288 .f32 :=
  addf (broadcastInDim S12288x12288 ![0, 1] bcast_S12288x1_S12288x12288_0_1 h0)
    (broadcastInDim S12288x12288 ![0, 1] bcast_S1x12288_S12288x12288_0_1 (transpose S1x12288 [1, 0] h1 transposes_S12288x1_S1x12288_1_0))

/-- The leaky rectifier of slope 0.01 on the pair scores (%13): where z ≥ 0 it is z, elsewhere slope · z. -/
def leakyPair (z : FVec F S12288x12288 .f32) : FVec F S12288x12288 .f32 :=
  select (cmpf .oge z (broadcastInDim S12288x12288 ![] bcast_S_S12288x12288 (constant (F := F) S_ .f32 0x00000000#32))) z
    (mulf (broadcastInDim S12288x12288 ![] bcast_S_S12288x12288 (id (constant (F := F) S_ .f32 0x3C23D70A#32))) z)

/-- Which pairs keep their score (%23): the adjacency entry, as a float, plus one on the diagonal, is positive. -/
def edgeMask (a0 : IVec S12288x12288 32) : IVec S12288x12288 1 :=
  cmpf .ogt
    (addf (sitofp (F := F) .f32 a0)
      (uitofp (F := F) .f32 (cmpi .eq (addi (iotaInDim S12288x12288 32 0) (broadcastInDim S12288x12288 ![] bcast_S_S12288x12288 (constantI S_ 32 0#32)))
        (iotaInDim S12288x12288 32 1))))
    (broadcastInDim S12288x12288 ![] bcast_S_S12288x12288 (constant (F := F) S_ .f32 0x00000000#32))

/-- The masked scores (%24): a kept pair's score, and −1e20 at every other pair. -/
def maskedScore (k : IVec S12288x12288 1) (z : FVec F S12288x12288 .f32) : FVec F S12288x12288 .f32 :=
  select k z (broadcastInDim S12288x12288 ![] bcast_S_S12288x12288 (constant (F := F) S_ .f32 0xE0AD78EC#32))

/-- Each row's maximum (%27): −∞ against the maximum of the row folded from −∞. -/
def rowMax (s : FVec F S12288x12288 .f32) : FVec F S12288 .f32 :=
  maximumf (broadcastInDim S12288 ![] bcast_S_S12288 (constant (F := F) S_ .f32 0xFF800000#32))
    (Host.reduce FloatOps.maximumf s (constant (F := F) S_ .f32 0xFF800000#32) reducesTo_S12288x12288_S12288_d1 h_S_)

/-- The exponential of each score less its row's maximum (%31). -/
def expShift (s : FVec F S12288x12288 .f32) (mx : FVec F S12288 .f32) : FVec F S12288x12288 .f32 :=
  Host.exp (subf s (broadcastInDim S12288x12288 ![0, 1] bcast_S12288x1_S12288x12288_0_1 (broadcastInDim S12288x1 ![0] bcast_S12288_S12288x1_0 mx)))

/-- The attention weights (%35): each exponential divided by its row's sum. -/
def attn (e : FVec F S12288x12288 .f32) : FVec F S12288x12288 .f32 :=
  Host.divf e (broadcastInDim S12288x12288 ![0, 1] bcast_S12288x1_S12288x12288_0_1 (broadcastInDim S12288x1 ![0] bcast_S12288_S12288x1_0
    (Host.reduceAdd e (constant (F := F) S_ .f32 0x00000000#32) reducesTo_S12288x12288_S12288_d1 h_S_)))

/-- The attention-weighted mixture of the node features (%36). -/
def mix (p : FVec F S12288x12288 .f32) (f : FVec F S12288x128 .f32) : FVec F S12288x128 .f32 :=
  Host.dotGeneral dot_S12288x12288_S12288x128_S12288x128_1_0_0_1_n_n none p f

/-- The leaky rectifier of slope 0.01 on the mixture (%37). -/
def leakyOut (z : FVec F S12288x128 .f32) : FVec F S12288x128 .f32 :=
  select (cmpf .oge z (broadcastInDim S12288x128 ![] bcast_S_S12288x128 (constant (F := F) S_ .f32 0x00000000#32))) z
    (mulf (broadcastInDim S12288x128 ![] bcast_S_S12288x128 (id (constant (F := F) S_ .f32 0x3C23D70A#32))) z)

/-- The reference's result as a term of its five arguments: the stages composed in @main's order. -/
def out (a0 : IVec S12288x12288 32) (a1 : FVec F S12288x256 .f32) (a2 : FVec F S128x256 .f32) (a3 : FVec F S128 .f32)
    (a4 : FVec F S256x1 .f32) : FVec F S12288x128 .f32 :=
  let f := feat a1 a2 a3
  let s := maskedScore (edgeMask (F := F) a0) (leakyPair (pairScore (srcScore f a4) (dstScore f a4)))
  leakyOut (mix (attn (expShift s (rowMax s))) f)

end Cert.ReferenceIdeal.HandRun

end
-- ==== Proof.RefRun.lean ====
/-
  The reference program is one graph-attention layer over a dense adjacency matrix of
  12288 nodes: node features x·Wᵀ + b (128 wide); a score for every ordered pair of nodes, the sum of
  a "source" projection of the row's node and a "destination" projection of the column's node, passed
  through a leaky rectifier of slope 0.01; every pair that is neither an edge nor on the diagonal
  replaced by −1e20; a softmax along each row (row maximum subtracted, exponential, division by the
  row sum); the attention-weighted mixture of the node features; the leaky rectifier again.

  This module reads that program's run back against the result written as a pure term of the five
  argument arrays (the stages `feat` … `out` of the imported module). @main — with its three outlined
  functions unfolded at their call sites — is shown to be the straight line of its 59 host operations,
  and the run of a straight line gives: every weakly fair execution terminates with the result buffer
  at that term of the launch contents and the arguments unchanged.
-/
import proofs.«413493_j46600395162312_3_alg».proof.Proof.Gen.ReferenceIdeal
import proofs.«413493_j46600395162312_3_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main as a straight line -/

/-- @main's 59 operations in order, the three calls unfolded at their sites: the leaky rectifier on the pair scores is
    seven (the zero and its broadcast, the comparison, the slope converted to its own type and broadcast, the product,
    and the inner select, whose result is the call's), the masking select two (the fill's broadcast, the select), the
    leaky rectifier on the mixture seven again; around them @main's own forty-three. -/
abbrev ops : List (HloOp τ sig (Elt F)) :=
  [ unary main_arg2 main_v0 (transpose S256x128 [1, 0] · transposes_S128x256_S256x128_1_0),
    binary main_arg1 main_v0 main_v1 (fun l r => Host.dotGeneral dot_S12288x256_S256x128_S12288x128_1_0_0_1_n_n none l r),
    unary main_arg3 main_v2 (broadcastInDim S1x128 ![1] bcast_S128_S1x128_1),
    unary main_v2 main_v3 (broadcastInDim S12288x128 ![0, 1] bcast_S1x128_S12288x128_0_1),
    binary main_v1 main_v3 main_v4 addf,
    unary main_arg4 main_v5 (extractStridedSlice S128x1 ![0, 0] · slices_S256x1_S128x1_0_0),
    binary main_v4 main_v5 main_v6 (fun l r => Host.dotGeneral dot_S12288x128_S128x1_S12288x1_1_0_0_1_n_n none l r),
    unary main_arg4 main_v7 (extractStridedSlice S128x1 ![128, 0] · slices_S256x1_S128x1_128_0),
    binary main_v4 main_v7 main_v8 (fun l r => Host.dotGeneral dot_S12288x128_S128x1_S12288x1_1_0_0_1_n_n none l r),
    unary main_v8 main_v9 (transpose S1x12288 [1, 0] · transposes_S12288x1_S1x12288_1_0),
    unary main_v6 main_v10 (broadcastInDim S12288x12288 ![0, 1] bcast_S12288x1_S12288x12288_0_1),
    unary main_v9 main_v11 (broadcastInDim S12288x12288 ![0, 1] bcast_S1x12288_S12288x12288_0_1),
    binary main_v10 main_v11 main_v12 addf,
    nullary main_cst (constant S_ .f32 0x3C23D70A#32),
    TRef.nullary main_call0.cst (constant S_ .f32 0x00000000#32),
    TRef.unary main_call0.cst main_call0.v0 (broadcastInDim S12288x12288 ![] bcast_S_S12288x12288),
    TRef.binary (.of main_v12 : TRef sig ⟨S12288x12288, .f32⟩) main_call0.v0 main_call0.v1 (cmpf .oge),
    TRef.unary (.of main_cst : TRef sig ⟨S_, .f32⟩) main_call0.v2 id,
    TRef.unary main_call0.v2 main_call0.v3 (broadcastInDim S12288x12288 ![] bcast_S_S12288x12288),
    TRef.binary main_call0.v3 (.of main_v12 : TRef sig ⟨S12288x12288, .f32⟩) main_call0.v4 mulf,
    TRef.ternary main_call0.v1 (.of main_v12 : TRef sig ⟨S12288x12288, .f32⟩) main_call0.v4 main_call0.call0.v0 select,
    unary main_arg0 main_v14 (sitofp .f32),
    nullary main_v15 (iotaInDim S12288x12288 32 0),
    nullary main_v16 (iotaInDim S12288x12288 32 1),
    nullary main_c (constantI S_ 32 0#32),
    unary main_c main_v17 (broadcastInDim S12288x12288 ![] bcast_S_S12288x12288),
    binary main_v15 main_v17 main_v18 addi,
    binary main_v18 main_v16 main_v19 (cmpi .eq),
    unary main_v19 main_v20 (uitofp .f32),
    binary main_v14 main_v20 main_v21 addf,
    nullary main_cst_0 (constant S_ .f32 0x00000000#32),
    unary main_cst_0 main_v22 (broadcastInDim S12288x12288 ![] bcast_S_S12288x12288),
    binary main_v21 main_v22 main_v23 (cmpf .ogt),
    nullary main_cst_1 (constant S_ .f32 0xE0AD78EC#32),
    TRef.unary (.of main_cst_1 : TRef sig ⟨S_, .f32⟩) main_call1.v0 (broadcastInDim S12288x12288 ![] bcast_S_S12288x12288),
    TRef.ternary (.of main_v23 : TRef sig ⟨S12288x12288, .i1⟩) (.of main_v13 : TRef sig ⟨S12288x12288, .f32⟩) main_call1.v0 main_call1.v1 select,
    nullary main_cst_2 (constant S_ .f32 0xFF800000#32),
    binary main_v24 main_cst_2 main_v25 (fun x v => Host.reduce FloatOps.maximumf x v reducesTo_S12288x12288_S12288_d1 h_S_),
    nullary main_cst_3 (constant S_ .f32 0xFF800000#32),
    unary main_cst_3 main_v26 (broadcastInDim S12288 ![] bcast_S_S12288),
    binary main_v26 main_v25 main_v27 maximumf,
    unary main_v27 main_v28 (broadcastInDim S12288x1 ![0] bcast_S12288_S12288x1_0),
    unary main_v28 main_v29 (broadcastInDim S12288x12288 ![0, 1] bcast_S12288x1_S12288x12288_0_1),
    binary main_v24 main_v29 main_v30 subf,
    unary main_v30 main_v31 Host.exp,
    nullary main_cst_4 (constant S_ .f32 0x00000000#32),
    binary main_v31 main_cst_4 main_v32 (fun x v => Host.reduceAdd x v reducesTo_S12288x12288_S12288_d1 h_S_),
    unary main_v32 main_v33 (broadcastInDim S12288x1 ![0] bcast_S12288_S12288x1_0),
    unary main_v33 main_v34 (broadcastInDim S12288x12288 ![0, 1] bcast_S12288x1_S12288x12288_0_1),
    binary main_v31 main_v34 main_v35 Host.divf,
    binary main_v35 main_v4 main_v36 (fun l r => Host.dotGeneral dot_S12288x12288_S12288x128_S12288x128_1_0_0_1_n_n none l r),
    nullary main_cst_5 (constant S_ .f32 0x3C23D70A#32),
    TRef.nullary main_call2.cst (constant S_ .f32 0x00000000#32),
    TRef.unary main_call2.cst main_call2.v0 (broadcastInDim S12288x128 ![] bcast_S_S12288x128),
    TRef.binary (.of main_v36 : TRef sig ⟨S12288x128, .f32⟩) main_call2.v0 main_call2.v1 (cmpf .oge),
    TRef.unary (.of main_cst_5 : TRef sig ⟨S_, .f32⟩) main_call2.v2 id,
    TRef.unary main_call2.v2 main_call2.v3 (broadcastInDim S12288x128 ![] bcast_S_S12288x128),
    TRef.binary main_call2.v3 (.of main_v36 : TRef sig ⟨S12288x128, .f32⟩) main_call2.v4 mulf,
    TRef.ternary main_call2.v1 (.of main_v36 : TRef sig ⟨S12288x128, .f32⟩) main_call2.v4 main_call2.call0.v0 select ]

-- fifty-nine binds re-associated: the rewrite under the chain recurses once per statement
set_option maxRecDepth 4096 in
/-- @main is that straight line: with the outlined functions' bodies unfolded at their calls, both sides are one
    chain of host steps once sequencing is re-associated. -/
theorem main_eq (c : Dev nD) : main (F := F) c = seq ops := by
  simp only [main, fn_leaky_relu.body, fn_where.body, fn_where_0.body, fn_leaky_relu_1.body, fn_where_2.body, seq,
    bind_assoc, pure_bind]
  rfl

/-- No buffer of this signature is scoped, and it has no semaphore: the program launches no kernel. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., nullary_bufs_sub .., nullary_bufs_sub ..,
    nullary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub ..⟩

/-- The straight line's run: each TensorCore buffer ends at the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer and at the arguments -/

set_option maxRecDepth 8192 in
/-- The fold at the result buffer is `out` of the arguments' contents: each operation's result at its own buffer is its
    function's value and at any other buffer what was there, and the typed references' transports are the identity at
    these literal references, so the composed term is the stages' composition by computation. -/
theorem out_eq (V : Valuation τ sig (Elt F)) :
    after ops V (main_v37 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

/-- No operation of the line writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-! ## The run -/

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v37).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_ops m ρ)

end Cert.ReferenceIdeal.HandRun

end
-- ==== Proof.RefValue.lean ====
/-
  The reference program's result, read on the extended reals, is the specification function `G`.

  Every stage of the reference (the projected features, the two halves of the pair score, the leaky rectifier, the
  adjacency-or-diagonal mask, the row maximum, the shifted exponentials, the row normalisation, the attention-weighted
  mixture and the final leaky rectifier) is read at explicit coordinates: a matrix product becomes a finite sum over
  the contracted coordinate, a broadcast, transpose or slice becomes its operand at one index, a reduction along a row
  becomes a sum or a fold of `max` over the row's columns. Composed in the program's order the reads give, index by
  index, the row softmax written directly in `Cert.Spec.G`.
-/
import proofs.«413493_j46600395162312_3_alg».proof.Proof.RefTerm
import proofs.«413493_j46600395162312_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem
open scoped BigOperators

/-! ## Broadcasts of rank at most two, read at coordinates -/

section Broadcasts
variable {α : Type}

/-- A scalar broadcast to any shape reads the scalar everywhere. -/
theorem bcastScalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- A column `[m, 1]` broadcast along the rows of `[m, n]` reads, at `(r, c)`, the column at `r`. -/
theorem bcastCol_apply {m n : ℕ} (h : (⟨2, ![m, 1]⟩ : Shape).BroadcastsInDim ⟨2, ![m, n]⟩ (![0, 1] : Fin 2 → Fin 2))
    (x : (⟨2, ![m, 1]⟩ : Shape).Idx → α) (r : Fin m) (c : Fin n) :
    broadcastInDim ⟨2, ![m, n]⟩ ![0, 1] h x (ix2 r c) = x (ix2 r (0 : Fin 1)) := by
  refine broadcastInDim_apply _ h x (ix2 r c) (ix2 r (0 : Fin 1)) fun a => ?_
  match a with
  | ⟨0, _⟩ =>
    show r.val = if m = 1 then 0 else r.val
    split
    · have := r.isLt; omega
    · rfl
  | ⟨1, _⟩ => rfl

/-- A row `[1, n]` broadcast down the columns of `[m, n]` reads, at `(r, c)`, the row at `c`. -/
theorem bcastRow_apply {m n : ℕ} (h : (⟨2, ![1, n]⟩ : Shape).BroadcastsInDim ⟨2, ![m, n]⟩ (![0, 1] : Fin 2 → Fin 2))
    (x : (⟨2, ![1, n]⟩ : Shape).Idx → α) (r : Fin m) (c : Fin n) :
    broadcastInDim ⟨2, ![m, n]⟩ ![0, 1] h x (ix2 r c) = x (ix2 (0 : Fin 1) c) := by
  refine broadcastInDim_apply _ h x (ix2 r c) (ix2 (0 : Fin 1) c) fun a => ?_
  match a with
  | ⟨0, _⟩ => rfl
  | ⟨1, _⟩ =>
    show c.val = if n = 1 then 0 else c.val
    split
    · have := c.isLt; omega
    · rfl

/-- A vector `[n]` laid out as the one row of `[1, n]`. -/
theorem bcastVecRow_apply {n : ℕ} (h : (⟨1, ![n]⟩ : Shape).BroadcastsInDim ⟨2, ![1, n]⟩ (![1] : Fin 1 → Fin 2))
    (x : (⟨1, ![n]⟩ : Shape).Idx → α) (c : Fin n) :
    broadcastInDim ⟨2, ![1, n]⟩ ![1] h x (ix2 (0 : Fin 1) c) = x (ix1 c) := by
  refine broadcastInDim_apply _ h x (ix2 (0 : Fin 1) c) (ix1 c) fun a => ?_
  match a with
  | ⟨0, _⟩ =>
    show c.val = if n = 1 then 0 else c.val
    split
    · have := c.isLt; omega
    · rfl

/-- A vector `[m]` laid out as the one column of `[m, 1]`. -/
theorem bcastVecCol_apply {m : ℕ} (h : (⟨1, ![m]⟩ : Shape).BroadcastsInDim ⟨2, ![m, 1]⟩ (![0] : Fin 1 → Fin 2))
    (x : (⟨1, ![m]⟩ : Shape).Idx → α) (r : Fin m) :
    broadcastInDim ⟨2, ![m, 1]⟩ ![0] h x (ix2 r (0 : Fin 1)) = x (ix1 r) := by
  refine broadcastInDim_apply _ h x (ix2 r (0 : Fin 1)) (ix1 r) fun a => ?_
  match a with
  | ⟨0, _⟩ =>
    show r.val = if m = 1 then 0 else r.val
    split
    · have := r.isLt; omega
    · rfl

end Broadcasts

/-! ## The three matrix products, read at coordinates

Each product contracts the left operand's columns against the right operand's rows: at `(r, c)` it is the sum over the
contracted coordinate `k` of left `(r, k)` times right `(k, c)`. For each product the four coordinates of the two operand
indices are read off the dimension numbers first, one lemma per axis. -/

section Products

/-- The features' product: inputs `[12288, 256]` against the transposed weights `[256, 128]`. -/
abbrev dotFeat : DotDims S12288x256 S256x128 S12288x128 := dot_S12288x256_S256x128_S12288x128_1_0_0_1_n_n

theorem dotFeat_lhs0 (i : S12288x128.Idx) (q : dotFeat.contr.Idx) : (dotFeat.lhsIdx i q 0).val = (i 0).val := by
  unfold DotDims.lhsIdx
  rw [dif_neg (show ¬(0 : Fin S12288x256.rank) ∈ dotFeat.lhsBatch by decide),
    dif_pos (show (0 : Fin S12288x256.rank) ∈ dotFeat.lhsNonContracting by decide)]
  rfl
theorem dotFeat_lhs1 (i : S12288x128.Idx) (q : dotFeat.contr.Idx) : (dotFeat.lhsIdx i q 1).val = (q ⟨0, by decide⟩).val :=
  dotFeat.lhsIdx_val_of_single rfl i q
theorem dotFeat_rhs0 (i : S12288x128.Idx) (q : dotFeat.contr.Idx) : (dotFeat.rhsIdx i q 0).val = (q ⟨0, by decide⟩).val :=
  dotFeat.rhsIdx_val_of_single rfl i q
theorem dotFeat_rhs1 (i : S12288x128.Idx) (q : dotFeat.contr.Idx) : (dotFeat.rhsIdx i q 1).val = (i 1).val := by
  unfold DotDims.rhsIdx
  rw [dif_neg (show ¬(1 : Fin S256x128.rank) ∈ dotFeat.rhsBatch by decide),
    dif_pos (show (1 : Fin S256x128.rank) ∈ dotFeat.rhsNonContracting by decide)]
  rfl

/-- The features' product at `(r, c)`: the sum over the 256 input features. -/
theorem dotFeat_apply (x : FVec Ideal S12288x256 .f32) (y : FVec Ideal S256x128 .f32) (r : Fin 12288) (c : Fin 128) :
    Host.dotGeneral (F := Ideal) dotFeat none x y (ix2 r c) = ∑ k : Fin 256, x (ix2 r k) * y (ix2 k c) := by
  show FloatOps.dotGeneral dotFeat none .single x y (ix2 r c) = _
  rw [Ideal.dotGeneral_apply, ← Equiv.sum_comp (contrEquiv1 dotFeat 256 rfl rfl).symm]
  refine Finset.sum_congr rfl fun k _ => ?_
  have hk := contrEquiv1_symm_val dotFeat 256 rfl rfl k
  have el : dotFeat.lhsIdx (ix2 r c) ((contrEquiv1 dotFeat 256 rfl rfl).symm k) = ix2 r k := funext fun a => Fin.ext (by
    match a with
    | ⟨0, _⟩ => exact dotFeat_lhs0 _ _
    | ⟨1, _⟩ => exact (dotFeat_lhs1 _ _).trans hk)
  have er : dotFeat.rhsIdx (ix2 r c) ((contrEquiv1 dotFeat 256 rfl rfl).symm k) = ix2 k c := funext fun a => Fin.ext (by
    match a with
    | ⟨0, _⟩ => exact (dotFeat_rhs0 _ _).trans hk
    | ⟨1, _⟩ => exact dotFeat_rhs1 _ _)
  rw [el, er]

/-- A score half's product: the features `[12288, 128]` against one half `[128, 1]` of the attention weights. -/
abbrev dotScore : DotDims S12288x128 S128x1 S12288x1 := dot_S12288x128_S128x1_S12288x1_1_0_0_1_n_n

theorem dotScore_lhs0 (i : S12288x1.Idx) (q : dotScore.contr.Idx) : (dotScore.lhsIdx i q 0).val = (i 0).val := by
  unfold DotDims.lhsIdx
  rw [dif_neg (show ¬(0 : Fin S12288x128.rank) ∈ dotScore.lhsBatch by decide),
    dif_pos (show (0 : Fin S12288x128.rank) ∈ dotScore.lhsNonContracting by decide)]
  rfl
theorem dotScore_lhs1 (i : S12288x1.Idx) (q : dotScore.contr.Idx) : (dotScore.lhsIdx i q 1).val = (q ⟨0, by decide⟩).val :=
  dotScore.lhsIdx_val_of_single rfl i q
theorem dotScore_rhs0 (i : S12288x1.Idx) (q : dotScore.contr.Idx) : (dotScore.rhsIdx i q 0).val = (q ⟨0, by decide⟩).val :=
  dotScore.rhsIdx_val_of_single rfl i q
theorem dotScore_rhs1 (i : S12288x1.Idx) (q : dotScore.contr.Idx) : (dotScore.rhsIdx i q 1).val = (i 1).val := by
  unfold DotDims.rhsIdx
  rw [dif_neg (show ¬(1 : Fin S128x1.rank) ∈ dotScore.rhsBatch by decide),
    dif_pos (show (1 : Fin S128x1.rank) ∈ dotScore.rhsNonContracting by decide)]
  rfl

/-- A score half at `(r, 0)`: the sum over the 128 features. -/
theorem dotScore_apply (x : FVec Ideal S12288x128 .f32) (y : FVec Ideal S128x1 .f32) (r : Fin 12288) (c : Fin 1) :
    Host.dotGeneral (F := Ideal) dotScore none x y (ix2 r c) = ∑ k : Fin 128, x (ix2 r k) * y (ix2 k c) := by
  show FloatOps.dotGeneral dotScore none .single x y (ix2 r c) = _
  rw [Ideal.dotGeneral_apply, ← Equiv.sum_comp (contrEquiv1 dotScore 128 rfl rfl).symm]
  refine Finset.sum_congr rfl fun k _ => ?_
  have hk := contrEquiv1_symm_val dotScore 128 rfl rfl k
  have el : dotScore.lhsIdx (ix2 r c) ((contrEquiv1 dotScore 128 rfl rfl).symm k) = ix2 r k := funext fun a => Fin.ext (by
    match a with
    | ⟨0, _⟩ => exact dotScore_lhs0 _ _
    | ⟨1, _⟩ => exact (dotScore_lhs1 _ _).trans hk)
  have er : dotScore.rhsIdx (ix2 r c) ((contrEquiv1 dotScore 128 rfl rfl).symm k) = ix2 k c := funext fun a => Fin.ext (by
    match a with
    | ⟨0, _⟩ => exact (dotScore_rhs0 _ _).trans hk
    | ⟨1, _⟩ => exact dotScore_rhs1 _ _)
  rw [el, er]

/-- The mixture's product: the attention weights `[12288, 12288]` against the features `[12288, 128]`. -/
abbrev dotMix : DotDims S12288x12288 S12288x128 S12288x128 := dot_S12288x12288_S12288x128_S12288x128_1_0_0_1_n_n

theorem dotMix_lhs0 (i : S12288x128.Idx) (q : dotMix.contr.Idx) : (dotMix.lhsIdx i q 0).val = (i 0).val := by
  unfold DotDims.lhsIdx
  rw [dif_neg (show ¬(0 : Fin S12288x12288.rank) ∈ dotMix.lhsBatch by decide),
    dif_pos (show (0 : Fin S12288x12288.rank) ∈ dotMix.lhsNonContracting by decide)]
  rfl
theorem dotMix_lhs1 (i : S12288x128.Idx) (q : dotMix.contr.Idx) : (dotMix.lhsIdx i q 1).val = (q ⟨0, by decide⟩).val :=
  dotMix.lhsIdx_val_of_single rfl i q
theorem dotMix_rhs0 (i : S12288x128.Idx) (q : dotMix.contr.Idx) : (dotMix.rhsIdx i q 0).val = (q ⟨0, by decide⟩).val :=
  dotMix.rhsIdx_val_of_single rfl i q
theorem dotMix_rhs1 (i : S12288x128.Idx) (q : dotMix.contr.Idx) : (dotMix.rhsIdx i q 1).val = (i 1).val := by
  unfold DotDims.rhsIdx
  rw [dif_neg (show ¬(1 : Fin S12288x128.rank) ∈ dotMix.rhsBatch by decide),
    dif_pos (show (1 : Fin S12288x128.rank) ∈ dotMix.rhsNonContracting by decide)]
  rfl

/-- The mixture at `(r, c)`: the sum over the 12288 column nodes. -/
theorem dotMix_apply (x : FVec Ideal S12288x12288 .f32) (y : FVec Ideal S12288x128 .f32) (r : Fin 12288) (c : Fin 128) :
    Host.dotGeneral (F := Ideal) dotMix none x y (ix2 r c) = ∑ k : Fin 12288, x (ix2 r k) * y (ix2 k c) := by
  show FloatOps.dotGeneral dotMix none .single x y (ix2 r c) = _
  rw [Ideal.dotGeneral_apply, ← Equiv.sum_comp (contrEquiv1 dotMix 12288 rfl rfl).symm]
  refine Finset.sum_congr rfl fun k _ => ?_
  have hk := contrEquiv1_symm_val dotMix 12288 rfl rfl k
  have el : dotMix.lhsIdx (ix2 r c) ((contrEquiv1 dotMix 12288 rfl rfl).symm k) = ix2 r k := funext fun a => Fin.ext (by
    match a with
    | ⟨0, _⟩ => exact dotMix_lhs0 _ _
    | ⟨1, _⟩ => exact (dotMix_lhs1 _ _).trans hk)
  have er : dotMix.rhsIdx (ix2 r c) ((contrEquiv1 dotMix 12288 rfl rfl).symm k) = ix2 k c := funext fun a => Fin.ext (by
    match a with
    | ⟨0, _⟩ => exact (dotMix_rhs0 _ _).trans hk
    | ⟨1, _⟩ => exact dotMix_rhs1 _ _)
  rw [el, er]

end Products

/-! ## The stages up to the pair score -/

section Scores
open Cert.ReferenceIdeal.HandRun

/-- The projected features at `(r, d)`: row `r` of the inputs against row `d` of the weights, plus the bias at `d`. -/
theorem feat_apply (a1 : FVec Ideal S12288x256 .f32) (a2 : FVec Ideal S128x256 .f32) (a3 : FVec Ideal S128 .f32)
    (r : Fin 12288) (d : Fin 128) : feat (F := Ideal) a1 a2 a3 (ix2 r d) = Cert.Spec.nf a1 a2 a3 r d := by
  unfold feat Cert.Spec.nf
  refine (addf_apply _ _ _).trans ?_
  refine congrArg₂ (· + ·) ?_ ?_
  · refine (dotFeat_apply a1 _ r d).trans ?_
    refine Finset.sum_congr rfl fun k _ => ?_
    exact congrArg (a1 (ix2 r k) * ·) (transpose_ix2_apply a2 transposes_S128x256_S256x128_1_0 k d)
  · refine (bcastRow_apply bcast_S1x128_S12288x128_0_1 _ r d).trans ?_
    exact bcastVecRow_apply bcast_S128_S1x128_1 a3 d

/-- The source half of the pair score at row `r`: the features of `r` against the first 128 attention weights. -/
theorem srcScore_apply (f : FVec Ideal S12288x128 .f32) (a4 : FVec Ideal S256x1 .f32) (r : Fin 12288) :
    srcScore (F := Ideal) f a4 (ix2 r (0 : Fin 1)) = Cert.Spec.uu (fun p k => f (ix2 p k)) a4 r := by
  unfold srcScore Cert.Spec.uu
  refine (dotScore_apply f _ r 0).trans ?_
  refine Finset.sum_congr rfl fun k _ => ?_
  exact congrArg (f (ix2 r k) * ·)
    (slice2_axis0_apply 0 a4 slices_S256x1_S128x1_0_0 k (0 : Fin 1) ⟨k.val, by omega⟩ (Nat.zero_add _).symm)

/-- The destination half of the pair score at row `c`: the features of `c` against the last 128 attention weights. -/
theorem dstScore_apply (f : FVec Ideal S12288x128 .f32) (a4 : FVec Ideal S256x1 .f32) (c : Fin 12288) :
    dstScore (F := Ideal) f a4 (ix2 c (0 : Fin 1)) = Cert.Spec.vv (fun p k => f (ix2 p k)) a4 c := by
  unfold dstScore Cert.Spec.vv
  refine (dotScore_apply f _ c 0).trans ?_
  refine Finset.sum_congr rfl fun k _ => ?_
  exact congrArg (f (ix2 c k) * ·)
    (slice2_axis0_apply 128 a4 slices_S256x1_S128x1_128_0 k (0 : Fin 1) ⟨128 + k.val, by omega⟩ rfl)

/-- The raw score of the ordered pair `(r, c)`: the source half at `r` plus the destination half at `c`. -/
theorem pairScore_apply (h0 h1 : FVec Ideal S12288x1 .f32) (r c : Fin 12288) :
    pairScore (F := Ideal) h0 h1 (ix2 r c) = h0 (ix2 r (0 : Fin 1)) + h1 (ix2 c (0 : Fin 1)) := by
  unfold pairScore
  refine (addf_apply _ _ _).trans ?_
  refine congrArg₂ (· + ·) ?_ ?_
  · exact bcastCol_apply bcast_S12288x1_S12288x12288_0_1 h0 r c
  · refine (bcastRow_apply bcast_S1x12288_S12288x12288_0_1 _ r c).trans ?_
    exact transpose_ix2_apply h1 transposes_S12288x1_S1x12288_1_0 (0 : Fin 1) c

end Scores

/-! ## The leaky rectifier and the mask -/

section Pointwise
open Cert.ReferenceIdeal.HandRun

/-- One element of the leaky rectifier as the program writes it (a comparison with the zero literal, then a select
    between the element and the slope literal times it) is `Cert.Spec.leaky` of the element. -/
theorem leaky_elem (z : EReal) :
    Scalar.select (Ideal.cmp .oge z (Ideal.ofBits .f32 0x00000000#32)) z (Ideal.ofBits .f32 0x3C23D70A#32 * z)
      = Cert.Spec.leaky z := by
  rw [Ideal.ofBits_zero_f32]
  unfold Cert.Spec.leaky Scalar.select Ideal.cmp
  by_cases h : (0 : EReal) ≤ z
  · rw [if_pos h, if_pos (by simp [h])]
  · rw [if_neg h, if_neg (by simp [h])]
    rfl

/-- The leaky rectifier on the pair scores, at `(r, c)`. -/
theorem leakyPair_apply (z : FVec Ideal S12288x12288 .f32) (r c : Fin 12288) :
    leakyPair (F := Ideal) z (ix2 r c) = Cert.Spec.leaky (z (ix2 r c)) := by
  unfold leakyPair
  refine Eq.trans ?_ (leaky_elem (z (ix2 r c)))
  refine (select_apply _ _ _ _).trans ?_
  refine congrArg₂ (fun b m => Scalar.select b (z (ix2 r c)) m) ?_ ?_
  · refine (cmpf_apply _ _ _ _).trans ?_
    exact congrArg (Ideal.cmp .oge (z (ix2 r c))) (bcastScalar_apply bcast_S_S12288x12288 _ _)
  · refine (mulf_apply _ _ _).trans ?_
    exact congrArg (· * z (ix2 r c)) (bcastScalar_apply bcast_S_S12288x12288 _ _)

/-- The leaky rectifier on the mixture, at `(r, d)`. -/
theorem leakyOut_apply (z : FVec Ideal S12288x128 .f32) (r : Fin 12288) (d : Fin 128) :
    leakyOut (F := Ideal) z (ix2 r d) = Cert.Spec.leaky (z (ix2 r d)) := by
  unfold leakyOut
  refine Eq.trans ?_ (leaky_elem (z (ix2 r d)))
  refine (select_apply _ _ _ _).trans ?_
  refine congrArg₂ (fun b m => Scalar.select b (z (ix2 r d)) m) ?_ ?_
  · refine (cmpf_apply _ _ _ _).trans ?_
    exact congrArg (Ideal.cmp .oge (z (ix2 r d))) (bcastScalar_apply bcast_S_S12288x128 _ _)
  · refine (mulf_apply _ _ _).trans ?_
    exact congrArg (· * z (ix2 r d)) (bcastScalar_apply bcast_S_S12288x128 _ _)

/-- Two coordinates below 12288, written as 32-bit words, are the same word exactly when they are the same coordinate:
    the program's diagonal test (the row counter plus the zero word against the column counter). -/
theorem diag_word (r c : Fin 12288) :
    IntOp.cmpi .eq (IntOp.addi (BitVec.ofNat 32 r.val) 0#32) (BitVec.ofNat 32 c.val) = 1#1 ↔ r = c := by
  have hr := r.isLt
  have hc := c.isLt
  have hw : BitVec.ofNat 32 r.val = BitVec.ofNat 32 c.val ↔ r = c := by
    constructor
    · intro h
      have e := congrArg BitVec.toNat h
      rw [BitVec.toNat_ofNat, BitVec.toNat_ofNat, Nat.mod_eq_of_lt (by omega), Nat.mod_eq_of_lt (by omega)] at e
      exact Fin.ext e
    · rintro rfl; rfl
  show BitVec.ofBool (BitVec.ofNat 32 r.val + 0#32 == BitVec.ofNat 32 c.val) = 1#1 ↔ r = c
  rw [BitVec.add_zero, ← hw]
  by_cases e : BitVec.ofNat 32 r.val = BitVec.ofNat 32 c.val
  · simp [e]
  · have hb : (BitVec.ofNat 32 r.val == BitVec.ofNat 32 c.val) = false := beq_eq_false_iff_ne.mpr e
    rw [hb]
    exact iff_of_false (by decide) e

/-- The diagonal bit, as a natural number, is one on the diagonal and zero off it. -/
theorem diag_toNat (r c : Fin 12288) :
    (IntOp.cmpi .eq (IntOp.addi (BitVec.ofNat 32 r.val) 0#32) (BitVec.ofNat 32 c.val)).toNat = if r = c then 1 else 0 := by
  by_cases h : r = c
  · rw [if_pos h, (diag_word r c).mpr h]; rfl
  · rw [if_neg h, eq_zero_of_ne_one (mt (diag_word r c).mp h)]; rfl

/-- Which pairs keep their score: for an adjacency of zeros and ones, the float of the entry plus the float of the
    diagonal bit is above zero exactly when the entry is positive or the pair is on the diagonal. -/
theorem edgeMask_apply (a0 : IVec S12288x12288 32) (hadj : ∀ i, a0 i = 0#32 ∨ a0 i = 1#32) (r c : Fin 12288) :
    edgeMask (F := Ideal) a0 (ix2 r c) = 1#1 ↔ Cert.Spec.keep a0 r c := by
  unfold edgeMask Cert.Spec.keep
  have hz : broadcastInDim S12288x12288 ![] bcast_S_S12288x12288 (constant (F := Ideal) S_ .f32 0x00000000#32) (ix2 r c) = 0 :=
    (bcastScalar_apply bcast_S_S12288x12288 _ _).trans Ideal.ofBits_zero_f32
  have hbit : (cmpi .eq (addi (iotaInDim S12288x12288 32 0) (broadcastInDim S12288x12288 ![] bcast_S_S12288x12288 (constantI S_ 32 0#32)))
        (iotaInDim S12288x12288 32 1)) (ix2 r c)
      = IntOp.cmpi .eq (IntOp.addi (BitVec.ofNat 32 r.val) 0#32) (BitVec.ofNat 32 c.val) :=
    congrArg (fun w => IntOp.cmpi .eq (IntOp.addi (BitVec.ofNat 32 r.val) w) (BitVec.ofNat 32 c.val))
      (bcastScalar_apply bcast_S_S12288x12288 _ _)
  show Ideal.cmp .ogt ((((a0 (ix2 r c)).toInt : ℝ) : EReal) + ((((cmpi .eq (addi (iotaInDim S12288x12288 32 0)
      (broadcastInDim S12288x12288 ![] bcast_S_S12288x12288 (constantI S_ 32 0#32))) (iotaInDim S12288x12288 32 1)) (ix2 r c)).toNat : ℝ) : EReal))
      (broadcastInDim S12288x12288 ![] bcast_S_S12288x12288 (constant (F := Ideal) S_ .f32 0x00000000#32) (ix2 r c)) = 1#1 ↔ _
  rw [hz, hbit, diag_toNat]
  unfold Ideal.cmp
  rcases hadj (ix2 r c) with h0 | h1
  · rw [h0]
    by_cases hd : r = c
    · simp [hd]
    · simp [hd]
  · rw [h1]
    by_cases hd : r = c
    · simp [hd]
    · simp [hd]

/-- The masked score at `(r, c)`: the score where the mask bit is one, the literal −1e20 elsewhere. -/
theorem maskedScore_apply (k : IVec S12288x12288 1) (z : FVec Ideal S12288x12288 .f32) (r c : Fin 12288) :
    maskedScore (F := Ideal) k z (ix2 r c) = if k (ix2 r c) = 1#1 then z (ix2 r c) else Cert.Spec.negBig := by
  unfold maskedScore
  refine (select_apply _ _ _ _).trans ?_
  unfold Scalar.select
  exact congrArg (fun m => if k (ix2 r c) = 1 then z (ix2 r c) else m) (bcastScalar_apply bcast_S_S12288x12288 _ _)

end Pointwise

/-! ## The row reductions, the normalisation and the mixture -/

section Rows
open Cert.ReferenceIdeal.HandRun

/-- The shape fact of a reduction along the rows, in the form that names the index with a column put back. -/
theorem rowReduces : S12288x12288.Reduces [1] S12288 := by decide

/-- Row `r` with the column `c` put back is the index `(r, c)`. -/
theorem rowLift (r c : Fin 12288) : rowReduces.lift (ix1 r) c = ix2 r c :=
  funext fun a => Fin.ext (by
    match a with
    | ⟨0, _⟩ => rfl
    | ⟨1, _⟩ => rfl)

/-- The word of binary32's −∞ denotes the bottom of the extended reals. -/
theorem negInf_word : Ideal.ofBits .f32 0xFF800000#32 = ⊥ := by simp [Ideal.ofBits, Ideal.ieee]

/-- Row `r`'s maximum: the fold of `max` from −∞ over the row's columns. -/
theorem rowMax_apply (s : FVec Ideal S12288x12288 .f32) (r : Fin 12288) :
    rowMax (F := Ideal) s (ix1 r) = Cert.Spec.rowMax (fun c => s (ix2 r c)) := by
  unfold rowMax Cert.Spec.rowMax
  refine (maximumf_apply _ _ _).trans ?_
  have h1 : broadcastInDim S12288 ![] bcast_S_S12288 (constant (F := Ideal) S_ .f32 0xFF800000#32) (ix1 r) = ⊥ :=
    (bcastScalar_apply bcast_S_S12288 _ _).trans negInf_word
  have h2 : Host.reduce FloatOps.maximumf s (constant (F := Ideal) S_ .f32 0xFF800000#32) reducesTo_S12288x12288_S12288_d1 h_S_ (ix1 r)
      = (Finset.univ : Finset (Fin 12288)).fold max ⊥ (fun c => s (ix2 r c)) := by
    refine (Host.reduce_eq_fold_single FloatOps.maximumf s _ reducesTo_S12288x12288_S12288_d1 rowReduces h_S_ (ix1 r)).trans ?_
    have hf : (s ∘ rowReduces.lift (ix1 r)) = fun c : Fin 12288 => s (ix2 r c) := funext fun c => congrArg s (rowLift r c)
    rw [hf]
    show (Finset.univ : Finset (Fin 12288)).fold max (Ideal.ofBits .f32 0xFF800000#32) _ = _
    rw [negInf_word]
  rw [h1, h2]
  exact max_bot_left _

/-- The shifted exponential at `(r, c)`: the exponential of the score less the row's value of `mx`. -/
theorem expShift_apply (s : FVec Ideal S12288x12288 .f32) (mx : FVec Ideal S12288 .f32) (r c : Fin 12288) :
    expShift (F := Ideal) s mx (ix2 r c) = Ideal.exp (s (ix2 r c) - mx (ix1 r)) := by
  unfold expShift
  show Ideal.exp (s (ix2 r c) - broadcastInDim S12288x12288 ![0, 1] bcast_S12288x1_S12288x12288_0_1
    (broadcastInDim S12288x1 ![0] bcast_S12288_S12288x1_0 mx) (ix2 r c)) = _
  refine congrArg (fun m => Ideal.exp (s (ix2 r c) - m)) ?_
  exact (bcastCol_apply bcast_S12288x1_S12288x12288_0_1 _ r c).trans (bcastVecCol_apply bcast_S12288_S12288x1_0 mx r)

/-- The attention weight at `(r, c)`: the entry over the sum of its row. -/
theorem attn_apply (e : FVec Ideal S12288x12288 .f32) (r c : Fin 12288) :
    attn (F := Ideal) e (ix2 r c) = Ideal.div (e (ix2 r c)) (∑ c' : Fin 12288, e (ix2 r c')) := by
  unfold attn
  show Ideal.div (e (ix2 r c)) (broadcastInDim S12288x12288 ![0, 1] bcast_S12288x1_S12288x12288_0_1
    (broadcastInDim S12288x1 ![0] bcast_S12288_S12288x1_0
      (Host.reduceAdd e (constant (F := Ideal) S_ .f32 0x00000000#32) reducesTo_S12288x12288_S12288_d1 h_S_)) (ix2 r c)) = _
  refine congrArg (Ideal.div (e (ix2 r c))) ?_
  refine (bcastCol_apply bcast_S12288x1_S12288x12288_0_1 _ r c).trans ?_
  refine (bcastVecCol_apply bcast_S12288_S12288x1_0 _ r).trans ?_
  show Ideal.hostReduceAdd reducesTo_S12288x12288_S12288_d1 e (Ideal.ofBits .f32 0x00000000#32) (ix1 r) = _
  rw [Ideal.hostReduceAdd_single reducesTo_S12288x12288_S12288_d1 rowReduces, Ideal.ofBits_zero_f32, zero_add]
  exact Finset.sum_congr rfl fun c' _ => congrArg e (rowLift r c')

/-- The mixture at `(r, d)`: the sum over the column nodes of the weight at `(r, c)` times feature `d` of node `c`. -/
theorem mix_apply (p : FVec Ideal S12288x12288 .f32) (f : FVec Ideal S12288x128 .f32) (r : Fin 12288) (d : Fin 128) :
    mix (F := Ideal) p f (ix2 r d) = ∑ c : Fin 12288, p (ix2 r c) * f (ix2 c d) :=
  dotMix_apply p f r d

/-- From the masked scores on: the row softmax of `s`, the mixture of `f` by it and the leaky rectifier, at `(r, d)`. -/
theorem softmaxMix_apply (s : FVec Ideal S12288x12288 .f32) (f : FVec Ideal S12288x128 .f32) (r : Fin 12288) (d : Fin 128) :
    leakyOut (F := Ideal) (mix (attn (expShift s (rowMax s))) f) (ix2 r d)
      = Cert.Spec.leaky (Cert.Spec.attend (fun c => s (ix2 r c)) (fun c => f (ix2 c d))) := by
  refine (leakyOut_apply _ r d).trans (congrArg Cert.Spec.leaky ?_)
  refine (mix_apply _ f r d).trans ?_
  unfold Cert.Spec.attend
  have he : ∀ c' : Fin 12288, expShift (F := Ideal) s (rowMax s) (ix2 r c')
      = Ideal.exp (s (ix2 r c') - Cert.Spec.rowMax (fun c => s (ix2 r c))) := fun c' =>
    (expShift_apply s _ r c').trans (congrArg (fun m => Ideal.exp (s (ix2 r c') - m)) (rowMax_apply s r))
  refine Finset.sum_congr rfl fun c _ => congrArg (· * f (ix2 c d)) ?_
  refine (attn_apply _ r c).trans ?_
  rw [he c]
  exact congrArg (Ideal.div _) (Finset.sum_congr rfl fun c' _ => he c')

end Rows

/-! ## The whole program -/

section Whole
open Cert.ReferenceIdeal.HandRun

open scoped Classical in
/-- The masked score of the pair `(r, c)`, from the arguments: the specification's. -/
theorem score_apply (a0 : IVec S12288x12288 32) (a1 : FVec Ideal S12288x256 .f32) (a2 : FVec Ideal S128x256 .f32)
    (a3 : FVec Ideal S128 .f32) (a4 : FVec Ideal S256x1 .f32) (hadj : ∀ i, a0 i = 0#32 ∨ a0 i = 1#32) (r c : Fin 12288) :
    maskedScore (F := Ideal) (edgeMask (F := Ideal) a0)
        (leakyPair (pairScore (srcScore (feat a1 a2 a3) a4) (dstScore (feat a1 a2 a3) a4))) (ix2 r c)
      = Cert.Spec.masked a0 (Cert.Spec.nf a1 a2 a3) a4 r c := by
  refine (maskedScore_apply _ _ r c).trans ?_
  unfold Cert.Spec.masked
  refine if_congr (edgeMask_apply a0 hadj r c) ?_ rfl
  refine (leakyPair_apply _ r c).trans (congrArg Cert.Spec.leaky ?_)
  refine (pairScore_apply _ _ r c).trans ?_
  have hfe : (fun (p : Fin 12288) (k : Fin 128) => feat (F := Ideal) a1 a2 a3 (ix2 p k)) = Cert.Spec.nf a1 a2 a3 :=
    funext fun p => funext fun k => feat_apply a1 a2 a3 p k
  rw [srcScore_apply, dstScore_apply, hfe]

/-- The reference's result on the extended reals is the specification function, for an adjacency of zeros and ones. -/
theorem out_eq_G (a0 : IVec Cert.ReferenceIdeal.S12288x12288 32) (a1 : FVec Ideal Cert.ReferenceIdeal.S12288x256 .f32)
    (a2 : FVec Ideal Cert.ReferenceIdeal.S128x256 .f32) (a3 : FVec Ideal Cert.ReferenceIdeal.S128 .f32)
    (a4 : FVec Ideal Cert.ReferenceIdeal.S256x1 .f32) (hadj : ∀ i, a0 i = 0#32 ∨ a0 i = 1#32) :
    Cert.ReferenceIdeal.HandRun.out (F := Ideal) a0 a1 a2 a3 a4 = Cert.Spec.G a0 a1 a2 a3 a4 := by
  funext i
  obtain ⟨r, d, rfl⟩ : ∃ (r : Fin 12288) (d : Fin 128), i = ix2 r d := ⟨i 0, i 1, eq_ix2 i⟩
  refine (softmaxMix_apply _ _ r d).trans ?_
  unfold Cert.Spec.G
  have h1 : (fun c : Fin 12288 => maskedScore (F := Ideal) (edgeMask (F := Ideal) a0)
        (leakyPair (pairScore (srcScore (feat a1 a2 a3) a4) (dstScore (feat a1 a2 a3) a4))) (ix2 r c))
      = Cert.Spec.masked a0 (Cert.Spec.nf a1 a2 a3) a4 r := funext fun c => score_apply a0 a1 a2 a3 a4 hadj r c
  have h2 : (fun c : Fin 12288 => feat (F := Ideal) a1 a2 a3 (ix2 c d)) = fun c => Cert.Spec.nf a1 a2 a3 c d :=
    funext fun c => feat_apply a1 a2 a3 c d
  rw [h1, h2]

end Whole

end Cert.ReferenceIdeal.RefValue

end
-- ==== Proof.Math.lean ====
/-
  The row softmax computed in tiles with running quantities equals the row softmax written directly, on finite scores
  and finite features: with M the row's maximum and m_j the running maximum after j tiles, every exponential
  exp (s c − m_j) is exp (s c − M) · exp (M − m_j), so the running sums after the last tile are the direct sums
  (m_12 = M), and the rescaling factor exp (m_j − m_(j+1)) turns sums relative to m_j into sums relative to m_(j+1);
  before the first tile the running maximum is −∞ and the factor exp (−∞) = 0 multiplies sums that are still 0.
-/
import proofs.«413493_j46600395162312_3_alg».proof.Proof.Spec
import Mathlib.Data.EReal.Basic
import Mathlib.Data.EReal.Operations
import Mathlib.Data.EReal.Inv
import Mathlib.Data.Finset.Fold
import Mathlib.Data.Finset.Max
import Mathlib.Logic.Equiv.Fin.Basic
import Mathlib.Algebra.BigOperators.Fin
import Mathlib.Algebra.Order.BigOperators.Group.Finset
import Mathlib.Analysis.SpecialFunctions.Exp

noncomputable section

namespace Cert.Spec

open Idealize.ShloMosaic Idealize.ShloMosaic.ValueIdx
open scoped Classical

/-! ## Finite extended reals: sums, the exponential of a difference -/

/-- A finite sum of finite values is the finite value of the real sum. -/
theorem coe_sum_real {ι : Type*} (t : Finset ι) (f : ι → ℝ) :
    (∑ i ∈ t, (f i : EReal)) = ((∑ i ∈ t, f i : ℝ) : EReal) := by
  induction t using Finset.induction_on with
  | empty => simp
  | insert a t ha ih => rw [Finset.sum_insert ha, Finset.sum_insert ha, ih, EReal.coe_add]

/-- The exponential of a difference of two finite values is the real exponential of the real difference. -/
theorem exp_coe_sub_coe (a b : ℝ) :
    Ideal.exp ((a : EReal) - (b : EReal)) = ((Real.exp (a - b) : ℝ) : EReal) := by
  rw [← EReal.coe_sub]; rfl

/-- The larger of two finite values is the finite value of the larger real. -/
theorem max_coe_coe (a b : ℝ) : max (a : EReal) (b : EReal) = ((max a b : ℝ) : EReal) :=
  (EReal.coe_strictMono.monotone.map_max).symm

/-! ## The twelve tiles of 1024 columns list every column once -/

/-- The pair (tile, place in the tile) as a column. -/
def tileCol : Fin 12 × Fin 1024 ≃ Fin 12288 :=
  finProdFinEquiv.trans (finCongr (by norm_num))

theorem tileCol_apply (p : Fin 12 × Fin 1024) : tileCol p = colOf p.1.val p.2 := by
  apply Fin.ext
  have h1 := p.1.isLt
  have h2 := p.2.isLt
  simp only [tileCol, colOf, Equiv.trans_apply, finProdFinEquiv_apply_val, finCongr_apply, Fin.coe_cast]
  omega

/-- A sum over all columns is the sum, over the twelve tiles, of the sums over each tile's columns. -/
theorem sum_over_tiles {M : Type*} [AddCommMonoid M] (f : Fin 12288 → M) :
    ∑ c : Fin 12288, f c = ∑ i ∈ Finset.range 12, ∑ q : Fin 1024, f (colOf i q) := by
  rw [Finset.sum_range (fun i => ∑ q : Fin 1024, f (colOf i q))]
  rw [← Fintype.sum_prod_type' (fun (i : Fin 12) (q : Fin 1024) => f (colOf i.val q))]
  symm
  exact Fintype.sum_equiv tileCol _ _ (fun p => by rw [tileCol_apply])

/-- Every column sits in one of the twelve tiles. -/
theorem colOf_div_mod (c : Fin 12288) :
    colOf (c.val / 1024) ⟨c.val % 1024, Nat.mod_lt _ (by norm_num)⟩ = c := by
  apply Fin.ext
  have h := c.isLt
  simp only [colOf]
  omega

/-! ## Maxima: a tile's, the running one, the row's -/

theorem mS_succ (s : Fin 12288 → EReal) (j : ℕ) : mS s (j + 1) = max (mS s j) (tileMax s j) := rfl

theorem lS_succ (s : Fin 12288 → EReal) (j : ℕ) :
    lS s (j + 1) = alphaS s j * lS s j + ∑ q : Fin 1024, Ideal.exp (s (colOf j q) - mS s (j + 1)) := rfl

theorem aS_succ (s v : Fin 12288 → EReal) (j : ℕ) :
    aS s v (j + 1)
      = alphaS s j * aS s v j + ∑ q : Fin 1024, Ideal.exp (s (colOf j q) - mS s (j + 1)) * v (colOf j q) := rfl

/-- A bound is above a tile's maximum exactly when it is above every score of the tile. -/
theorem tileMax_le_iff (s : Fin 12288 → EReal) (j : ℕ) (x : EReal) :
    tileMax s j ≤ x ↔ ∀ q : Fin 1024, s (colOf j q) ≤ x := by
  unfold tileMax
  rw [Finset.fold_max_le]
  simp

/-- A bound is above the row's maximum exactly when it is above every score of the row. -/
theorem rowMax_le_iff (s : Fin 12288 → EReal) (x : EReal) :
    rowMax s ≤ x ↔ ∀ c : Fin 12288, s c ≤ x := by
  unfold rowMax
  rw [Finset.fold_max_le]
  simp

/-- A bound is above the running maximum after j tiles exactly when it is above every score of those tiles. -/
theorem mS_le_iff (s : Fin 12288 → EReal) (j : ℕ) (x : EReal) :
    mS s j ≤ x ↔ ∀ i, i < j → ∀ q : Fin 1024, s (colOf i q) ≤ x := by
  induction j with
  | zero => simp [mS]
  | succ j ih =>
    rw [mS_succ, max_le_iff, ih, tileMax_le_iff]
    constructor
    · rintro ⟨h1, h2⟩ i hi q
      rcases Nat.lt_succ_iff_lt_or_eq.mp hi with h | h
      · exact h1 i h q
      · subst h; exact h2 q
    · intro h
      exact ⟨fun i hi q => h i (Nat.lt_succ_of_lt hi) q, fun q => h j (Nat.lt_succ_self j) q⟩

/-- After the twelfth tile the running maximum is the row's maximum. -/
theorem rowMax_eq_mS (s : Fin 12288 → EReal) : rowMax s = mS s 12 := by
  apply eq_of_forall_ge_iff
  intro x
  rw [rowMax_le_iff, mS_le_iff]
  constructor
  · intro h i _ q; exact h _
  · intro h c
    have hc := h (c.val / 1024) (by have := c.isLt; omega) ⟨c.val % 1024, Nat.mod_lt _ (by norm_num)⟩
    rwa [colOf_div_mod] at hc

/-- The maximum of a tile of finite scores is finite: it is one of the scores. -/
theorem tileMax_finite (sr : Fin 12288 → ℝ) (j : ℕ) :
    ∃ t : ℝ, tileMax (fun c => (sr c : EReal)) j = (t : EReal) := by
  obtain ⟨q0, -, hq0⟩ := Finset.exists_max_image (Finset.univ : Finset (Fin 1024))
    (fun q => sr (colOf j q)) ⟨⟨0, by norm_num⟩, Finset.mem_univ _⟩
  refine ⟨sr (colOf j q0), le_antisymm ?_ ?_⟩
  · rw [tileMax_le_iff]
    intro q
    exact EReal.coe_le_coe_iff.mpr (hq0 q (Finset.mem_univ q))
  · unfold tileMax
    rw [Finset.le_fold_max]
    exact Or.inr ⟨q0, Finset.mem_univ _, le_rfl⟩

/-! ## The running sums, relative to the running maximum -/

/-- After j + 1 tiles the running maximum is a finite m, and the running sum and weighted sum are the sums of
    exp (score − m), resp. exp (score − m) · feature, over the columns of those tiles. -/
theorem running_sums (sr vr : Fin 12288 → ℝ) (j : ℕ) :
    ∃ m : ℝ, mS (fun c => (sr c : EReal)) (j + 1) = (m : EReal) ∧
      lS (fun c => (sr c : EReal)) (j + 1)
        = ((∑ i ∈ Finset.range (j + 1), ∑ q : Fin 1024, Real.exp (sr (colOf i q) - m) : ℝ) : EReal) ∧
      aS (fun c => (sr c : EReal)) (fun c => (vr c : EReal)) (j + 1)
        = ((∑ i ∈ Finset.range (j + 1), ∑ q : Fin 1024,
              Real.exp (sr (colOf i q) - m) * vr (colOf i q) : ℝ) : EReal) := by
  induction j with
  | zero =>
    obtain ⟨t, ht⟩ := tileMax_finite sr 0
    have hm : mS (fun c => (sr c : EReal)) (0 + 1) = (t : EReal) := by
      rw [mS_succ, ht]; simp [mS]
    refine ⟨t, hm, ?_, ?_⟩
    · rw [lS_succ, hm]
      simp only [lS, mul_zero, zero_add, exp_coe_sub_coe, Finset.sum_range_one]
      exact coe_sum_real _ _
    · rw [aS_succ, hm]
      simp only [aS, mul_zero, zero_add, exp_coe_sub_coe, Finset.sum_range_one, ← EReal.coe_mul]
      exact coe_sum_real _ _
  | succ j ih =>
    obtain ⟨m, hm, hl, ha⟩ := ih
    obtain ⟨t, ht⟩ := tileMax_finite sr (j + 1)
    have hm' : mS (fun c => (sr c : EReal)) (j + 1 + 1) = ((max m t : ℝ) : EReal) := by
      rw [mS_succ, hm, ht, max_coe_coe]
    have hal : alphaS (fun c => (sr c : EReal)) (j + 1) = ((Real.exp (m - max m t) : ℝ) : EReal) := by
      unfold alphaS; rw [hm', hm, exp_coe_sub_coe]
    have hre : ∀ a : ℝ, Real.exp (m - max m t) * Real.exp (a - m) = Real.exp (a - max m t) := by
      intro a; rw [← Real.exp_add]; congr 1; ring
    refine ⟨max m t, hm', ?_, ?_⟩
    · rw [lS_succ, hal, hl, hm']
      simp only [exp_coe_sub_coe]
      rw [coe_sum_real, ← EReal.coe_mul, ← EReal.coe_add]
      refine EReal.coe_eq_coe_iff.mpr ?_
      rw [Finset.sum_range_succ _ (j + 1), Finset.mul_sum]
      congr 1
      refine Finset.sum_congr rfl (fun i _ => ?_)
      rw [Finset.mul_sum]
      exact Finset.sum_congr rfl (fun q _ => hre _)
    · rw [aS_succ, hal, ha, hm']
      simp only [exp_coe_sub_coe, ← EReal.coe_mul]
      rw [coe_sum_real, ← EReal.coe_add]
      refine EReal.coe_eq_coe_iff.mpr ?_
      rw [Finset.sum_range_succ _ (j + 1), Finset.mul_sum]
      congr 1
      refine Finset.sum_congr rfl (fun i _ => ?_)
      rw [Finset.mul_sum]
      exact Finset.sum_congr rfl (fun q _ => by rw [← mul_assoc, hre])

/-- After all twelve tiles: the running maximum is a finite M, and the running sums are the sums over the whole row
    relative to M. -/
theorem running_sums_row (sr vr : Fin 12288 → ℝ) :
    ∃ M : ℝ, mS (fun c => (sr c : EReal)) 12 = (M : EReal) ∧
      lS (fun c => (sr c : EReal)) 12 = ((∑ c : Fin 12288, Real.exp (sr c - M) : ℝ) : EReal) ∧
      aS (fun c => (sr c : EReal)) (fun c => (vr c : EReal)) 12
        = ((∑ c : Fin 12288, Real.exp (sr c - M) * vr c : ℝ) : EReal) := by
  obtain ⟨M, hM, hl, ha⟩ := running_sums sr vr 11
  refine ⟨M, hM, ?_, ?_⟩
  · rw [sum_over_tiles]; exact hl
  · rw [sum_over_tiles]; exact ha

/-! ## The two forms of a row's attention-weighted sum -/

/-- On a row of finite scores and finite features the tiled computation is the direct one. -/
theorem attendTiled_eq_attend (s v : Fin 12288 → EReal) (hs : ∀ c, ∃ r : ℝ, s c = (r : EReal)) (hv : ∀ c, ∃ r : ℝ, v c = (r : EReal)) :
    attendTiled s v = attend s v := by
  choose sr hsr using hs
  choose vr hvr using hv
  obtain rfl : s = fun c => (sr c : EReal) := funext hsr
  obtain rfl : v = fun c => (vr c : EReal) := funext hvr
  obtain ⟨M, hM, hl, ha⟩ := running_sums_row sr vr
  have hrow : rowMax (fun c => (sr c : EReal)) = (M : EReal) := by rw [rowMax_eq_mS]; exact hM
  have hLpos : 0 < ∑ c : Fin 12288, Real.exp (sr c - M) :=
    Finset.sum_pos (fun c _ => Real.exp_pos _) ⟨⟨0, by norm_num⟩, Finset.mem_univ _⟩
  unfold attendTiled attend
  rw [hl, ha, hrow]
  simp only [exp_coe_sub_coe]
  rw [coe_sum_real]
  simp only [Ideal.div_coe hLpos.ne', one_mul, ← EReal.coe_mul]
  rw [coe_sum_real]
  refine EReal.coe_eq_coe_iff.mpr ?_
  rw [Finset.sum_mul]
  exact Finset.sum_congr rfl (fun c _ => by ring)

/-! ## What enters the row softmax is finite -/

theorem finite_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem finite_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem finite_sum {ι : Type*} (t : Finset ι) (f : ι → EReal) (hf : ∀ i, ∃ r : ℝ, f i = (r : EReal)) :
    ∃ r : ℝ, ∑ i ∈ t, f i = (r : EReal) := by
  choose g hg using hf
  refine ⟨∑ i ∈ t, g i, ?_⟩
  simp only [hg]
  exact coe_sum_real t g

/-- The rectifier's slope is a finite number: 10737418 · 2⁻³⁰. -/
theorem slope_finite : ∃ r : ℝ, slope = (r : EReal) := by
  refine ⟨(10737418 : ℝ) * (2 ^ 30)⁻¹, ?_⟩
  simp [slope, Ideal.ofBits, Ideal.ieee]

/-- The fill of a masked entry is a finite number: −11368684 · 2⁴³. -/
theorem negBig_finite : ∃ r : ℝ, negBig = (r : EReal) := by
  refine ⟨-((11368684 : ℝ) * 2 ^ 43), ?_⟩
  simp [negBig, Ideal.ofBits, Ideal.ieee]

/-- The leaky rectifier of a finite value is finite. -/
theorem leaky_finite {z : EReal} (hz : ∃ r : ℝ, z = (r : EReal)) : ∃ r : ℝ, leaky z = (r : EReal) := by
  unfold leaky
  split_ifs
  · exact hz
  · exact finite_mul slope_finite hz

/-- The projected features of finite inputs are finite. -/
theorem nf_finite (x : SNI.Idx → EReal) (W : SOI.Idx → EReal) (b : SO.Idx → EReal)
    (hx : ∀ i, ∃ r : ℝ, x i = (r : EReal)) (hW : ∀ i, ∃ r : ℝ, W i = (r : EReal)) (hb : ∀ i, ∃ r : ℝ, b i = (r : EReal))
    (r : Fin 12288) (d : Fin 128) : ∃ t : ℝ, nf x W b r d = (t : EReal) := by
  unfold nf
  exact finite_add (finite_sum _ _ (fun k => finite_mul (hx _) (hW _))) (hb _)

theorem uu_finite (f : Fin 12288 → Fin 128 → EReal) (phi : SP.Idx → EReal)
    (hf : ∀ r d, ∃ t : ℝ, f r d = (t : EReal)) (hphi : ∀ i, ∃ r : ℝ, phi i = (r : EReal)) (r : Fin 12288) :
    ∃ t : ℝ, uu f phi r = (t : EReal) := by
  unfold uu
  exact finite_sum _ _ (fun k => finite_mul (hf _ _) (hphi _))

theorem vv_finite (f : Fin 12288 → Fin 128 → EReal) (phi : SP.Idx → EReal)
    (hf : ∀ r d, ∃ t : ℝ, f r d = (t : EReal)) (hphi : ∀ i, ∃ r : ℝ, phi i = (r : EReal)) (c : Fin 12288) :
    ∃ t : ℝ, vv f phi c = (t : EReal) := by
  unfold vv
  exact finite_sum _ _ (fun k => finite_mul (hf _ _) (hphi _))

/-- Every masked score is finite: a kept entry is the rectifier of a finite sum, a dropped one the finite fill. -/
theorem masked_finite (adj : SNN.Idx → BitVec 32) (f : Fin 12288 → Fin 128 → EReal) (phi : SP.Idx → EReal)
    (hf : ∀ r d, ∃ t : ℝ, f r d = (t : EReal)) (hphi : ∀ i, ∃ r : ℝ, phi i = (r : EReal)) (r c : Fin 12288) :
    ∃ t : ℝ, masked adj f phi r c = (t : EReal) := by
  unfold masked
  split_ifs
  · exact leaky_finite (finite_add (uu_finite f phi hf hphi r) (vv_finite f phi hf hphi c))
  · exact negBig_finite

/-! ## The layer -/

/-- On finite float inputs (any adjacency words) the two forms of the layer's result agree. -/
theorem Gk_eq_G (adj : SNN.Idx → BitVec 32) (x : SNI.Idx → EReal) (W : SOI.Idx → EReal) (b : SO.Idx → EReal) (phi : SP.Idx → EReal)
    (hx : ∀ i, ∃ r : ℝ, x i = (r : EReal)) (hW : ∀ i, ∃ r : ℝ, W i = (r : EReal)) (hb : ∀ i, ∃ r : ℝ, b i = (r : EReal))
    (hphi : ∀ i, ∃ r : ℝ, phi i = (r : EReal)) :
    Gk adj x W b phi = G adj x W b phi := by
  funext i
  have hf : ∀ r d, ∃ t : ℝ, nf x W b r d = (t : EReal) := nf_finite x W b hx hW hb
  show leaky (attendTiled _ _) = leaky (attend _ _)
  rw [attendTiled_eq_attend _ _ (fun c => masked_finite adj _ phi hf hphi (i 0) c) (fun c => hf c (i 1))]

end Cert.Spec

end
-- ==== Proof.PreFacts.lean ====
/-
  The printed precondition `finite_inputs`, read back as plain facts about its five arrays, at the ideal instance
  (a float is an extended real).

  The precondition is one `i1` word: the conjunction of five "all" reductions. Four of them say, of a float array,
  that every entry x has |x| < +∞ (the ordered compare LT of |x| against the f32 word 0x7F800000, reduced by `and`
  over every axis); the fifth says, of the int32 array, that every entry equals 0 or equals 1. When that word is 1:

  * a conjunction of `i1` words is 1 only when both sides are, so each of the five reductions is 1;
  * an `and`-reduction over every axis, started at 1, is 1 only when every element it folds is 1;
  * the word 0x7F800000 denotes +∞, and |x| is max x (-x). On the extended reals max x (-x) < ⊤ excludes both
    infinities (at x = ⊤ the maximum is ⊤ itself, at x = ⊥ it is -⊥ = ⊤), so x is a real number;
  * a disjunction of two `i1` words is 1 when one side is, and a word compare EQ is 1 exactly when the two words are
    equal; a broadcast scalar constant reads as that constant at every index.
-/
import proofs.«413493_j46600395162312_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic

/-- The rank-0 shape has exactly one index: two indices are functions out of the empty set of axes. -/
instance scalarIdxSubsingleton : Subsingleton Cert.Pre_finite_inputs.S_.Idx :=
  ⟨fun a b => funext fun d => d.elim0⟩

/-- The f32 word 0x7F800000 (sign 0, exponent all ones, significand 0) denotes +∞. -/
theorem infWord_eq_top : Ideal.ofBits .f32 0x7F800000#32 = (⊤ : EReal) := by
  simp [Ideal.ofBits, Ideal.ieee]

/-- An extended real whose absolute value max x (-x) is below +∞ is a real number: at ⊤ the maximum is ⊤, and at ⊥ it
    is -⊥ = ⊤, so neither infinity passes the bound. -/
theorem real_of_abs_lt_top (x : EReal) (h : max x (-x) < ⊤) : ∃ r : ℝ, x = (r : EReal) := by
  induction x using EReal.rec with
  | bot => simp at h
  | coe r => exact ⟨r, rfl⟩
  | top => simp at h

/-- One element of a finiteness mask: if the ordered compare |x| < (the word 0x7F800000) gives the bit 1, then x is a
    real number. The compare is the linear order's on the extended reals and the word is ⊤. -/
theorem real_of_finiteBit (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [infWord_eq_top] at h'
  simpa [Ideal.cmp, StableHlo.Predicate.ofBool_eq_one_iff] using h'

open Idealize.ShloMosaic in
/-- The precondition decoded. If `finite_inputs` of the five arrays is the word 1, then every entry of each of the four
    float arrays is a real number, and every entry of the int32 array is the word 0 or the word 1. -/
theorem of_pre (a0 : IVec Cert.Pre_finite_inputs.S12288x12288 32) (a1 : FVec Ideal Cert.Pre_finite_inputs.S12288x256 .f32) (a2 : FVec Ideal Cert.Pre_finite_inputs.S128x256 .f32) (a3 : FVec Ideal Cert.Pre_finite_inputs.S128 .f32) (a4 : FVec Ideal Cert.Pre_finite_inputs.S256x1 .f32)
    (h : Cert.Pre_finite_inputs.fn (F := Ideal) a0 a1 a2 a3 a4 = (fun _ => 1#1)) :
    (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal))
    ∧ (∀ i, a0 i = 0#32 ∨ a0 i = 1#32) := by
  -- the result has one index; read the claimed word there and lay the chain of operations open
  have hword := congrFun h ValueIdx.ix0
  dsimp only [Cert.Pre_finite_inputs.fn, Cert.Pre_finite_inputs.fn_part1] at hword
  -- the word is (((all₁ ∧ all₂) ∧ all₃) ∧ all₄) ∧ allInt: peel the conjunction from the outside in
  obtain ⟨hword, hInt⟩ := IntOp.andi_eq_one.1 hword
  obtain ⟨hword, hA4⟩ := IntOp.andi_eq_one.1 hword
  obtain ⟨hword, hA3⟩ := IntOp.andi_eq_one.1 hword
  obtain ⟨hA1, hA2⟩ := IntOp.andi_eq_one.1 hword
  refine ⟨fun i => ?_, fun i => ?_, fun i => ?_, fun i => ?_, fun i => ?_⟩
  -- each reduction over every axis being 1 gives the mask's bit at i; the bit says |x| < +∞ there
  · exact real_of_finiteBit (a1 i) (Host.reduce_andi_all _ _ _ _ _ hA1 i)
  · exact real_of_finiteBit (a2 i) (Host.reduce_andi_all _ _ _ _ _ hA2 i)
  · exact real_of_finiteBit (a3 i) (Host.reduce_andi_all _ _ _ _ _ hA3 i)
  · exact real_of_finiteBit (a4 i) (Host.reduce_andi_all _ _ _ _ _ hA4 i)
  -- the integer mask's bit at i is (a0 i = 0) ∨ (a0 i = 1), each side a word compare against a broadcast constant
  · have hbit := Host.reduce_andi_all _ _ _ _ _ hInt i
    rcases IntOp.ori_eq_one.1 hbit with hzero | hone
    · exact Or.inl (IntOp.cmpi_eq.1 hzero)
    · exact Or.inr (IntOp.cmpi_eq.1 hone)

end Cert.PreFacts
-- ==== Proof.lean ====
/-
  One graph-attention layer, as a fused kernel and as plain array code, compute the same function on finite inputs
  whose adjacency entries are 0 or 1.

  The kernel is two pipelined regions: a projection (features = inputs · weightsᵀ + bias, in row tiles) and an attention
  pass over the 12 × 12 tiles of the score matrix that keeps, per row, a running maximum, a running sum of exponentials
  and a running weighted sum of features, rescaled whenever the maximum grows, and divides at the row tile's last column
  tile. The reference forms the whole score matrix, masks it, takes each row's softmax directly and multiplies by the
  features. Both mask an entry unless it is an edge or lies on the diagonal; the kernel tests "adjacency > 0 or
  diagonal", the reference "adjacency + diagonal indicator > 0", which agree when the adjacency is 0 or 1.

  The frames: each program runs to its end, faults nowhere and leaves its arguments unchanged — for the two kernel
  programs from the run of @main as four segments (Proof/KI/Run.lean and its word-level twin), for the reference from
  the run of its straight line of host operations (Proof/RefRun.lean). The value claim: the idealized kernel's result is
  the tiled form `Gk` of the arguments (Proof/KI/Bridge.lean), the reference's is the direct form `G`
  (Proof/RefValue.lean, using the 0/1 adjacency), and `Gk = G` on finite inputs (Proof/Math.lean); finiteness and
  the 0/1 adjacency are read off the precondition (Proof/PreFacts.lean). The idealization rewrote nothing, so there is
  nothing to preserve.
-/
import proofs.«413493_j46600395162312_3_alg».proof.Defs
import proofs.«413493_j46600395162312_3_alg».proof.Proof.KI.Bridge
import proofs.«413493_j46600395162312_3_alg».proof.Proof.K.Walk
import proofs.«413493_j46600395162312_3_alg».proof.Proof.RefRun
import proofs.«413493_j46600395162312_3_alg».proof.Proof.RefValue
import proofs.«413493_j46600395162312_3_alg».proof.Proof.Math
import proofs.«413493_j46600395162312_3_alg».proof.Proof.PreFacts
import proofs.«413493_j46600395162312_3_alg».proof.Proof.Gen.Kernel
import proofs.«413493_j46600395162312_3_alg».proof.Proof.Gen.KernelIdeal
import proofs.«413493_j46600395162312_3_alg».proof.Proof.Gen.ReferenceIdeal
import proofs.«413493_j46600395162312_3_alg».proof.Proof.Gen.Pre_finite_inputs

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both idealized programs end with the layer's value: the kernel's tiled form,
    the reference's direct form, equal on the precondition's inputs. -/
theorem algebraic : Cert.algebraic_KernelIdeal_ReferenceIdeal := by
  intro m ρ m' ρ' hpre hagree
  refine ⟨_, Cert.KernelIdeal.Hand.value m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  obtain ⟨h1, h2, h3, h4, hadj⟩ := Cert.PreFacts.of_pre _ _ _ _ _ (hpre c)
  exact (Cert.ReferenceIdeal.RefValue.out_eq_G _ _ _ _ _ hadj).trans (Cert.Spec.Gk_eq_G _ _ _ _ _ h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
